-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S8x256 : Shape := ⟨2, ![8, 256]⟩
abbrev S8 : Shape := ⟨1, ![8]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S8x256 : S_.BroadcastsInDim S8x256 (![] : Fin 0 → Fin S8x256.rank)
  reducesTo_S8x256_S_d0_1 : S8x256.ReducesTo [0, 1] S_
  bcast_S_S8 : S_.BroadcastsInDim S8 (![] : Fin 0 → Fin S8.rank)
  reducesTo_S8_S_d0 : S8.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128x128 .f32) (main_arg12 : FVec F S8x256 .f32) (main_arg13 : FVec F S8 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S8x256 .f32 := Host.absf main_arg12
  let main_cst_22 : FVec F S_ .f32 := constant S_ .f32 0x7F800000#32
  let main_v60 : FVec F S8x256 .f32 := broadcastInDim S8x256 ![] bcast_S_S8x256 main_cst_22
  let main_v61 : IVec S8x256 1 := cmpf .olt main_v59 main_v60
  let main_c_23 : IVec S_ 1 := constantI S_ 1 1#1
  let main_v62 : IVec S_ 1 := (fun x v => Host.reduce IntOp.andi x v reducesTo_S8x256_S_d0_1 h_S_) main_v61 main_c_23
  let main_v63 : IVec S_ 1 := andi main_v58 main_v62
  let main_v64 : FVec F S8 .f32 := Host.absf main_arg13
  let main_cst_24 : FVec F S_ .f32 := constant S_ .f32 0x7F800000#32
  let main_v65 : FVec F S8 .f32 := broadcastInDim S8 ![] bcast_S_S8 main_cst_24
  let main_v66 : IVec S8 1 := cmpf .olt main_v64 main_v65
  let main_c_25 : IVec S_ 1 := constantI S_ 1 1#1
  let main_v67 : IVec S_ 1 := (fun x v => Host.reduce IntOp.andi x v reducesTo_S8_S_d0 h_S_) main_v66 main_c_25
  fn_part4 (F := F) main_v63 main_v67

def fn_part2 {F : FTy → Type} [FloatOps F] (main_arg7 : FVec F S128 .f32) (main_arg8 : FVec F S128x128 .f32) (main_arg9 : FVec F S128x128 .f32) (main_arg10 : FVec F S128x128 .f32) (main_arg11 : FVec F S128x128 .f32) (main_arg12 : FVec F S8x256 .f32) (main_arg13 : FVec F S8 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128x128 .f32) (main_arg10 : FVec F S128x128 .f32) (main_arg11 : FVec F S128x128 .f32) (main_arg12 : FVec F S8x256 .f32) (main_arg13 : FVec F S8 .f32) (main_v13 : IVec S_ 1) (main_v16 : IVec S10000x10000 1) : IVec S_ 1 :=
  let main_c_5 : IVec S_ 1 := constantI S_ 1 1#1
  let main_v17 : IVec S_ 1 := (fun x v => Host.reduce IntOp.andi x v reducesTo_S10000x10000_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S10000x128 .f32) (main_arg1 : FVec F S10000x10000 .f32) (main_arg2 : FVec F S10000x128 .f32) (main_arg3 : FVec F S10000x10000 .f32) (main_arg4 : FVec F S128x128 .f32) (main_arg5 : FVec F S128 .f32) (main_arg6 : FVec F S128x128 .f32) (main_arg7 : FVec F S128 .f32) (main_arg8 : FVec F S128x128 .f32) (main_arg9 : FVec F S128x128 .f32) (main_arg10 : FVec F S128x128 .f32) (main_arg11 : FVec F S128x128 .f32) (main_arg12 : FVec F S8x256 .f32) (main_arg13 : FVec F S8 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x128 .f32 := Host.absf main_arg2
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_c_3 : IVec S_ 1 := constantI S_ 1 1#1
  let main_v12 : IVec S_ 1 := (fun x v => Host.reduce IntOp.andi x v reducesTo_S10000x128_S_d0_1 h_S_) main_v11 main_c_3
  let main_v13 : IVec S_ 1 := andi main_v8 main_v12
  let main_v14 : FVec F S10000x10000 .f32 := Host.absf main_arg3
  let main_cst_4 : FVec F S_ .f32 := constant S_ .f32 0x7F800000#32
  let main_v15 : FVec F S10000x10000 .f32 := broadcastInDim S10000x10000 ![] bcast_S_S10000x10000 main_cst_4
  let main_v16 : IVec S10000x10000 1 := cmpf .olt main_v14 main_v15
  fn_part1 (F := F) main_arg4 main_arg5 main_arg6 main_arg7 main_arg8 main_arg9 main_arg10 main_arg11 main_arg12 main_arg13 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S8x256 : Shape := ⟨2, ![8, 256]⟩
abbrev S8 : Shape := ⟨1, ![8]⟩
abbrev S1x128 : Shape := ⟨2, ![1, 128]⟩
abbrev S1x8 : Shape := ⟨2, ![1, 8]⟩
abbrev S256x8 : Shape := ⟨2, ![256, 8]⟩
abbrev S128x8 : Shape := ⟨2, ![128, 8]⟩
abbrev S400x128 : Shape := ⟨2, ![400, 128]⟩
abbrev S400x10000 : Shape := ⟨2, ![400, 10000]⟩
abbrev S400 : Shape := ⟨1, ![400]⟩
abbrev S400x1 : Shape := ⟨2, ![400, 1]⟩
abbrev S10000x8 : Shape := ⟨2, ![10000, 8]⟩
abbrev S400x8 : Shape := ⟨2, ![400, 8]⟩

abbrev nBuf : Space → Nat
  | .hbm => 32
  | .vmem => 49
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x128, .f32⟩
  | .hbm, ⟨3, _⟩ => ⟨S10000x10000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S8x256, .f32⟩
  | .hbm, ⟨13, _⟩ => ⟨S8, .f32⟩
  | .hbm, ⟨14, _⟩ => ⟨S128x128, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S1x128, .f32⟩
  | .hbm, ⟨21, _⟩ => ⟨S1x128, .f32⟩
  | .hbm, ⟨22, _⟩ => ⟨S1x8, .f32⟩
  | .hbm, ⟨23, _⟩ => ⟨S256x8, .f32⟩
  | .hbm, ⟨24, _⟩ => ⟨S128x8, .f32⟩
  | .hbm, ⟨25, _⟩ => ⟨S128x8, .f32⟩
  | .hbm, ⟨26, _⟩ => ⟨S10000x128, .f32⟩
  | .hbm, ⟨27, _⟩ => ⟨S10000x128, .f32⟩
  | .hbm, ⟨28, _⟩ => ⟨S10000x128, .f32⟩
  | .hbm, ⟨29, _⟩ => ⟨S10000x128, .f32⟩
  | .hbm, ⟨30, _⟩ => ⟨S10000x128, .f32⟩
  | .hbm, ⟨31, _⟩ => ⟨S10000x8, .f32⟩
  | .local _ .vmem, ⟨0, _⟩ => ⟨S400x128, .f32⟩
  | .local _ .vmem, ⟨1, _⟩ => ⟨S400x128, .f32⟩
  | .local _ .vmem, ⟨2, _⟩ => ⟨S128x128, .f32⟩
  | .local _ .vmem, ⟨3, _⟩ => ⟨S1x128, .f32⟩
  | .local _ .vmem, ⟨4, _⟩ => ⟨S400x128, .f32⟩
  | .local _ .vmem, ⟨5, _⟩ => ⟨S400x128, .f32⟩
  | .local _ .vmem, ⟨6, _⟩ => ⟨S400x10000, .f32⟩
  | .local _ .vmem, ⟨7, _⟩ => ⟨S400x10000, .f32⟩
  | .local _ .vmem, ⟨8, _⟩ => ⟨S10000x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S400x128, .f32⟩
  | .local _ .vmem, ⟨14, _⟩ => ⟨S400x128, .f32⟩
  | .local _ .vmem, ⟨15, _⟩ => ⟨S400x10000, .f32⟩
  | .local _ .vmem, ⟨16, _⟩ => ⟨S400x10000, .f32⟩
  | .local _ .vmem, ⟨17, _⟩ => ⟨S10000x128, .f32⟩
  | .local _ .vmem, ⟨18, _⟩ => ⟨S128x128, .f32⟩
  | .local _ .vmem, ⟨19, _⟩ => ⟨S128x128, .f32⟩
  | .local _ .vmem, ⟨20, _⟩ => ⟨S400x128, .f32⟩
  | .local _ .vmem, ⟨21, _⟩ => ⟨S400x128, .f32⟩
  | .local _ .vmem, ⟨22, _⟩ => ⟨S400x128, .f32⟩
  | .local _ .vmem, ⟨23, _⟩ => ⟨S400x128, .f32⟩
  | .local _ .vmem, ⟨24, _⟩ => ⟨S128x128, .f32⟩
  | .local _ .vmem, ⟨25, _⟩ => ⟨S1x128, .f32⟩
  | .local _ .vmem, ⟨26, _⟩ => ⟨S400x128, .f32⟩
  | .local _ .vmem, ⟨27, _⟩ => ⟨S400x128, .f32⟩
  | .local _ .vmem, ⟨28, _⟩ => ⟨S400x10000, .f32⟩
  | .local _ .vmem, ⟨29, _⟩ => ⟨S400x10000, .f32⟩
  | .local _ .vmem, ⟨30, _⟩ => ⟨S10000x128, .f32⟩
  | .local _ .vmem, ⟨31, _⟩ => ⟨S128x128, .f32⟩
  | .local _ .vmem, ⟨32, _⟩ => ⟨S128x128, .f32⟩
  | .local _ .vmem, ⟨33, _⟩ => ⟨S128x128, .f32⟩
  | .local _ .vmem, ⟨34, _⟩ => ⟨S1x128, .f32⟩
  | .local _ .vmem, ⟨35, _⟩ => ⟨S400x128, .f32⟩
  | .local _ .vmem, ⟨36, _⟩ => ⟨S400x128, .f32⟩
  | .local _ .vmem, ⟨37, _⟩ => ⟨S400x10000, .f32⟩
  | .local _ .vmem, ⟨38, _⟩ => ⟨S400x10000, .f32⟩
  | .local _ .vmem, ⟨39, _⟩ => ⟨S10000x128, .f32⟩
  | .local _ .vmem, ⟨40, _⟩ => ⟨S128x128, .f32⟩
  | .local _ .vmem, ⟨41, _⟩ => ⟨S128x128, .f32⟩
  | .local _ .vmem, ⟨42, _⟩ => ⟨S400x128, .f32⟩
  | .local _ .vmem, ⟨43, _⟩ => ⟨S400x128, .f32⟩
  | .local _ .vmem, ⟨44, _⟩ => ⟨S128x8, .f32⟩
  | .local _ .vmem, ⟨45, _⟩ => ⟨S128x8, .f32⟩
  | .local _ .vmem, ⟨46, _⟩ => ⟨S1x8, .f32⟩
  | .local _ .vmem, ⟨47, _⟩ => ⟨S400x8, .f32⟩
  | .local _ .vmem, ⟨48, _⟩ => ⟨S400x8, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg6_0 : Ref sig .tc := ⟨.vmem, 35, rfl⟩
abbrev cc4_stg6_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg4_1 : Ref sig .tc := ⟨.vmem, 43, rfl⟩
abbrev cc5_stg5_0 : Ref sig .tc := ⟨.vmem, 44, rfl⟩
abbrev cc5_stg6_0 : Ref sig .tc := ⟨.vmem, 45, rfl⟩
abbrev cc5_stg7_0 : Ref sig .tc := ⟨.vmem, 46, rfl⟩
abbrev cc5_stg8_0 : Ref sig .tc := ⟨.vmem, 47, rfl⟩
abbrev cc5_stg8_1 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem4_0 : DmaSem sig := 33
abbrev cc4_sem5_0 : DmaSem sig := 34
abbrev cc4_sem6_0 : DmaSem sig := 35
abbrev cc4_sem6_1 : DmaSem sig := 36
abbrev cc5_sem0_0 : DmaSem sig := 37
abbrev cc5_sem0_1 : DmaSem sig := 38
abbrev cc5_sem1_0 : DmaSem sig := 39
abbrev cc5_sem2_0 : DmaSem sig := 40
abbrev cc5_sem3_0 : DmaSem sig := 41
abbrev cc5_sem4_0 : DmaSem sig := 42
abbrev cc5_sem4_1 : DmaSem sig := 43
abbrev cc5_sem5_0 : DmaSem sig := 44
abbrev cc5_sem6_0 : DmaSem sig := 45
abbrev cc5_sem7_0 : DmaSem sig := 46
abbrev cc5_sem8_0 : DmaSem sig := 47
abbrev cc5_sem8_1 : DmaSem sig := 48

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S400x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x10000 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S400x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S400x10000 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10000x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S400x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S128x8 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S128x8 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x8 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S400x8 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

class Facts₀ : Prop where
  transposes_S128x128_S128x128_1_0 : S128x128.Transposes [1, 0] S128x128
  shapeCasts_S128_S1x128 : S128.ShapeCasts S1x128
  shapeCasts_S8_S1x8 : S8.ShapeCasts S1x8
  transposes_S8x256_S256x8_1_0 : S8x256.Transposes [1, 0] S256x8
  slices_S256x8_S128x8_0_0 : S256x8.Slices ![0, 0] S128x8
  slices_S256x8_S128x8_128_0 : S256x8.Slices ![128, 0] S128x8
  inb_S400x128_S400x128_0_0 : ∀ a, (![0, 0] : Fin 2 → Nat) a + S400x128.size a ≤ S400x128.size a
  h_S400x128 : 0 < S400x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  reduces_S400x128_S400 : S400x128.Reduces [1] S400
  shapeCasts_S400_S400x1 : S400.ShapeCasts S400x1
  broadcasts_S400x1_S400x128 : S400x1.Broadcasts S400x128
  shapeCasts_S400x128_S400x128 : S400x128.ShapeCasts S400x128
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S400x8 : S1x8.Broadcasts S400x8
  inb_S400x8_S400x8_0_0 : ∀ a, (![0, 0] : Fin 2 → Nat) a + S400x8.size a ≤ S400x8.size a
  h_S400x8 : 0 < S400x8.numel
  dot_S400x128_S128x128_S400x128_1_0_0_1_n_n_wf : DotDims.WF S400x128 S128x128 S400x128 [1] [0] [0] [1] [] []
  dot_S400x10000_S10000x128_S400x128_1_0_0_1_n_n_wf : DotDims.WF S400x10000 S10000x128 S400x128 [1] [0] [0] [1] [] []
  dot_S400x128_S128x8_S400x8_1_0_0_1_n_n_wf : DotDims.WF S400x128 S128x8 S400x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x128.size a ≤ S10000x128.size a
  hwx0_0 : ∀ i : grid0.Coords, EltTy.bits .f32 = 32 ∨ (Rect.block (s := S10000x128) S400x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x128.size a ≤ S10000x128.size a
  hwx1_6 : ∀ i : grid1.Coords, EltTy.bits .f32 = 32 ∨ (Rect.block (s := S10000x128) S400x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .f32 = 32 ∨ (Rect.block (s := S10000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x128.size a ≤ S10000x128.size a
  hwx2_4 : ∀ i : grid2.Coords, EltTy.bits .f32 = 32 ∨ (Rect.block (s := S10000x128) S400x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x128.size a ≤ S10000x128.size a
  hwx3_0 : ∀ i : grid3.Coords, EltTy.bits .f32 = 32 ∨ (Rect.block (s := S10000x128) S400x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x128.size a ≤ S10000x128.size a
  hwx3_3 : ∀ i : grid3.Coords, EltTy.bits .f32 = 32 ∨ (Rect.block (s := S10000x128) S400x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x10000.size a ≤ S10000x10000.size a
  hwx4_0 : ∀ i : grid4.Coords, EltTy.bits .f32 = 32 ∨ (Rect.block (s := S10000x10000) S400x10000.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S10000x128.size a
  hwx4_1 : ∀ i : grid4.Coords, EltTy.bits .f32 = 32 ∨ (Rect.block (s := S10000x128) S10000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S400x128.size a ≤ S10000x128.size a
  hwx4_6 : ∀ i : grid4.Coords, EltTy.bits .f32 = 32 ∨ (Rect.block (s := S10000x128) S400x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S400x10000.size a ≤ S10000x10000.size a
  hwx5_0 : ∀ i : grid5.Coords, EltTy.bits .f32 = 32 ∨ (Rect.block (s := S10000x10000) S400x10000.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10000x128.size a ≤ S10000x128.size a
  hwx5_1 : ∀ i : grid5.Coords, EltTy.bits .f32 = 32 ∨ (Rect.block (s := S10000x128) S10000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S400x128.size a ≤ S10000x128.size a
  hwx5_4 : ∀ i : grid5.Coords, EltTy.bits .f32 = 32 ∨ (Rect.block (s := S10000x128) S400x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x8.size a ≤ S128x8.size a
  hwx5_5 : ∀ i : grid5.Coords, EltTy.bits .f32 = 32 ∨ (Rect.block (s := S128x8) S128x8.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S128x8.size a ≤ S128x8.size a
  hwx5_6 : ∀ i : grid5.Coords, EltTy.bits .f32 = 32 ∨ (Rect.block (s := S128x8) S128x8.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x8.size a ≤ S1x8.size a
  hwx5_7 : ∀ i : grid5.Coords, EltTy.bits .f32 = 32 ∨ (Rect.block (s := S1x8) S1x8.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S400x8.size a ≤ S10000x8.size a
  hwx5_8 : ∀ i : grid5.Coords, EltTy.bits .f32 = 32 ∨ (Rect.block (s := S10000x8) S400x8.size (cc5_transform_8 i) (hinb5_8 i)).WholeWords (EltTy.packing .f32)

variable [Facts₀]

def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x8_S400x8_1_0_0_1_n_n : DotDims S400x128 S128x8 S400x8 where
  lhsContracting := [1]
  rhsContracting := [0]
  lhsNonContracting := [0]
  rhsNonContracting := [1]
  lhsBatch := []
  rhsBatch := []
  wf := dot_S400x128_S128x8_S400x8_1_0_0_1_n_n_wf

abbrev win0_0 : Pipeline.Window sig grid0 :=
  Pipeline.Window.ofSpec (Memref.whole main_arg0) S400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S400x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v14) S400x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_arg2) S400x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v0) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v6) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v15) S400x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg3) S400x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v15) S10000x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v2) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v3) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v1) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v7) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v16) S400x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_arg3) S400x10000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v16) S10000x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v4) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v5) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v14) S400x128.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v10) S128x8.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v11) S128x8.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v8) S1x8.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v17) S400x8.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S8x256 : Shape := ⟨2, ![8, 256]⟩
abbrev S8 : Shape := ⟨1, ![8]⟩
abbrev S1x128 : Shape := ⟨2, ![1, 128]⟩
abbrev S_ : Shape := ⟨0, ![]⟩
abbrev S10000 : Shape := ⟨1, ![10000]⟩
abbrev S10000x1 : Shape := ⟨2, ![10000, 1]⟩
abbrev S10000x256 : Shape := ⟨2, ![10000, 256]⟩
abbrev S256x8 : Shape := ⟨2, ![256, 8]⟩
abbrev S10000x8 : Shape := ⟨2, ![10000, 8]⟩
abbrev S1x8 : Shape := ⟨2, ![1, 8]⟩

abbrev nBuf : Space → Nat
  | .hbm => 132
  | .vmem => 0
  | .smem => 0
  | _ => 0

abbrev hbmTy0_0 (i : Nat) : BufTy := match i % 128 with
  | 0 => ⟨S10000x128, .f32⟩
  | 1 => ⟨S10000x10000, .f32⟩
  | 2 => ⟨S10000x128, .f32⟩
  | 3 => ⟨S10000x10000, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128x128, .f32⟩
  | 10 => ⟨S128x128, .f32⟩
  | 11 => ⟨S128x128, .f32⟩
  | 12 => ⟨S8x256, .f32⟩
  | 13 => ⟨S8, .f32⟩
  | 14 => ⟨S128x128, .f32⟩
  | 15 => ⟨S10000x128, .f32⟩
  | 16 => ⟨S1x128, .f32⟩
  | 17 => ⟨S10000x128, .f32⟩
  | 18 => ⟨S10000x128, .f32⟩
  | 19 => ⟨S10000x128, .f32⟩
  | 20 => ⟨S_, .f32⟩
  | 21 => ⟨S10000x128, .f32⟩
  | 22 => ⟨S10000x128, .f32⟩
  | 23 => ⟨S128x128, .f32⟩
  | 24 => ⟨S10000x128, .f32⟩
  | 25 => ⟨S128x128, .f32⟩
  | 26 => ⟨S10000x128, .f32⟩
  | 27 => ⟨S_, .f32⟩
  | 28 => ⟨S10000, .f32⟩
  | 29 => ⟨S_, .f32⟩
  | 30 => ⟨S10000, .f32⟩
  | 31 => ⟨S10000, .f32⟩
  | 32 => ⟨S10000x1, .f32⟩
  | 33 => ⟨S10000x128, .f32⟩
  | 34 => ⟨S10000x128, .f32⟩
  | 35 => ⟨S10000x128, .f32⟩
  | 36 => ⟨S_, .f32⟩
  | 37 => ⟨S10000, .f32⟩
  | 38 => ⟨S10000x1, .f32⟩
  | 39 => ⟨S10000x128, .f32⟩
  | 40 => ⟨S10000x128, .f32⟩
  | 41 => ⟨S10000x128, .f32⟩
  | 42 => ⟨S128x128, .f32⟩
  | 43 => ⟨S10000x128, .f32⟩
  | 44 => ⟨S1x128, .f32⟩
  | 45 => ⟨S10000x128, .f32⟩
  | 46 => ⟨S10000x128, .f32⟩
  | 47 => ⟨S10000x128, .f32⟩
  | 48 => ⟨S_, .f32⟩
  | 49 => ⟨S10000x128, .f32⟩
  | 50 => ⟨S10000x128, .f32⟩
  | 51 => ⟨S128x128, .f32⟩
  | 52 => ⟨S10000x128, .f32⟩
  | 53 => ⟨S128x128, .f32⟩
  | 54 => ⟨S10000x128, .f32⟩
  | 55 => ⟨S_, .f32⟩
  | 56 => ⟨S10000, .f32⟩
  | 57 => ⟨S_, .f32⟩
  | 58 => ⟨S10000, .f32⟩
  | 59 => ⟨S10000, .f32⟩
  | 60 => ⟨S10000x1, .f32⟩
  | 61 => ⟨S10000x128, .f32⟩
  | 62 => ⟨S10000x128, .f32⟩
  | 63 => ⟨S10000x128, .f32⟩
  | 64 => ⟨S_, .f32⟩
  | 65 => ⟨S10000, .f32⟩
  | 66 => ⟨S10000x1, .f32⟩
  | 67 => ⟨S10000x128, .f32⟩
  | 68 => ⟨S10000x128, .f32⟩
  | 69 => ⟨S10000x128, .f32⟩
  | 70 => ⟨S128x128, .f32⟩
  | 71 => ⟨S10000x128, .f32⟩
  | 72 => ⟨S1x128, .f32⟩
  | 73 => ⟨S10000x128, .f32⟩
  | 74 => ⟨S10000x128, .f32⟩
  | 75 => ⟨S10000x128, .f32⟩
  | 76 => ⟨S_, .f32⟩
  | 77 => ⟨S10000x128, .f32⟩
  | 78 => ⟨S10000x128, .f32⟩
  | 79 => ⟨S128x128, .f32⟩
  | 80 => ⟨S10000x128, .f32⟩
  | 81 => ⟨S128x128, .f32⟩
  | 82 => ⟨S10000x128, .f32⟩
  | 83 => ⟨S_, .f32⟩
  | 84 => ⟨S10000, .f32⟩
  | 85 => ⟨S_, .f32⟩
  | 86 => ⟨S10000, .f32⟩
  | 87 => ⟨S10000, .f32⟩
  | 88 => ⟨S10000x1, .f32⟩
  | 89 => ⟨S10000x128, .f32⟩
  | 90 => ⟨S10000x128, .f32⟩
  | 91 => ⟨S10000x128, .f32⟩
  | 92 => ⟨S_, .f32⟩
  | 93 => ⟨S10000, .f32⟩
  | 94 => ⟨S10000x1, .f32⟩
  | 95 => ⟨S10000x128, .f32⟩
  | 96 => ⟨S10000x128, .f32⟩
  | 97 => ⟨S10000x128, .f32⟩
  | 98 => ⟨S128x128, .f32⟩
  | 99 => ⟨S10000x128, .f32⟩
  | 100 => ⟨S1x128, .f32⟩
  | 101 => ⟨S10000x128, .f32⟩
  | 102 => ⟨S10000x128, .f32⟩
  | 103 => ⟨S10000x128, .f32⟩
  | 104 => ⟨S_, .f32⟩
  | 105 => ⟨S10000x128, .f32⟩
  | 106 => ⟨S10000x128, .f32⟩
  | 107 => ⟨S128x128, .f32⟩
  | 108 => ⟨S10000x128, .f32⟩
  | 109 => ⟨S128x128, .f32⟩
  | 110 => ⟨S10000x128, .f32⟩
  | 111 => ⟨S_, .f32⟩
  | 112 => ⟨S10000, .f32⟩
  | 113 => ⟨S_, .f32⟩
  | 114 => ⟨S10000, .f32⟩
  | 115 => ⟨S10000, .f32⟩
  | 116 => ⟨S10000x1, .f32⟩
  | 117 => ⟨S10000x128, .f32⟩
  | 118 => ⟨S10000x128, .f32⟩
  | 119 => ⟨S10000x128, .f32⟩
  | 120 => ⟨S_, .f32⟩
  | 121 => ⟨S10000, .f32⟩
  | 122 => ⟨S10000x1, .f32⟩
  | 123 => ⟨S10000x128, .f32⟩
  | 124 => ⟨S10000x128, .f32⟩
  | 125 => ⟨S10000x128, .f32⟩
  | 126 => ⟨S10000x256, .f32⟩
  | 127 => ⟨S256x8, .f32⟩
  | _ => ⟨S10000x128, .f32⟩

abbrev hbmTy0_1 (i : Nat) : BufTy := match i % 128 with
  | 0 => ⟨S10000x8, .f32⟩
  | 1 => ⟨S1x8, .f32⟩
  | 2 => ⟨S10000x8, .f32⟩
  | 3 => ⟨S10000x8, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call0_cst : Ref sig .tc := ⟨.hbm, 20, rfl⟩
abbrev main_call0_v0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call1_cst : Ref sig .tc := ⟨.hbm, 48, rfl⟩
abbrev main_call1_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_2 : Ref sig .tc := ⟨.hbm, 55, rfl⟩
abbrev main_v34 : Ref sig .tc := ⟨.hbm, 56, rfl⟩
abbrev main_cst_3 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_4 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call2_cst : Ref sig .tc := ⟨.hbm, 76, rfl⟩
abbrev main_call2_v0 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_5 : Ref sig .tc := ⟨.hbm, 83, rfl⟩
abbrev main_v57 : Ref sig .tc := ⟨.hbm, 84, rfl⟩
abbrev main_cst_6 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_7 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_call3_cst : Ref sig .tc := ⟨.hbm, 104, rfl⟩
abbrev main_call3_v0 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_8 : Ref sig .tc := ⟨.hbm, 111, rfl⟩
abbrev main_v80 : Ref sig .tc := ⟨.hbm, 112, rfl⟩
abbrev main_cst_9 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_10 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  reducesTo_S10000x128_S10000_d1 : S10000x128.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  concatenates_S10000x128_S10000x128_S10000x256_d1 : Shape.Concatenates [S10000x128, S10000x128] S10000x256 1
  transposes_S8x256_S256x8_1_0 : S8x256.Transposes [1, 0] S256x8
  bcast_S8_S1x8_1 : S8.BroadcastsInDim S1x8 (![1] : Fin 1 → Fin S1x8.rank)
  bcast_S1x8_S10000x8_0_1 : S1x8.BroadcastsInDim S10000x8 (![0, 1] : Fin 2 → Fin S10000x8.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x256_S256x8_S10000x8_1_0_0_1_n_n_wf : DotDims.WF S10000x256 S256x8 S10000x8 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x8_S10000x8_1_0_0_1_n_n : DotDims S10000x256 S256x8 S10000x8 where
  lhsContracting := [1]
  rhsContracting := [0]
  lhsNonContracting := [0]
  rhsNonContracting := [1]
  lhsBatch := []
  rhsBatch := []
  wf := dot_S10000x256_S256x8_S10000x8_1_0_0_1_n_n_wf

class Facts : Prop extends Facts₀ where

variable [Facts]
-- ==== Proof.Spec.lean ====
/-
  The network, row by row, over the extended reals.

  Every layer acts on the rows of a matrix independently. A row `v` of `K` entries meets a `K × C` matrix `w` as the
  row `c ↦ ∑ k, v k · w(k, c)`; a bias row is added entry by entry; the rectifier is `max · 0`; split attention
  takes a row `h`, forms the logits `a = (h · A) · B`, and returns `h c · (exp (a c − M) / ∑ k, exp (a k − M))` with
  `M` the largest logit. A graph layer reads row `r` of the adjacency against the whole support matrix. The last
  layer adds two such rows, each through its own half of the classifier's weights, and a bias.

  A matrix function below is the row function applied to row `j 0` of its row-wise operand and read at column `j 1`;
  so two matrices that agree on a row give the same result on that row, whatever their row counts.
-/
import Idealize.ShloMosaic.PureOps.Ideal
import Idealize.ShloMosaic.Lib.ValueIdx

noncomputable section

open scoped BigOperators

namespace Cert.Spec

open Idealize.ShloMosaic Idealize.ShloMosaic.ValueIdx

/-- An `R × C` matrix of extended reals. -/
abbrev Mat (R C : Nat) : Type := FVec Ideal ⟨2, ![R, C]⟩ .f32

/-- Row `r` of a matrix. -/
def row {R C : Nat} (x : Mat R C) (r : Fin R) : Fin C → EReal := fun k => x (ix2 r k)

/-- A row times a matrix. -/
def vecMat {K C : Nat} (v : Fin K → EReal) (w : Mat K C) : Fin C → EReal := fun c => ∑ k : Fin K, v k * w (ix2 k c)

/-- A row plus a bias row. -/
def addBias {C : Nat} (v : Fin C → EReal) (b : Mat 1 C) : Fin C → EReal := fun c => v c + b (ix2 (0 : Fin 1) c)

/-- The rectifier on a row. -/
def relu {C : Nat} (v : Fin C → EReal) : Fin C → EReal := fun c => max (v c) 0

/-- The largest entry of a row (the fold of `max` from `−∞`). -/
def rowMax {C : Nat} (a : Fin C → EReal) : EReal := (Finset.univ : Finset (Fin C)).fold max ⊥ a

/-- The softmax of a row, shifted by its largest entry. -/
def softmax {C : Nat} (a : Fin C → EReal) : Fin C → EReal :=
  fun c => Ideal.div (Ideal.exp (a c - rowMax a)) (∑ k : Fin C, Ideal.exp (a k - rowMax a))

/-- Split attention on a row: the row reweighted by the softmax of its logits `(h · A) · B`. -/
def attnRow {C : Nat} (h : Fin C → EReal) (A B : Mat C C) : Fin C → EReal :=
  fun c => h c * softmax (vecMat (vecMat h A) B) c

/-- A linear layer on a row. -/
def linRow {K C : Nat} (v : Fin K → EReal) (w : Mat K C) (b : Mat 1 C) : Fin C → EReal := addBias (vecMat v w) b

/-- A graph layer on one adjacency row: aggregate the support matrix, rectify, attend. -/
def gcRow {N C : Nat} (arow : Fin N → EReal) (s : Mat N C) (A B : Mat C C) : Fin C → EReal :=
  attnRow (relu (vecMat arow s)) A B

/-- The classifier on a pair of rows: each through its own weights, plus the bias. -/
def fcRow {C D : Nat} (u v : Fin C → EReal) (wa wb : Mat C D) (b : Mat 1 D) : Fin D → EReal :=
  fun d => vecMat u wa d + vecMat v wb d + b (ix2 (0 : Fin 1) d)

/-! ## The matrix functions -/

/-- `x · w + b`, row by row. -/
def prepS {R K C : Nat} (x : Mat R K) (w : Mat K C) (b : Mat 1 C) : Mat R C :=
  fun j => linRow (row x (j 0)) w b (j 1)

/-- A graph layer: `attend (relu (adj · s))`, row by row. -/
def lastS {R N C : Nat} (adj : Mat R N) (s : Mat N C) (A B : Mat C C) : Mat R C :=
  fun j => gcRow (row adj (j 0)) s A B (j 1)

/-- A graph layer followed by the next layer's linear map. -/
def midS {R N C C' : Nat} (adj : Mat R N) (s : Mat N C) (A B : Mat C C) (w : Mat C C') (b : Mat 1 C') : Mat R C' :=
  fun j => linRow (gcRow (row adj (j 0)) s A B) w b (j 1)

/-- A graph layer followed by the classifier, which also reads the other branch's rows `h1`. -/
def finalS {R N C D : Nat} (adj : Mat R N) (s : Mat N C) (A B : Mat C C) (h1 : Mat R C) (wa wb : Mat C D)
    (b : Mat 1 D) : Mat R D :=
  fun j => fcRow (row h1 (j 0)) (gcRow (row adj (j 0)) s A B) wa wb b (j 1)

/-- The classifier on the two branches' outputs. -/
def fcS {R C D : Nat} (h1 h2 : Mat R C) (wa wb : Mat C D) (b : Mat 1 D) : Mat R D :=
  fun j => fcRow (row h1 (j 0)) (row h2 (j 0)) wa wb b (j 1)

/-! ## Composition laws (all by unfolding: a matrix function's row `r` is its row function of row `r`) -/

theorem row_lastS {R N C : Nat} (adj : Mat R N) (s : Mat N C) (A B : Mat C C) (r : Fin R) :
    row (lastS adj s A B) r = gcRow (row adj r) s A B := rfl

theorem row_prepS {R K C : Nat} (x : Mat R K) (w : Mat K C) (b : Mat 1 C) (r : Fin R) :
    row (prepS x w b) r = linRow (row x r) w b := rfl

/-- A graph layer followed by a linear map is the linear map of the graph layer's output. -/
theorem midS_eq {R N C C' : Nat} (adj : Mat R N) (s : Mat N C) (A B : Mat C C) (w : Mat C C') (b : Mat 1 C') :
    midS adj s A B w b = prepS (lastS adj s A B) w b := rfl

/-- The fused last layer is the classifier of the two branches' outputs. -/
theorem finalS_eq {R N C D : Nat} (adj : Mat R N) (s : Mat N C) (A B : Mat C C) (h1 : Mat R C) (wa wb : Mat C D)
    (b : Mat 1 D) : finalS adj s A B h1 wa wb b = fcS h1 (lastS adj s A B) wa wb b := rfl

/-- Two matrices with a common row give a matrix function's common value on it. -/
theorem prepS_row {R R' K C : Nat} (x : Mat R K) (x' : Mat R' K) (w : Mat K C) (b : Mat 1 C) (r : Fin R) (r' : Fin R')
    (c : Fin C) (hx : row x r = row x' r') : prepS x w b (ix2 r c) = prepS x' w b (ix2 r' c) := by
  show linRow (row x r) w b c = linRow (row x' r') w b c
  rw [hx]

theorem lastS_row {R R' N C : Nat} (adj : Mat R N) (adj' : Mat R' N) (s : Mat N C) (A B : Mat C C) (r : Fin R)
    (r' : Fin R') (c : Fin C) (hx : row adj r = row adj' r') : lastS adj s A B (ix2 r c) = lastS adj' s A B (ix2 r' c) := by
  show gcRow (row adj r) s A B c = gcRow (row adj' r') s A B c
  rw [hx]

theorem midS_row {R R' N C C' : Nat} (adj : Mat R N) (adj' : Mat R' N) (s : Mat N C) (A B : Mat C C) (w : Mat C C')
    (b : Mat 1 C') (r : Fin R) (r' : Fin R') (c : Fin C') (hx : row adj r = row adj' r') :
    midS adj s A B w b (ix2 r c) = midS adj' s A B w b (ix2 r' c) := by
  show linRow (gcRow (row adj r) s A B) w b c = linRow (gcRow (row adj' r') s A B) w b c
  rw [hx]

theorem finalS_row {R R' N C D : Nat} (adj : Mat R N) (adj' : Mat R' N) (s : Mat N C) (A B : Mat C C) (h1 : Mat R C)
    (h1' : Mat R' C) (wa wb : Mat C D) (b : Mat 1 D) (r : Fin R) (r' : Fin R') (d : Fin D)
    (hx : row adj r = row adj' r') (hh : row h1 r = row h1' r') :
    finalS adj s A B h1 wa wb b (ix2 r d) = finalS adj' s A B h1' wa wb b (ix2 r' d) := by
  show fcRow (row h1 r) (gcRow (row adj r) s A B) wa wb b d = fcRow (row h1' r') (gcRow (row adj' r') s A B) wa wb b d
  rw [hx, hh]

/-! ## The whole network -/

/-- One branch: two graph layers over one adjacency. -/
def branch {N K C : Nat} (x : Mat N K) (adj : Mat N N) (w1 : Mat K C) (b1 : Mat 1 C) (w2 : Mat C C) (b2 : Mat 1 C)
    (a11 a12 a21 a22 : Mat C C) : Mat N C :=
  lastS adj (midS adj (prepS x w1 b1) a11 a12 w2 b2) a21 a22

/-- The network: the classifier of the two branches, its weights given as the two halves `wa`, `wb`. -/
def net {N K C D : Nat} (x1 : Mat N K) (adj1 : Mat N N) (x2 : Mat N K) (adj2 : Mat N N) (w1 : Mat K C) (b1 : Mat 1 C)
    (w2 : Mat C C) (b2 : Mat 1 C) (a11 a12 a21 a22 : Mat C C) (wa wb : Mat C D) (bf : Mat 1 D) : Mat N D :=
  fcS (branch x1 adj1 w1 b1 w2 b2 a11 a12 a21 a22) (branch x2 adj2 w1 b1 w2 b2 a11 a12 a21 a22) wa wb bf

end Cert.Spec

end
-- ==== Proof.Out.lean ====
/-
  The value both programs end with, as one function of the fourteen argument arrays: the network of `Spec` with the
  weight matrices transposed, the bias vectors laid out as rows, and the classifier's transposed weights cut into the
  half that meets the first branch and the half that meets the second.
-/
import proofs.«137000_g78030965833912_cont_9to1_m_1096_2_alg».proof.Proof.Spec
import proofs.«137000_g78030965833912_cont_9to1_m_1096_2_alg».proof.Proof.Gen.KernelIdeal

noncomputable section

namespace Cert.KernelIdeal.Hand

open Cert.KernelIdeal Cert.KernelIdeal.Facts₀ Cert.KernelIdeal.Facts Idealize.ShloMosaic Cert.Spec

/-- A weight matrix transposed. -/
abbrev tr (w : Mat 128 128) : Mat 128 128 := transpose S128x128 [1, 0] w transposes_S128x128_S128x128_1_0

/-- A bias vector as a one-row matrix. -/
abbrev rowOf (b : FVec Ideal S128 .f32) : Mat 1 128 := shapeCast S1x128 b shapeCasts_S128_S1x128

/-- The classifier's weights transposed: 256 rows, one per input channel of the joined branches. -/
abbrev trFc (w : Mat 8 256) : Mat 256 8 := transpose S256x8 [1, 0] w transposes_S8x256_S256x8_1_0

/-- The network of the arguments. -/
def outOf (x1 : Mat 10000 128) (adj1 : Mat 10000 10000) (x2 : Mat 10000 128) (adj2 : Mat 10000 10000)
    (W1 : Mat 128 128) (b1 : FVec Ideal S128 .f32) (W2 : Mat 128 128) (b2 : FVec Ideal S128 .f32)
    (A11 A12 A21 A22 : Mat 128 128) (Wfc : Mat 8 256) (bfc : FVec Ideal S8 .f32) : Mat 10000 8 :=
  net x1 adj1 x2 adj2 (tr W1) (rowOf b1) (tr W2) (rowOf b2) (tr A11) (tr A12) (tr A21) (tr A22)
    (extractStridedSlice S128x8 ![0, 0] (trFc Wfc) slices_S256x8_S128x8_0_0)
    (extractStridedSlice S128x8 ![128, 0] (trFc Wfc) slices_S256x8_S128x8_128_0)
    (shapeCast S1x8 bfc shapeCasts_S8_S1x8)

end Cert.KernelIdeal.Hand

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.LibKeepdims.lean ====
/-
  Layout operations on a COLUMN of per-row values, read at an index given by coordinates — what a body that
  reduces along the last axis with the axis kept (`keepdims`) applies to the reduced vector:
  • an `[a]` vector cast to the column `[a, 1]` reads, at `(p, u)`, the operand at `p`;
  • a column `[a, 1]` broadcast along its unit axis to `[a, b]` reads, at `(p, q)`, the column at `(p, 0)`;
  • a `[1, 1]` array's one element taken at position `(0, 0)` is the array at `(0, 0)`;
  • the vector exponential read at an index is the exponential of the operand's entry (on the extended reals);
  • a sum along the last axis of a matrix, read at row `p`, is the sum over the columns of row `p`'s entries
    (on the extended reals, where the lane reduction is the exact sum).
  Each is the library's general read-at-an-index lemma with the coordinate arithmetic discharged.
-/
import Idealize.ShloMosaic.Lib.Pipeline.Value
import Idealize.ShloMosaic.Lib.ValueIdx
import Idealize.ShloMosaic.PureOps.Ideal.Laws

namespace Idealize.ShloMosaic.ValueIdx

open Idealize.ShloMosaic
open scoped BigOperators

variable {α : Type}

/-- An `[a]` vector cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The one element of a `[1, 1]` array taken at position `(0, 0)`. -/
theorem extractAt_11 (v : (⟨2, ![1, 1]⟩ : Shape).Idx → α) (h : ∀ a, (![0, 0] : Fin 2 → Nat) a < (⟨2, ![1, 1]⟩ : Shape).size a) :
    extractAt ![0, 0] v h = v (ix2 (0 : Fin 1) (0 : Fin 1)) := by
  unfold extractAt
  refine congrArg v (funext fun a => Fin.ext ?_)
  match a with
  | ⟨0, _⟩ => rfl
  | ⟨1, _⟩ => rfl

/-- On the extended reals the vector exponential, read at an index, is the exponential of the operand's entry there. -/
theorem exp_apply {s : Shape} {φ : FTy} (x : FVec Ideal s φ) (i : s.Idx) : exp x i = Ideal.exp (x i) := rfl

/-- On the extended reals, the sum along the last axis of an `[a, b]` matrix read at row `p`: the sum over the columns. -/
theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

end Idealize.ShloMosaic.ValueIdx
-- ==== Proof.PayK.lean ====
/-
  What each kernel body computes from the blocks it loads, as a matrix function of `Spec`: the body's product into a
  zero accumulator is a row-by-matrix product, its lane reductions are the row's maximum and sum, its casts and
  broadcasts lay a per-row value along the row; entry (p, q) of the stored block is the row function of row p of
  the row-wise operand, read at q.
-/
import proofs.«137000_g78030965833912_cont_9to1_m_1096_2_alg».proof.Proof.Spec
import proofs.«137000_g78030965833912_cont_9to1_m_1096_2_alg».proof.Proof.Gen.KernelIdeal.Skeleton
import proofs.«137000_g78030965833912_cont_9to1_m_1096_2_alg».proof.Proof.LibDot
import proofs.«137000_g78030965833912_cont_9to1_m_1096_2_alg».proof.Proof.LibKeepdims
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem

namespace Cert.KernelIdeal.Hand

open Cert.KernelIdeal Cert.KernelIdeal.Gen Cert.Spec Idealize.ShloMosaic.ValueIdx

/-! ## Reading the keep-axis forms and the products at an entry -/

/-- The largest entry along the last axis of a matrix, read at row p: the fold of max from −∞ over the row. -/
private theorem rowmax_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = FKind.maximumf.neutral .f32 hφ) (p : Fin a) :
    multiReduction .maximumf [1] ⟨1, ![a]⟩ src 0xFF800000#32 h hφ hacc (ix1 p) = rowMax (fun k => src (ix2 p k)) := by
  refine (Ideal.multiReduction_maximumf_single src _ h hφ hacc (ix1 p)).trans ?_
  have e0 : FloatOps.ofBits (F := Ideal) .f32 0xFF800000#32 = ⊥ := by
    simp [Ideal.ofBits, Ideal.ieee]
  rw [e0]
  unfold rowMax
  refine congrArg (fun f => Finset.fold max ⊥ f Finset.univ) (funext fun k => congrArg src (funext fun ax => Fin.ext ?_))
  match ax with
  | ⟨0, _⟩ => rfl
  | ⟨1, _⟩ => rfl

/-- A row `[1, b]` broadcast to `[a, b]` reads, at `(p, q)`, the row's entry of column `q`. -/
private theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The rectifier's zero. -/
private theorem scalar_zero : (Scalar.ofBits (F := Ideal) .f32 0x00000000#32 : Ideal .f32) = 0 := Ideal.ofBits_zero_f32

/-- A product into the zero accumulator, its right operand passed through a cast to its own shape: row p of the
    result is row p of the left operand times the right operand. -/
private theorem mm_at {R K C : ℕ} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ .f32) (w : FVec Ideal ⟨2, ![K, C]⟩ .f32)
    (hc : (⟨2, ![K, C]⟩ : Shape).ShapeCasts ⟨2, ![K, C]⟩) (p : Fin R) (c : Fin C) :
    matmul d none x (shapeCast ⟨2, ![K, C]⟩ w hc) (constant ⟨2, ![R, C]⟩ .f32 0x00000000#32) (ix2 p c)
      = vecMat (row x p) w c := by
  rw [shapeCast_self]
  exact Cert.LibDot.matmul_zero_at d hl hr hln hrn hlb hrb none x w p c

/-! ## The pieces of a body, as functions of the blocks -/

/-- A linear layer on the block: the product, plus the bias row laid along the rows. -/
private def linPay (x : FVec Ideal S400x128 .f32) (w : FVec Ideal S128x128 .f32) (b : FVec Ideal S1x128 .f32) :
    FVec Ideal S400x128 .f32 :=
  addf (matmul dot_S400x128_S128x128_S400x128_1_0_0_1_n_n none x (shapeCast S128x128 w shapeCasts_S128x128_S128x128)
      (constant S400x128 .f32 0x00000000#32))
    (broadcastTo S400x128 (shapeCast S1x128 b shapeCasts_S1x128_S1x128) broadcasts_S1x128_S400x128)

private theorem linPay_at (x : FVec Ideal S400x128 .f32) (w : FVec Ideal S128x128 .f32) (b : FVec Ideal S1x128 .f32)
    (p : Fin 400) (q : Fin 128) : linPay x w b (ix2 p q) = linRow (row x p) w b q := by
  show matmul dot_S400x128_S128x128_S400x128_1_0_0_1_n_n none x (shapeCast S128x128 w shapeCasts_S128x128_S128x128)
        (constant S400x128 .f32 0x00000000#32) (ix2 p q)
      + broadcastTo S400x128 (shapeCast S1x128 b shapeCasts_S1x128_S1x128) broadcasts_S1x128_S400x128 (ix2 p q)
      = vecMat (row x p) w q + b (ix2 (0 : Fin 1) q)
  rw [mm_at (R := 400) (K := 128) (C := 128) _ rfl rfl rfl rfl rfl rfl x w _ p q,
    broadcastTo_1b_ab_apply (a := 400) (b := 128) _ _ p q, shapeCast_self]

/-- The aggregation of the support matrix over the block's adjacency rows, rectified. -/
private def reluPay (adj : FVec Ideal S400x10000 .f32) (s : FVec Ideal S10000x128 .f32) : FVec Ideal S400x128 .f32 :=
  maximumf (matmul dot_S400x10000_S10000x128_S400x128_1_0_0_1_n_n none adj (shapeCast S10000x128 s shapeCasts_S10000x128_S10000x128)
      (constant S400x128 .f32 0x00000000#32))
    (broadcast S400x128 (Scalar.ofBits .f32 0x00000000#32))

private theorem reluPay_row (adj : FVec Ideal S400x10000 .f32) (s : FVec Ideal S10000x128 .f32) (p : Fin 400) :
    row (reluPay adj s) p = relu (vecMat (row adj p) s) := by
  funext c
  show max (matmul dot_S400x10000_S10000x128_S400x128_1_0_0_1_n_n none adj
        (shapeCast S10000x128 s shapeCasts_S10000x128_S10000x128) (constant S400x128 .f32 0x00000000#32) (ix2 p c))
      (Scalar.ofBits (F := Ideal) .f32 0x00000000#32) = max (vecMat (row adj p) s c) 0
  rw [mm_at (R := 400) (K := 10000) (C := 128) _ rfl rfl rfl rfl rfl rfl adj s _ p c, scalar_zero]

/-- A row's largest entry, laid along the row. -/
private def rowMaxB (M : FVec Ideal S400x128 .f32) : FVec Ideal S400x128 .f32 :=
  broadcastTo S400x128
    (shapeCast S400x1 (multiReduction .maximumf [1] S400 M 0xFF800000#32 reduces_S400x128_S400 (.inl rfl) rfl)
      shapeCasts_S400_S400x1) broadcasts_S400x1_S400x128

private theorem rowMaxB_at (M : FVec Ideal S400x128 .f32) (p : Fin 400) (c : Fin 128) :
    rowMaxB M (ix2 p c) = rowMax (row M p) :=
  (broadcastTo_a1_ab_apply (a := 400) (b := 128) _ _ p c).trans
    ((shapeCast_a_a1_apply (a := 400) _ _ p (0 : Fin 1)).trans (rowmax_apply (a := 400) (b := 128) M _ _ _ p))

/-- A row's sum, laid along the row. -/
private def rowSumB (E : FVec Ideal S400x128 .f32) : FVec Ideal S400x128 .f32 :=
  broadcastTo S400x128
    (shapeCast S400x1 (multiReduction .add [1] S400 E 0x00000000#32 reduces_S400x128_S400 (.inl rfl) rfl)
      shapeCasts_S400_S400x1) broadcasts_S400x1_S400x128

private theorem rowSumB_at (E : FVec Ideal S400x128 .f32) (p : Fin 400) (c : Fin 128) :
    rowSumB E (ix2 p c) = ∑ k : Fin 128, E (ix2 p k) :=
  (broadcastTo_a1_ab_apply (a := 400) (b := 128) _ _ p c).trans
    ((shapeCast_a_a1_apply (a := 400) _ _ p (0 : Fin 1)).trans
      (multiReduction_add_rows_apply (a := 400) (b := 128) E _ _ _ _ p))

/-- The shifted softmax along the rows. -/
private def smPay (M : FVec Ideal S400x128 .f32) : FVec Ideal S400x128 .f32 :=
  divf (exp (subf M (rowMaxB M))) (rowSumB (exp (subf M (rowMaxB M))))

private theorem smPay_at (M : FVec Ideal S400x128 .f32) (p : Fin 400) (q : Fin 128) :
    smPay M (ix2 p q) = softmax (row M p) q := by
  show Ideal.div (Ideal.exp (M (ix2 p q) - rowMaxB M (ix2 p q))) (rowSumB (exp (subf M (rowMaxB M))) (ix2 p q))
    = Ideal.div (Ideal.exp (M (ix2 p q) - rowMax (row M p))) (∑ k : Fin 128, Ideal.exp (M (ix2 p k) - rowMax (row M p)))
  rw [rowMaxB_at, rowSumB_at]
  refine congrArg (Ideal.div _) (Finset.sum_congr rfl fun k _ => ?_)
  show Ideal.exp (M (ix2 p k) - rowMaxB M (ix2 p k)) = _
  rw [rowMaxB_at]

/-- Split attention on the block's rows. -/
private def attnPay (h : FVec Ideal S400x128 .f32) (A B : FVec Ideal S128x128 .f32) : FVec Ideal S400x128 .f32 :=
  mulf h (smPay (matmul dot_S400x128_S128x128_S400x128_1_0_0_1_n_n none
    (matmul dot_S400x128_S128x128_S400x128_1_0_0_1_n_n none h (shapeCast S128x128 A shapeCasts_S128x128_S128x128)
      (constant S400x128 .f32 0x00000000#32))
    (shapeCast S128x128 B shapeCasts_S128x128_S128x128) (constant S400x128 .f32 0x00000000#32)))

private theorem attnPay_at (h : FVec Ideal S400x128 .f32) (A B : FVec Ideal S128x128 .f32) (p : Fin 400) (q : Fin 128) :
    attnPay h A B (ix2 p q) = attnRow (row h p) A B q := by
  show h (ix2 p q) * smPay _ (ix2 p q) = h (ix2 p q) * softmax (vecMat (vecMat (row h p) A) B) q
  rw [smPay_at]
  refine congrArg (fun a => h (ix2 p q) * softmax a q) (funext fun c => ?_)
  refine (mm_at (R := 400) (K := 128) (C := 128) _ rfl rfl rfl rfl rfl rfl _ B _ p c).trans ?_
  refine congrArg (fun a => vecMat a B c) (funext fun k => ?_)
  exact mm_at (R := 400) (K := 128) (C := 128) _ rfl rfl rfl rfl rfl rfl h A _ p k

/-- A graph layer on the block's rows. -/
private theorem gc_row (adj : FVec Ideal S400x10000 .f32) (s : FVec Ideal S10000x128 .f32) (A B : FVec Ideal S128x128 .f32)
    (p : Fin 400) : row (attnPay (reluPay adj s) A B) p = gcRow (row adj p) s A B := by
  funext c
  refine (attnPay_at _ A B p c).trans ?_
  rw [reluPay_row]
  rfl

/-- The classifier on the block: the two branches' rows, each through its own weights, plus the bias row laid along
    the rows; the first branch's block passes through a cast to its own shape. -/
private def fcPay (h1 h2 : FVec Ideal S400x128 .f32) (wa wb : FVec Ideal S128x8 .f32) (b : FVec Ideal S1x8 .f32) :
    FVec Ideal S400x8 .f32 :=
  addf
    (addf
      (matmul dot_S400x128_S128x8_S400x8_1_0_0_1_n_n none (shapeCast S400x128 h1 shapeCasts_S400x128_S400x128)
        (shapeCast S128x8 wa shapeCasts_S128x8_S128x8) (constant S400x8 .f32 0x00000000#32))
      (matmul dot_S400x128_S128x8_S400x8_1_0_0_1_n_n none h2 (shapeCast S128x8 wb shapeCasts_S128x8_S128x8)
        (constant S400x8 .f32 0x00000000#32)))
    (broadcastTo S400x8 (shapeCast S1x8 b shapeCasts_S1x8_S1x8) broadcasts_S1x8_S400x8)

private theorem fcPay_at (h1 h2 : FVec Ideal S400x128 .f32) (wa wb : FVec Ideal S128x8 .f32) (b : FVec Ideal S1x8 .f32)
    (p : Fin 400) (d : Fin 8) : fcPay h1 h2 wa wb b (ix2 p d) = fcRow (row h1 p) (row h2 p) wa wb b d := by
  show matmul dot_S400x128_S128x8_S400x8_1_0_0_1_n_n none (shapeCast S400x128 h1 shapeCasts_S400x128_S400x128)
          (shapeCast S128x8 wa shapeCasts_S128x8_S128x8) (constant S400x8 .f32 0x00000000#32) (ix2 p d)
        + matmul dot_S400x128_S128x8_S400x8_1_0_0_1_n_n none h2 (shapeCast S128x8 wb shapeCasts_S128x8_S128x8)
          (constant S400x8 .f32 0x00000000#32) (ix2 p d)
        + broadcastTo S400x8 (shapeCast S1x8 b shapeCasts_S1x8_S1x8) broadcasts_S1x8_S400x8 (ix2 p d)
      = vecMat (row h1 p) wa d + vecMat (row h2 p) wb d + b (ix2 (0 : Fin 1) d)
  rw [shapeCast_self h1, mm_at (R := 400) (K := 128) (C := 8) _ rfl rfl rfl rfl rfl rfl h1 wa _ p d,
    mm_at (R := 400) (K := 128) (C := 8) _ rfl rfl rfl rfl rfl rfl h2 wb _ p d,
    broadcastTo_1b_ab_apply (a := 400) (b := 8) _ _ p d, shapeCast_self]

/-! ## The six bodies -/

/-- The input projection's body: `x · w + b` on the block's rows. -/
theorem pay_prep (v0 : Vec Ideal S400x128 .f32) (v1 : Vec Ideal S128x128 .f32) (v4 : Vec Ideal S1x128 .f32) :
    k0_pay1 (F := Ideal) v0 v1 v4 = prepS (R := 400) (K := 128) (C := 128) v0 v1 v4 := by
  funext j
  obtain ⟨p, q, rfl⟩ : ∃ (p : Fin 400) (q : Fin 128), j = ix2 p q := ⟨j 0, j 1, eq_ix2 j⟩
  show linPay v0 v1 v4 (ix2 p q) = linRow (row v0 p) v1 v4 q
  exact linPay_at v0 v1 v4 p q

/-- The same body at the second branch's call. -/
theorem pay_prep' (v0 : Vec Ideal S400x128 .f32) (v1 : Vec Ideal S128x128 .f32) (v4 : Vec Ideal S1x128 .f32) :
    k3_pay1 (F := Ideal) v0 v1 v4 = prepS (R := 400) (K := 128) (C := 128) v0 v1 v4 := by
  funext j
  obtain ⟨p, q, rfl⟩ : ∃ (p : Fin 400) (q : Fin 128), j = ix2 p q := ⟨j 0, j 1, eq_ix2 j⟩
  show linPay v0 v1 v4 (ix2 p q) = linRow (row v0 p) v1 v4 q
  exact linPay_at v0 v1 v4 p q

/-- The middle layer's body: a graph layer on the block's adjacency rows, then the next layer's linear map. -/
theorem pay_mid (v0 : Vec Ideal S400x10000 .f32) (v1 : Vec Ideal S10000x128 .f32) (v6 v8 v22 : Vec Ideal S128x128 .f32)
    (v25 : Vec Ideal S1x128 .f32) :
    k1_pay1 (F := Ideal) v0 v1 v6 v8 v22 v25 = midS (R := 400) (N := 10000) (C := 128) (C' := 128) v0 v1 v6 v8 v22 v25 := by
  funext j
  obtain ⟨p, q, rfl⟩ : ∃ (p : Fin 400) (q : Fin 128), j = ix2 p q := ⟨j 0, j 1, eq_ix2 j⟩
  show linPay (attnPay (reluPay v0 v1) v6 v8) v22 v25 (ix2 p q) = linRow (gcRow (row v0 p) v1 v6 v8) v22 v25 q
  rw [linPay_at, gc_row]

/-- The same body at the second branch's call. -/
theorem pay_mid' (v0 : Vec Ideal S400x10000 .f32) (v1 : Vec Ideal S10000x128 .f32) (v6 v8 v22 : Vec Ideal S128x128 .f32)
    (v25 : Vec Ideal S1x128 .f32) :
    k4_pay1 (F := Ideal) v0 v1 v6 v8 v22 v25 = midS (R := 400) (N := 10000) (C := 128) (C' := 128) v0 v1 v6 v8 v22 v25 := by
  funext j
  obtain ⟨p, q, rfl⟩ : ∃ (p : Fin 400) (q : Fin 128), j = ix2 p q := ⟨j 0, j 1, eq_ix2 j⟩
  show linPay (attnPay (reluPay v0 v1) v6 v8) v22 v25 (ix2 p q) = linRow (gcRow (row v0 p) v1 v6 v8) v22 v25 q
  rw [linPay_at, gc_row]

/-- The first branch's last body: a graph layer on the block's adjacency rows. -/
theorem pay_last (v0 : Vec Ideal S400x10000 .f32) (v1 : Vec Ideal S10000x128 .f32) (v6 v8 : Vec Ideal S128x128 .f32) :
    k2_pay1 (F := Ideal) v0 v1 v6 v8 = lastS (R := 400) (N := 10000) (C := 128) v0 v1 v6 v8 := by
  funext j
  obtain ⟨p, q, rfl⟩ : ∃ (p : Fin 400) (q : Fin 128), j = ix2 p q := ⟨j 0, j 1, eq_ix2 j⟩
  show row (attnPay (reluPay v0 v1) v6 v8) p q = gcRow (row v0 p) v1 v6 v8 q
  rw [gc_row]

/-- The fused last body: a graph layer on the block's adjacency rows, then the classifier with the first branch's rows. -/
theorem pay_final (v0 : Vec Ideal S400x10000 .f32) (v1 : Vec Ideal S10000x128 .f32) (v6 v8 : Vec Ideal S128x128 .f32)
    (v22 : Vec Ideal S400x128 .f32) (v24 v27 : Vec Ideal S128x8 .f32) (v31 : Vec Ideal S1x8 .f32) :
    k5_pay1 (F := Ideal) v0 v1 v6 v8 v22 v24 v27 v31
      = finalS (R := 400) (N := 10000) (C := 128) (D := 8) v0 v1 v6 v8 v22 v24 v27 v31 := by
  funext j
  obtain ⟨p, d, rfl⟩ : ∃ (p : Fin 400) (d : Fin 8), j = ix2 p d := ⟨j 0, j 1, eq_ix2 j⟩
  show fcPay v22 (attnPay (reluPay v0 v1) v6 v8) v24 v27 v31 (ix2 p d)
    = fcRow (row v22 p) (gcRow (row v0 p) v1 v6 v8) v24 v27 v31 d
  rw [fcPay_at, gc_row]

end Cert.KernelIdeal.Hand

end
-- ==== Proof.Region0.lean ====
/-
  The first input projection as a whole-array function: the 25 row blocks of 400 rows, each `x · w + b` of its
  rows, tile the 10000 × 128 result; so the result array is `x · w + b` of the whole argument.
-/
import proofs.«137000_g78030965833912_cont_9to1_m_1096_2_alg».proof.Proof.Spec
import proofs.«137000_g78030965833912_cont_9to1_m_1096_2_alg».proof.Proof.PayK
import proofs.«137000_g78030965833912_cont_9to1_m_1096_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.Spec Idealize.ShloMosaic.ValueIdx

-- the TensorCore's buffer contents when the region is entered, whatever they are
variable (V : (c : Dev nD) → (b : Ref sig .tc) → Buf (Elt Ideal) ((c : Thread nD τ).loc b))

/-- The zero offset pair, as the constant function. -/
private theorem hz0 : (![0, 0] : Fin 2 → Nat) = fun _ => 0 := funext fun a => by fin_cases a <;> rfl

/-- The block indices over the grid: the rows' window and the result's move down one block a point; the weight and
    the bias stay at the origin. -/
private theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A point's 400 rows lie inside the 10000. -/
private theorem row_lt0 (t : Fin cfg0.N) (p : Fin 400) : 400 * t.val + p.val < 10000 := by
  have ht : t.val < 25 := lt_of_lt_of_eq t.isLt (show cfg0.N = 25 from N_0)
  have hp := p.isLt
  omega

/-- The weight's block is the whole weight. -/
private theorem iblk0_w (c : Dev nD) (t : Fin cfg0.N) : iblk0 V c 1 t = V c main_v0 := by
  obtain ⟨-, -, e0, e1, -⟩ := idx_facts0 t
  funext y
  unfold iblk0
  rw [View.read_apply]
  show V c main_v0 (((cfg0.win 1).blk t).view.emb y) = V c main_v0 y
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The bias's block is the whole bias row. -/
private theorem iblk0_b (c : Dev nD) (t : Fin cfg0.N) : iblk0 V c 2 t = V c main_v6 := by
  obtain ⟨-, -, -, -, e0, e1, -⟩ := idx_facts0 t
  funext y
  unfold iblk0
  rw [View.read_apply]
  show V c main_v6 (((cfg0.win 2).blk t).view.emb y) = V c main_v6 y
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- Row `p` of the point's block of rows is row `400 t + p` of the argument. -/
private theorem iblk0_x_row (c : Dev nD) (t : Fin cfg0.N) (p : Fin 400) :
    Spec.row (R := 400) (C := 128) (iblk0 V c 0 t) p
      = Spec.row (R := 10000) (C := 128) (V c main_arg0) ⟨400 * t.val + p.val, row_lt0 t p⟩ := by
  obtain ⟨e0, e1, -⟩ := idx_facts0 t
  funext k
  show iblk0 V c 0 t (ix2 p k) = V c main_arg0 (ix2 ⟨400 * t.val + p.val, row_lt0 t p⟩ k)
  unfold iblk0
  rw [View.read_apply]
  show V c main_arg0 (((cfg0.win 0).blk t).view.emb (ix2 p k)) = V c main_arg0 (ix2 ⟨400 * t.val + p.val, row_lt0 t p⟩ k)
  congr 1
  funext a
  apply Fin.ext
  match a with
  | ⟨0, _⟩ => show win0_0.index t (0 : Fin 2) * 400 + 1 * p.val = 400 * t.val + p.val; rw [e0]; omega
  | ⟨1, _⟩ => show win0_0.index t (1 : Fin 2) * 128 + 1 * k.val = k.val; rw [e1]; omega

/-- Entry (p, q) of the point's result block sits at (400 t + p, q) of the result. -/
private theorem emb0_out (t : Fin cfg0.N) (p : Fin 400) (q : Fin 128) :
    ((cfg0.win 3).blk t).view.emb (ix2 p q) = ix2 (n0 := 10000) (n1 := 128) ⟨400 * t.val + p.val, row_lt0 t p⟩ q := by
  obtain ⟨-, -, -, -, -, -, e0, e1⟩ := idx_facts0 t
  funext a
  apply Fin.ext
  match a with
  | ⟨0, _⟩ => show win0_3.index t (0 : Fin 2) * 400 + 1 * p.val = 400 * t.val + p.val; rw [e0]; omega
  | ⟨1, _⟩ => show win0_3.index t (1 : Fin 2) * 128 + 1 * q.val = q.val; rw [e1]; omega

/-- What a point writes back is its block of `x · w + b` of the whole argument. -/
private theorem flushed0_eq (c : Dev nD) (t : Fin cfg0.N) :
    (dat0 V c).flushed 3 t = ((cfg0.win 3).blk t).view.read (Elt Ideal)
      (prepS (R := 10000) (K := 128) (C := 128) (V c main_arg0) (V c main_v0) (V c main_v6)) := by
  show (cfg0.win 3).cut (grid0.coords t) ((dat0 V c).after 3 t) = _
  rw [after0_3]
  unfold out0_3
  rw [View.canon_unit_zero hz0]
  simp only [View.ld_unit_zero (S := S400x128) hz0, View.ld_unit_zero (S := S128x128) hz0, View.ld_unit_zero (S := S1x128) hz0]
  rw [pay_prep, iblk0_w, iblk0_b]
  funext j
  obtain ⟨p, q, rfl⟩ : ∃ (p : Fin 400) (q : Fin 128), j = ix2 p q := ⟨j 0, j 1, eq_ix2 j⟩
  show prepS (R := 400) (K := 128) (C := 128) (iblk0 V c 0 t) (V c main_v0) (V c main_v6) (ix2 p q) = _
  rw [View.read_apply, emb0_out]
  exact prepS_row _ _ _ _ p ⟨400 * t.val + p.val, row_lt0 t p⟩ q (iblk0_x_row V c t p)

/-- An index of the result lies in point `t`'s block iff each coordinate is in the block's range on its axis. -/
private theorem mem_blk0 (t : Fin cfg0.N) (i : S10000x128.Idx) :
    i ∈ ((cfg0.win 3).blk t).view.set ↔ ∀ a : Fin 2, win0_3.index t a * S400x128.size a ≤ (i a).val ∧ (i a).val < win0_3.index t a * S400x128.size a + S400x128.size a := by
  show i ∈ ((View.whole main_v12).slice (win0_3.rect t)).set ↔ _
  rw [View.set_slice_whole, Rect.mem_set_unit]
  exact Iff.rfl

/-- Every index of the result lies in the block of the point its row falls in. -/
private theorem cover0 (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  have hN : cfg0.N = 25 := N_0
  let t : Fin cfg0.N := ⟨(i 0).val / 400, by rw [hN]; omega⟩
  have ht : t.val = (i 0).val / 400 := rfl
  obtain ⟨-, -, -, -, -, -, e0, e1⟩ := idx_facts0 t
  refine ⟨t, flush0_3 t, ?_⟩
  rw [mem_blk0]
  intro a
  match a with
  | ⟨0, _⟩ => show win0_3.index t (0 : Fin 2) * 400 ≤ (i 0).val ∧ (i 0).val < win0_3.index t (0 : Fin 2) * 400 + 400; rw [e0, ht]; omega
  | ⟨1, _⟩ => show win0_3.index t (1 : Fin 2) * 128 ≤ (i 1).val ∧ (i 1).val < win0_3.index t (1 : Fin 2) * 128 + 128; rw [e1]; omega

/-- The region's result array after the run. -/
theorem final0 (c : Dev nD) :
    (dat0 V c).arrAt 3 cfg0.N = prepS (R := 10000) (K := 128) (C := 128) (V c main_arg0) (V c main_v0) (V c main_v6) :=
  (dat0 V c).arrAt_eq_of_cover 3 _ (fun t _ => flushed0_eq V c t) cover0

end Cert.KernelIdeal.Hand

end
-- ==== Proof.Region1.lean ====
/-
  The first branch's middle layer as a whole-array function: each of the 25 row blocks is the graph layer and the next
  linear map of its 400 adjacency rows against the whole support matrix; the blocks tile the result.
-/
import proofs.«137000_g78030965833912_cont_9to1_m_1096_2_alg».proof.Proof.Spec
import proofs.«137000_g78030965833912_cont_9to1_m_1096_2_alg».proof.Proof.PayK
import proofs.«137000_g78030965833912_cont_9to1_m_1096_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.Spec Idealize.ShloMosaic.ValueIdx

-- the TensorCore's buffer contents when the region is entered, whatever they are
variable (V : (c : Dev nD) → (b : Ref sig .tc) → Buf (Elt Ideal) ((c : Thread nD τ).loc b))

namespace Mid1

/-- The zero offsets as a constant function. -/
private theorem hz : (![0, 0] : Fin 2 → Nat) = fun _ => 0 := funext fun a => by fin_cases a <;> rfl

/-- The block indices over the grid: the adjacency's and the result's blocks are block row `t`; every other operand
    is one block, the whole array. -/
private theorem idx : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- A point's 400 rows lie inside the 10000. -/
private theorem row_lt (t : Fin cfg1.N) (p : Fin 400) : 400 * t.val + p.val < 10000 := by
  have ht : t.val < 25 := lt_of_lt_of_eq t.isLt (show cfg1.N = 25 from N_1)
  have hp : p.val < 400 := p.isLt
  omega

/-! ## The blocks the body loads -/

/-- The support matrix is loaded whole. -/
private theorem blk_1 (c : Dev nD) (t : Fin cfg1.N) : iblk1 V c 1 t = V c main_v12 := by
  obtain ⟨-, -, e0, e1, -⟩ := idx t
  funext y
  unfold iblk1
  rw [View.read_apply]
  show V c main_v12 (((cfg1.win 1).blk t).view.emb y) = V c main_v12 y
  congr 1
  funext a
  apply Fin.ext
  match a with
  | ⟨0, _⟩ => show win1_1.index t (0 : Fin 2) * 10000 + 1 * (y 0).val = (y 0).val; rw [e0]; omega
  | ⟨1, _⟩ => show win1_1.index t (1 : Fin 2) * 128 + 1 * (y 1).val = (y 1).val; rw [e1]; omega

/-- So is the attention's first matrix. -/
private theorem blk_2 (c : Dev nD) (t : Fin cfg1.N) : iblk1 V c 2 t = V c main_v2 := by
  obtain ⟨-, -, -, -, e0, e1, -⟩ := idx t
  funext y
  unfold iblk1
  rw [View.read_apply]
  show V c main_v2 (((cfg1.win 2).blk t).view.emb y) = V c main_v2 y
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- So is the attention's second matrix. -/
private theorem blk_3 (c : Dev nD) (t : Fin cfg1.N) : iblk1 V c 3 t = V c main_v3 := by
  obtain ⟨-, -, -, -, -, -, e0, e1, -⟩ := idx t
  funext y
  unfold iblk1
  rw [View.read_apply]
  show V c main_v3 (((cfg1.win 3).blk t).view.emb y) = V c main_v3 y
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- So are the next layer's weights. -/
private theorem blk_4 (c : Dev nD) (t : Fin cfg1.N) : iblk1 V c 4 t = V c main_v1 := by
  obtain ⟨-, -, -, -, -, -, -, -, e0, e1, -⟩ := idx t
  funext y
  unfold iblk1
  rw [View.read_apply]
  show V c main_v1 (((cfg1.win 4).blk t).view.emb y) = V c main_v1 y
  congr 1
  funext a
  apply Fin.ext
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- So is its bias row. -/
private theorem blk_5 (c : Dev nD) (t : Fin cfg1.N) : iblk1 V c 5 t = V c main_v7 := by
  obtain ⟨-, -, -, -, -, -, -, -, -, -, e0, e1, -⟩ := idx t
  funext y
  unfold iblk1
  rw [View.read_apply]
  show V c main_v7 (((cfg1.win 5).blk t).view.emb y) = V c main_v7 y
  congr 1
  funext a
  apply Fin.ext
  match a with
  | ⟨0, _⟩ => show win1_5.index t (0 : Fin 2) * 1 + 1 * (y 0).val = (y 0).val; rw [e0]; omega
  | ⟨1, _⟩ => show win1_5.index t (1 : Fin 2) * 128 + 1 * (y 1).val = (y 1).val; rw [e1]; omega

/-- Row `p` of the adjacency block at point `t` is row `400 t + p` of the adjacency. -/
private theorem blk_0_row (c : Dev nD) (t : Fin cfg1.N) (p : Fin 400) :
    row (R := 400) (C := 10000) (iblk1 V c 0 t) p
      = row (R := 10000) (C := 10000) (V c main_arg1) ⟨400 * t.val + p.val, row_lt t p⟩ := by
  obtain ⟨e0, e1, -⟩ := idx t
  funext k
  unfold row iblk1
  rw [View.read_apply]
  show V c main_arg1 (((cfg1.win 0).blk t).view.emb (ix2 p k)) = V c main_arg1 (ix2 ⟨400 * t.val + p.val, row_lt t p⟩ k)
  congr 1
  funext a
  apply Fin.ext
  match a with
  | ⟨0, _⟩ => show win1_0.index t (0 : Fin 2) * 400 + 1 * p.val = 400 * t.val + p.val; rw [e0]; omega
  | ⟨1, _⟩ => show win1_0.index t (1 : Fin 2) * 10000 + 1 * k.val = k.val; rw [e1]; omega

/-- Entry `(p, q)` of the result block at point `t` is entry `(400 t + p, q)` of the result. -/
private theorem emb_out (t : Fin cfg1.N) (p : Fin 400) (q : Fin 128) :
    ((cfg1.win 6).blk t).view.emb (ix2 p q) = ix2 (⟨400 * t.val + p.val, row_lt t p⟩ : Fin 10000) q := by
  obtain ⟨-, -, -, -, -, -, -, -, -, -, -, -, e0, e1⟩ := idx t
  funext a
  apply Fin.ext
  match a with
  | ⟨0, _⟩ => show win1_6.index t (0 : Fin 2) * 400 + 1 * p.val = 400 * t.val + p.val; rw [e0]; omega
  | ⟨1, _⟩ => show win1_6.index t (1 : Fin 2) * 128 + 1 * q.val = q.val; rw [e1]; omega

/-! ## What a point writes back, and the cover -/

/-- Point `t` writes back block `t` of the middle layer of the whole arrays: the body's matrix function of the loaded
    blocks is row-wise, and the block's rows are the array's rows `400 t …`. -/
private theorem flushed_eq (c : Dev nD) (t : Fin cfg1.N) :
    (dat1 V c).flushed 6 t = ((cfg1.win 6).blk t).view.read (Elt Ideal)
      (midS (R := 10000) (N := 10000) (C := 128) (C' := 128) (V c main_arg1) (V c main_v12) (V c main_v2) (V c main_v3) (V c main_v1) (V c main_v7)) := by
  show (cfg1.win 6).cut (grid1.coords t) ((dat1 V c).after 6 t) = _
  rw [after1_6]
  unfold out1_6
  rw [View.canon_unit_zero hz]
  simp only [View.ld_unit_zero (S := S400x10000) hz, View.ld_unit_zero (S := S10000x128) hz,
    View.ld_unit_zero (S := S128x128) hz, View.ld_unit_zero (S := S1x128) hz]
  rw [pay_mid, blk_1, blk_2, blk_3, blk_4, blk_5]
  funext j
  obtain ⟨p, q, rfl⟩ : ∃ (p : Fin 400) (q : Fin 128), j = ix2 p q := ⟨j 0, j 1, eq_ix2 j⟩
  rw [View.read_apply, emb_out]
  exact midS_row _ _ _ _ _ _ _ p ⟨400 * t.val + p.val, row_lt t p⟩ q (blk_0_row V c t p)

/-- An index of the result is in point `t`'s block iff each coordinate is in the block's range on its axis. -/
private theorem mem_blk (t : Fin cfg1.N) (i : S10000x128.Idx) :
    i ∈ ((cfg1.win 6).blk t).view.set ↔ ∀ a : Fin 2, win1_6.index t a * S400x128.size a ≤ (i a).val ∧ (i a).val < win1_6.index t a * S400x128.size a + S400x128.size a := by
  show i ∈ ((View.whole main_v13).slice (win1_6.rect t)).set ↔ _
  rw [View.set_slice_whole, Rect.mem_set_unit]
  exact Iff.rfl

/-- Row `r` of the result lies in the block of point `r / 400`. -/
private theorem cover (i : S10000x128.Idx) :
    ∃ t : Fin cfg1.N, (cfg1.win 6).flush t = true ∧ i ∈ ((cfg1.win 6).blk t).view.set := by
  have hi0 : (i 0).val < 10000 := (i 0).isLt
  have hi1 : (i 1).val < 128 := (i 1).isLt
  have hN : cfg1.N = 25 := N_1
  refine ⟨⟨(i 0).val / 400, by rw [hN]; omega⟩, flush1_6 _, ?_⟩
  obtain ⟨-, -, -, -, -, -, -, -, -, -, -, -, e0, e1⟩ := idx ⟨(i 0).val / 400, by rw [hN]; omega⟩
  rw [mem_blk]
  intro a
  match a with
  | ⟨0, _⟩ =>
    show win1_6.index _ (0 : Fin 2) * 400 ≤ (i 0).val ∧ (i 0).val < win1_6.index _ (0 : Fin 2) * 400 + 400
    rw [e0]
    show (i 0).val / 400 * 400 ≤ (i 0).val ∧ (i 0).val < (i 0).val / 400 * 400 + 400
    omega
  | ⟨1, _⟩ =>
    show win1_6.index _ (1 : Fin 2) * 128 ≤ (i 1).val ∧ (i 1).val < win1_6.index _ (1 : Fin 2) * 128 + 128
    rw [e1]
    omega

end Mid1

/-- The region's result array after the run. -/
theorem final1 (c : Dev nD) :
    (dat1 V c).arrAt 6 cfg1.N = midS (R := 10000) (N := 10000) (C := 128) (C' := 128) (V c main_arg1) (V c main_v12) (V c main_v2) (V c main_v3) (V c main_v1) (V c main_v7) :=
  (dat1 V c).arrAt_eq_of_cover 6 _ (fun t _ => Mid1.flushed_eq V c t) Mid1.cover

end Cert.KernelIdeal.Hand

end
-- ==== Proof.Region2.lean ====
/-
  The first branch's last layer as a whole-array function: each row block is the graph layer of its 400 adjacency rows
  against the whole support matrix; the blocks tile the result.
-/
import proofs.«137000_g78030965833912_cont_9to1_m_1096_2_alg».proof.Proof.Spec
import proofs.«137000_g78030965833912_cont_9to1_m_1096_2_alg».proof.Proof.PayK
import proofs.«137000_g78030965833912_cont_9to1_m_1096_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.Spec Idealize.ShloMosaic.ValueIdx

-- the TensorCore's buffer contents when the region is entered, whatever they are
variable (V : (c : Dev nD) → (b : Ref sig .tc) → Buf (Elt Ideal) ((c : Thread nD τ).loc b))

/-- The zero offset pair, as the constant function. -/
private theorem hz2 : (![0, 0] : Fin 2 → Nat) = fun _ => 0 := funext fun a => by fin_cases a <;> rfl

/-- The block indices over the grid: the adjacency rows' window and the result's move down one block a point; the
    support matrix and the two attention matrices stay at the origin. -/
private theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- A point's 400 rows lie inside the 10000. -/
private theorem row_lt2 (t : Fin cfg2.N) (p : Fin 400) : 400 * t.val + p.val < 10000 := by
  have ht : t.val < 25 := lt_of_lt_of_eq t.isLt (show cfg2.N = 25 from N_2)
  have hp := p.isLt
  omega

/-- The support matrix's block is the whole support matrix. -/
private theorem iblk2_s (c : Dev nD) (t : Fin cfg2.N) : iblk2 V c 1 t = V c main_v13 := by
  obtain ⟨-, -, e0, e1, -⟩ := idx_facts2 t
  funext y
  unfold iblk2
  rw [View.read_apply]
  show V c main_v13 (((cfg2.win 1).blk t).view.emb y) = V c main_v13 y
  congr 1
  funext a
  apply Fin.ext
  match a with
  | ⟨0, _⟩ => show win2_1.index t (0 : Fin 2) * 10000 + 1 * (y 0).val = (y 0).val; rw [e0]; omega
  | ⟨1, _⟩ => show win2_1.index t (1 : Fin 2) * 128 + 1 * (y 1).val = (y 1).val; rw [e1]; omega

/-- The first attention matrix's block is the whole matrix. -/
private theorem iblk2_A (c : Dev nD) (t : Fin cfg2.N) : iblk2 V c 2 t = V c main_v4 := by
  obtain ⟨-, -, -, -, e0, e1, -⟩ := idx_facts2 t
  funext y
  unfold iblk2
  rw [View.read_apply]
  show V c main_v4 (((cfg2.win 2).blk t).view.emb y) = V c main_v4 y
  congr 1
  funext a
  apply Fin.ext
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

/-- The second attention matrix's block is the whole matrix. -/
private theorem iblk2_B (c : Dev nD) (t : Fin cfg2.N) : iblk2 V c 3 t = V c main_v5 := by
  obtain ⟨-, -, -, -, -, -, e0, e1, -⟩ := idx_facts2 t
  funext y
  unfold iblk2
  rw [View.read_apply]
  show V c main_v5 (((cfg2.win 3).blk t).view.emb y) = V c main_v5 y
  congr 1
  funext a
  apply Fin.ext
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

/-- Row `p` of the point's block of adjacency rows is row `400 t + p` of the adjacency. -/
private theorem iblk2_adj_row (c : Dev nD) (t : Fin cfg2.N) (p : Fin 400) :
    Spec.row (R := 400) (C := 10000) (iblk2 V c 0 t) p
      = Spec.row (R := 10000) (C := 10000) (V c main_arg1) ⟨400 * t.val + p.val, row_lt2 t p⟩ := by
  obtain ⟨e0, e1, -⟩ := idx_facts2 t
  funext k
  show iblk2 V c 0 t (ix2 p k) = V c main_arg1 (ix2 ⟨400 * t.val + p.val, row_lt2 t p⟩ k)
  unfold iblk2
  rw [View.read_apply]
  show V c main_arg1 (((cfg2.win 0).blk t).view.emb (ix2 p k)) = V c main_arg1 (ix2 ⟨400 * t.val + p.val, row_lt2 t p⟩ k)
  congr 1
  funext a
  apply Fin.ext
  match a with
  | ⟨0, _⟩ => show win2_0.index t (0 : Fin 2) * 400 + 1 * p.val = 400 * t.val + p.val; rw [e0]; omega
  | ⟨1, _⟩ => show win2_0.index t (1 : Fin 2) * 10000 + 1 * k.val = k.val; rw [e1]; omega

/-- Entry (p, q) of the point's result block sits at (400 t + p, q) of the result. -/
private theorem emb2_out (t : Fin cfg2.N) (p : Fin 400) (q : Fin 128) :
    ((cfg2.win 4).blk t).view.emb (ix2 p q) = ix2 (n0 := 10000) (n1 := 128) ⟨400 * t.val + p.val, row_lt2 t p⟩ q := by
  obtain ⟨-, -, -, -, -, -, -, -, e0, e1⟩ := idx_facts2 t
  funext a
  apply Fin.ext
  match a with
  | ⟨0, _⟩ => show win2_4.index t (0 : Fin 2) * 400 + 1 * p.val = 400 * t.val + p.val; rw [e0]; omega
  | ⟨1, _⟩ => show win2_4.index t (1 : Fin 2) * 128 + 1 * q.val = q.val; rw [e1]; omega

/-- What a point writes back is its block of the graph layer of the whole adjacency. -/
private theorem flushed2_eq (c : Dev nD) (t : Fin cfg2.N) :
    (dat2 V c).flushed 4 t = ((cfg2.win 4).blk t).view.read (Elt Ideal)
      (lastS (R := 10000) (N := 10000) (C := 128) (V c main_arg1) (V c main_v13) (V c main_v4) (V c main_v5)) := by
  show (cfg2.win 4).cut (grid2.coords t) ((dat2 V c).after 4 t) = _
  rw [after2_4]
  unfold out2_4
  rw [View.canon_unit_zero hz2]
  simp only [View.ld_unit_zero (S := S400x10000) hz2, View.ld_unit_zero (S := S10000x128) hz2, View.ld_unit_zero (S := S128x128) hz2]
  rw [pay_last, iblk2_s, iblk2_A, iblk2_B]
  funext j
  obtain ⟨p, q, rfl⟩ : ∃ (p : Fin 400) (q : Fin 128), j = ix2 p q := ⟨j 0, j 1, eq_ix2 j⟩
  show lastS (R := 400) (N := 10000) (C := 128) (iblk2 V c 0 t) (V c main_v13) (V c main_v4) (V c main_v5) (ix2 p q) = _
  rw [View.read_apply, emb2_out]
  exact lastS_row _ _ _ _ _ p ⟨400 * t.val + p.val, row_lt2 t p⟩ q (iblk2_adj_row V c t p)

/-- An index of the result lies in point `t`'s block iff each coordinate is in the block's range on its axis. -/
private theorem mem_blk2 (t : Fin cfg2.N) (i : S10000x128.Idx) :
    i ∈ ((cfg2.win 4).blk t).view.set ↔ ∀ a : Fin 2, win2_4.index t a * S400x128.size a ≤ (i a).val ∧ (i a).val < win2_4.index t a * S400x128.size a + S400x128.size a := by
  show i ∈ ((View.whole main_v14).slice (win2_4.rect t)).set ↔ _
  rw [View.set_slice_whole, Rect.mem_set_unit]
  exact Iff.rfl

/-- Every index of the result lies in the block of the point its row falls in. -/
private theorem cover2 (i : S10000x128.Idx) :
    ∃ t : Fin cfg2.N, (cfg2.win 4).flush t = true ∧ i ∈ ((cfg2.win 4).blk t).view.set := by
  have hi0 : (i 0).val < 10000 := (i 0).isLt
  have hi1 : (i 1).val < 128 := (i 1).isLt
  have hN : cfg2.N = 25 := N_2
  let t : Fin cfg2.N := ⟨(i 0).val / 400, by rw [hN]; omega⟩
  have ht : t.val = (i 0).val / 400 := rfl
  obtain ⟨-, -, -, -, -, -, -, -, e0, e1⟩ := idx_facts2 t
  refine ⟨t, flush2_4 t, ?_⟩
  rw [mem_blk2]
  intro a
  match a with
  | ⟨0, _⟩ => show win2_4.index t (0 : Fin 2) * 400 ≤ (i 0).val ∧ (i 0).val < win2_4.index t (0 : Fin 2) * 400 + 400; rw [e0, ht]; omega
  | ⟨1, _⟩ => show win2_4.index t (1 : Fin 2) * 128 ≤ (i 1).val ∧ (i 1).val < win2_4.index t (1 : Fin 2) * 128 + 128; rw [e1]; omega

/-- The region's result array after the run. -/
theorem final2 (c : Dev nD) :
    (dat2 V c).arrAt 4 cfg2.N = lastS (R := 10000) (N := 10000) (C := 128) (V c main_arg1) (V c main_v13) (V c main_v4) (V c main_v5) :=
  (dat2 V c).arrAt_eq_of_cover 4 _ (fun t _ => flushed2_eq V c t) cover2

end Cert.KernelIdeal.Hand

end
-- ==== Proof.Region3.lean ====
/-
  The second input projection as a whole-array function: the 25 row blocks of 400 rows, each `x · w + b` of its
  rows, tile the 10000 × 128 result.
-/
import proofs.«137000_g78030965833912_cont_9to1_m_1096_2_alg».proof.Proof.Spec
import proofs.«137000_g78030965833912_cont_9to1_m_1096_2_alg».proof.Proof.PayK
import proofs.«137000_g78030965833912_cont_9to1_m_1096_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.Spec Idealize.ShloMosaic.ValueIdx

-- the TensorCore's buffer contents when the region is entered, whatever they are
variable (V : (c : Dev nD) → (b : Ref sig .tc) → Buf (Elt Ideal) ((c : Thread nD τ).loc b))

/-- The zero offset pair, as the constant function. -/
private theorem hz3 : (![0, 0] : Fin 2 → Nat) = fun _ => 0 := funext fun a => by fin_cases a <;> rfl

/-- The block indices over the grid: the rows' window and the result's move down one block a point; the weight and
    the bias stay at the origin. -/
private theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- A point's 400 rows lie inside the 10000. -/
private theorem row_lt3 (t : Fin cfg3.N) (p : Fin 400) : 400 * t.val + p.val < 10000 := by
  have ht : t.val < 25 := lt_of_lt_of_eq t.isLt (show cfg3.N = 25 from N_3)
  have hp := p.isLt
  omega

/-- The weight's block is the whole weight. -/
private theorem iblk3_w (c : Dev nD) (t : Fin cfg3.N) : iblk3 V c 1 t = V c main_v0 := by
  obtain ⟨-, -, e0, e1, -⟩ := idx_facts3 t
  funext y
  unfold iblk3
  rw [View.read_apply]
  show V c main_v0 (((cfg3.win 1).blk t).view.emb y) = V c main_v0 y
  congr 1
  funext a
  apply Fin.ext
  match a with
  | ⟨0, _⟩ => show win3_1.index t (0 : Fin 2) * 128 + 1 * (y 0).val = (y 0).val; rw [e0]; omega
  | ⟨1, _⟩ => show win3_1.index t (1 : Fin 2) * 128 + 1 * (y 1).val = (y 1).val; rw [e1]; omega

/-- The bias's block is the whole bias row. -/
private theorem iblk3_b (c : Dev nD) (t : Fin cfg3.N) : iblk3 V c 2 t = V c main_v6 := by
  obtain ⟨-, -, -, -, e0, e1, -⟩ := idx_facts3 t
  funext y
  unfold iblk3
  rw [View.read_apply]
  show V c main_v6 (((cfg3.win 2).blk t).view.emb y) = V c main_v6 y
  congr 1
  funext a
  apply Fin.ext
  match a with
  | ⟨0, _⟩ => show win3_2.index t (0 : Fin 2) * 1 + 1 * (y 0).val = (y 0).val; rw [e0]; omega
  | ⟨1, _⟩ => show win3_2.index t (1 : Fin 2) * 128 + 1 * (y 1).val = (y 1).val; rw [e1]; omega

/-- Row `p` of the point's block of rows is row `400 t + p` of the argument. -/
private theorem iblk3_x_row (c : Dev nD) (t : Fin cfg3.N) (p : Fin 400) :
    Spec.row (R := 400) (C := 128) (iblk3 V c 0 t) p
      = Spec.row (R := 10000) (C := 128) (V c main_arg2) ⟨400 * t.val + p.val, row_lt3 t p⟩ := by
  obtain ⟨e0, e1, -⟩ := idx_facts3 t
  funext k
  show iblk3 V c 0 t (ix2 p k) = V c main_arg2 (ix2 ⟨400 * t.val + p.val, row_lt3 t p⟩ k)
  unfold iblk3
  rw [View.read_apply]
  show V c main_arg2 (((cfg3.win 0).blk t).view.emb (ix2 p k)) = V c main_arg2 (ix2 ⟨400 * t.val + p.val, row_lt3 t p⟩ k)
  congr 1
  funext a
  apply Fin.ext
  match a with
  | ⟨0, _⟩ => show win3_0.index t (0 : Fin 2) * 400 + 1 * p.val = 400 * t.val + p.val; rw [e0]; omega
  | ⟨1, _⟩ => show win3_0.index t (1 : Fin 2) * 128 + 1 * k.val = k.val; rw [e1]; omega

/-- Entry (p, q) of the point's result block sits at (400 t + p, q) of the result. -/
private theorem emb3_out (t : Fin cfg3.N) (p : Fin 400) (q : Fin 128) :
    ((cfg3.win 3).blk t).view.emb (ix2 p q) = ix2 (n0 := 10000) (n1 := 128) ⟨400 * t.val + p.val, row_lt3 t p⟩ q := by
  obtain ⟨-, -, -, -, -, -, e0, e1⟩ := idx_facts3 t
  funext a
  apply Fin.ext
  match a with
  | ⟨0, _⟩ => show win3_3.index t (0 : Fin 2) * 400 + 1 * p.val = 400 * t.val + p.val; rw [e0]; omega
  | ⟨1, _⟩ => show win3_3.index t (1 : Fin 2) * 128 + 1 * q.val = q.val; rw [e1]; omega

/-- What a point writes back is its block of `x · w + b` of the whole argument. -/
private theorem flushed3_eq (c : Dev nD) (t : Fin cfg3.N) :
    (dat3 V c).flushed 3 t = ((cfg3.win 3).blk t).view.read (Elt Ideal)
      (prepS (R := 10000) (K := 128) (C := 128) (V c main_arg2) (V c main_v0) (V c main_v6)) := by
  show (cfg3.win 3).cut (grid3.coords t) ((dat3 V c).after 3 t) = _
  rw [after3_3]
  unfold out3_3
  rw [View.canon_unit_zero hz3]
  simp only [View.ld_unit_zero (S := S400x128) hz3, View.ld_unit_zero (S := S128x128) hz3, View.ld_unit_zero (S := S1x128) hz3]
  rw [pay_prep', iblk3_w, iblk3_b]
  funext j
  obtain ⟨p, q, rfl⟩ : ∃ (p : Fin 400) (q : Fin 128), j = ix2 p q := ⟨j 0, j 1, eq_ix2 j⟩
  show prepS (R := 400) (K := 128) (C := 128) (iblk3 V c 0 t) (V c main_v0) (V c main_v6) (ix2 p q) = _
  rw [View.read_apply, emb3_out]
  exact prepS_row _ _ _ _ p ⟨400 * t.val + p.val, row_lt3 t p⟩ q (iblk3_x_row V c t p)

/-- An index of the result lies in point `t`'s block iff each coordinate is in the block's range on its axis. -/
private theorem mem_blk3 (t : Fin cfg3.N) (i : S10000x128.Idx) :
    i ∈ ((cfg3.win 3).blk t).view.set ↔ ∀ a : Fin 2, win3_3.index t a * S400x128.size a ≤ (i a).val ∧ (i a).val < win3_3.index t a * S400x128.size a + S400x128.size a := by
  show i ∈ ((View.whole main_v15).slice (win3_3.rect t)).set ↔ _
  rw [View.set_slice_whole, Rect.mem_set_unit]
  exact Iff.rfl

/-- Every index of the result lies in the block of the point its row falls in. -/
private theorem cover3 (i : S10000x128.Idx) :
    ∃ t : Fin cfg3.N, (cfg3.win 3).flush t = true ∧ i ∈ ((cfg3.win 3).blk t).view.set := by
  have hi0 : (i 0).val < 10000 := (i 0).isLt
  have hi1 : (i 1).val < 128 := (i 1).isLt
  have hN : cfg3.N = 25 := N_3
  let t : Fin cfg3.N := ⟨(i 0).val / 400, by rw [hN]; omega⟩
  have ht : t.val = (i 0).val / 400 := rfl
  obtain ⟨-, -, -, -, -, -, e0, e1⟩ := idx_facts3 t
  refine ⟨t, flush3_3 t, ?_⟩
  rw [mem_blk3]
  intro a
  match a with
  | ⟨0, _⟩ => show win3_3.index t (0 : Fin 2) * 400 ≤ (i 0).val ∧ (i 0).val < win3_3.index t (0 : Fin 2) * 400 + 400; rw [e0, ht]; omega
  | ⟨1, _⟩ => show win3_3.index t (1 : Fin 2) * 128 ≤ (i 1).val ∧ (i 1).val < win3_3.index t (1 : Fin 2) * 128 + 128; rw [e1]; omega

/-- The region's result array after the run. -/
theorem final3 (c : Dev nD) :
    (dat3 V c).arrAt 3 cfg3.N = prepS (R := 10000) (K := 128) (C := 128) (V c main_arg2) (V c main_v0) (V c main_v6) :=
  (dat3 V c).arrAt_eq_of_cover 3 _ (fun t _ => flushed3_eq V c t) cover3

end Cert.KernelIdeal.Hand

end
-- ==== Proof.Region4.lean ====
/-
  The second branch's middle layer as a whole-array function: each of the 25 row blocks is the graph layer and the next
  linear map of its 400 adjacency rows against the whole support matrix; the blocks tile the result.
-/
import proofs.«137000_g78030965833912_cont_9to1_m_1096_2_alg».proof.Proof.Spec
import proofs.«137000_g78030965833912_cont_9to1_m_1096_2_alg».proof.Proof.PayK
import proofs.«137000_g78030965833912_cont_9to1_m_1096_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.Spec Idealize.ShloMosaic.ValueIdx

-- the TensorCore's buffer contents when the region is entered, whatever they are
variable (V : (c : Dev nD) → (b : Ref sig .tc) → Buf (Elt Ideal) ((c : Thread nD τ).loc b))

namespace Mid4

/-- The zero offsets as a constant function. -/
private theorem hz : (![0, 0] : Fin 2 → Nat) = fun _ => 0 := funext fun a => by fin_cases a <;> rfl

/-- The block indices over the grid: the adjacency's and the result's blocks are block row `t`; every other operand
    is one block, the whole array. -/
private theorem idx : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- A point's 400 rows lie inside the 10000. -/
private theorem row_lt (t : Fin cfg4.N) (p : Fin 400) : 400 * t.val + p.val < 10000 := by
  have ht : t.val < 25 := lt_of_lt_of_eq t.isLt (show cfg4.N = 25 from N_4)
  have hp : p.val < 400 := p.isLt
  omega

/-! ## The blocks the body loads -/

/-- The support matrix is loaded whole. -/
private theorem blk_1 (c : Dev nD) (t : Fin cfg4.N) : iblk4 V c 1 t = V c main_v15 := by
  obtain ⟨-, -, e0, e1, -⟩ := idx t
  funext y
  unfold iblk4
  rw [View.read_apply]
  show V c main_v15 (((cfg4.win 1).blk t).view.emb y) = V c main_v15 y
  congr 1
  funext a
  apply Fin.ext
  match a with
  | ⟨0, _⟩ => show win4_1.index t (0 : Fin 2) * 10000 + 1 * (y 0).val = (y 0).val; rw [e0]; omega
  | ⟨1, _⟩ => show win4_1.index t (1 : Fin 2) * 128 + 1 * (y 1).val = (y 1).val; rw [e1]; omega

/-- So is the attention's first matrix. -/
private theorem blk_2 (c : Dev nD) (t : Fin cfg4.N) : iblk4 V c 2 t = V c main_v2 := by
  obtain ⟨-, -, -, -, e0, e1, -⟩ := idx t
  funext y
  unfold iblk4
  rw [View.read_apply]
  show V c main_v2 (((cfg4.win 2).blk t).view.emb y) = V c main_v2 y
  congr 1
  funext a
  apply Fin.ext
  match a with
  | ⟨0, _⟩ => show win4_2.index t (0 : Fin 2) * 128 + 1 * (y 0).val = (y 0).val; rw [e0]; omega
  | ⟨1, _⟩ => show win4_2.index t (1 : Fin 2) * 128 + 1 * (y 1).val = (y 1).val; rw [e1]; omega

/-- So is the attention's second matrix. -/
private theorem blk_3 (c : Dev nD) (t : Fin cfg4.N) : iblk4 V c 3 t = V c main_v3 := by
  obtain ⟨-, -, -, -, -, -, e0, e1, -⟩ := idx t
  funext y
  unfold iblk4
  rw [View.read_apply]
  show V c main_v3 (((cfg4.win 3).blk t).view.emb y) = V c main_v3 y
  congr 1
  funext a
  apply Fin.ext
  match a with
  | ⟨0, _⟩ => show win4_3.index t (0 : Fin 2) * 128 + 1 * (y 0).val = (y 0).val; rw [e0]; omega
  | ⟨1, _⟩ => show win4_3.index t (1 : Fin 2) * 128 + 1 * (y 1).val = (y 1).val; rw [e1]; omega

/-- So are the next layer's weights. -/
private theorem blk_4 (c : Dev nD) (t : Fin cfg4.N) : iblk4 V c 4 t = V c main_v1 := by
  obtain ⟨-, -, -, -, -, -, -, -, e0, e1, -⟩ := idx t
  funext y
  unfold iblk4
  rw [View.read_apply]
  show V c main_v1 (((cfg4.win 4).blk t).view.emb y) = V c main_v1 y
  congr 1
  funext a
  apply Fin.ext
  match a with
  | ⟨0, _⟩ => show win4_4.index t (0 : Fin 2) * 128 + 1 * (y 0).val = (y 0).val; rw [e0]; omega
  | ⟨1, _⟩ => show win4_4.index t (1 : Fin 2) * 128 + 1 * (y 1).val = (y 1).val; rw [e1]; omega

/-- So is its bias row. -/
private theorem blk_5 (c : Dev nD) (t : Fin cfg4.N) : iblk4 V c 5 t = V c main_v7 := by
  obtain ⟨-, -, -, -, -, -, -, -, -, -, e0, e1, -⟩ := idx t
  funext y
  unfold iblk4
  rw [View.read_apply]
  show V c main_v7 (((cfg4.win 5).blk t).view.emb y) = V c main_v7 y
  congr 1
  funext a
  apply Fin.ext
  match a with
  | ⟨0, _⟩ => show win4_5.index t (0 : Fin 2) * 1 + 1 * (y 0).val = (y 0).val; rw [e0]; omega
  | ⟨1, _⟩ => show win4_5.index t (1 : Fin 2) * 128 + 1 * (y 1).val = (y 1).val; rw [e1]; omega

/-- Row `p` of the adjacency block at point `t` is row `400 t + p` of the adjacency. -/
private theorem blk_0_row (c : Dev nD) (t : Fin cfg4.N) (p : Fin 400) :
    row (R := 400) (C := 10000) (iblk4 V c 0 t) p
      = row (R := 10000) (C := 10000) (V c main_arg3) ⟨400 * t.val + p.val, row_lt t p⟩ := by
  obtain ⟨e0, e1, -⟩ := idx t
  funext k
  unfold row iblk4
  rw [View.read_apply]
  show V c main_arg3 (((cfg4.win 0).blk t).view.emb (ix2 p k)) = V c main_arg3 (ix2 ⟨400 * t.val + p.val, row_lt t p⟩ k)
  congr 1
  funext a
  apply Fin.ext
  match a with
  | ⟨0, _⟩ => show win4_0.index t (0 : Fin 2) * 400 + 1 * p.val = 400 * t.val + p.val; rw [e0]; omega
  | ⟨1, _⟩ => show win4_0.index t (1 : Fin 2) * 10000 + 1 * k.val = k.val; rw [e1]; omega

/-- Entry `(p, q)` of the result block at point `t` is entry `(400 t + p, q)` of the result. -/
private theorem emb_out (t : Fin cfg4.N) (p : Fin 400) (q : Fin 128) :
    ((cfg4.win 6).blk t).view.emb (ix2 p q) = ix2 (⟨400 * t.val + p.val, row_lt t p⟩ : Fin 10000) q := by
  obtain ⟨-, -, -, -, -, -, -, -, -, -, -, -, e0, e1⟩ := idx t
  funext a
  apply Fin.ext
  match a with
  | ⟨0, _⟩ => show win4_6.index t (0 : Fin 2) * 400 + 1 * p.val = 400 * t.val + p.val; rw [e0]; omega
  | ⟨1, _⟩ => show win4_6.index t (1 : Fin 2) * 128 + 1 * q.val = q.val; rw [e1]; omega

/-! ## What a point writes back, and the cover -/

/-- Point `t` writes back block `t` of the middle layer of the whole arrays: the body's matrix function of the loaded
    blocks is row-wise, and the block's rows are the array's rows `400 t …`. -/
private theorem flushed_eq (c : Dev nD) (t : Fin cfg4.N) :
    (dat4 V c).flushed 6 t = ((cfg4.win 6).blk t).view.read (Elt Ideal)
      (midS (R := 10000) (N := 10000) (C := 128) (C' := 128) (V c main_arg3) (V c main_v15) (V c main_v2) (V c main_v3) (V c main_v1) (V c main_v7)) := by
  show (cfg4.win 6).cut (grid4.coords t) ((dat4 V c).after 6 t) = _
  rw [after4_6]
  unfold out4_6
  rw [View.canon_unit_zero hz]
  simp only [View.ld_unit_zero (S := S400x10000) hz, View.ld_unit_zero (S := S10000x128) hz,
    View.ld_unit_zero (S := S128x128) hz, View.ld_unit_zero (S := S1x128) hz]
  rw [pay_mid', blk_1, blk_2, blk_3, blk_4, blk_5]
  funext j
  obtain ⟨p, q, rfl⟩ : ∃ (p : Fin 400) (q : Fin 128), j = ix2 p q := ⟨j 0, j 1, eq_ix2 j⟩
  rw [View.read_apply, emb_out]
  exact midS_row _ _ _ _ _ _ _ p ⟨400 * t.val + p.val, row_lt t p⟩ q (blk_0_row V c t p)

/-- An index of the result is in point `t`'s block iff each coordinate is in the block's range on its axis. -/
private theorem mem_blk (t : Fin cfg4.N) (i : S10000x128.Idx) :
    i ∈ ((cfg4.win 6).blk t).view.set ↔ ∀ a : Fin 2, win4_6.index t a * S400x128.size a ≤ (i a).val ∧ (i a).val < win4_6.index t a * S400x128.size a + S400x128.size a := by
  show i ∈ ((View.whole main_v16).slice (win4_6.rect t)).set ↔ _
  rw [View.set_slice_whole, Rect.mem_set_unit]
  exact Iff.rfl

/-- Row `r` of the result lies in the block of point `r / 400`. -/
private theorem cover (i : S10000x128.Idx) :
    ∃ t : Fin cfg4.N, (cfg4.win 6).flush t = true ∧ i ∈ ((cfg4.win 6).blk t).view.set := by
  have hi0 : (i 0).val < 10000 := (i 0).isLt
  have hi1 : (i 1).val < 128 := (i 1).isLt
  have hN : cfg4.N = 25 := N_4
  refine ⟨⟨(i 0).val / 400, by rw [hN]; omega⟩, flush4_6 _, ?_⟩
  obtain ⟨-, -, -, -, -, -, -, -, -, -, -, -, e0, e1⟩ := idx ⟨(i 0).val / 400, by rw [hN]; omega⟩
  rw [mem_blk]
  intro a
  match a with
  | ⟨0, _⟩ =>
    show win4_6.index _ (0 : Fin 2) * 400 ≤ (i 0).val ∧ (i 0).val < win4_6.index _ (0 : Fin 2) * 400 + 400
    rw [e0]
    show (i 0).val / 400 * 400 ≤ (i 0).val ∧ (i 0).val < (i 0).val / 400 * 400 + 400
    omega
  | ⟨1, _⟩ =>
    show win4_6.index _ (1 : Fin 2) * 128 ≤ (i 1).val ∧ (i 1).val < win4_6.index _ (1 : Fin 2) * 128 + 128
    rw [e1]
    omega

end Mid4

/-- The region's result array after the run. -/
theorem final4 (c : Dev nD) :
    (dat4 V c).arrAt 6 cfg4.N = midS (R := 10000) (N := 10000) (C := 128) (C' := 128) (V c main_arg3) (V c main_v15) (V c main_v2) (V c main_v3) (V c main_v1) (V c main_v7) :=
  (dat4 V c).arrAt_eq_of_cover 6 _ (fun t _ => Mid4.flushed_eq V c t) Mid4.cover

end Cert.KernelIdeal.Hand

end
-- ==== Proof.Region5.lean ====
/-
  The fused last layer as a whole-array function: each row block is the second branch's graph layer of its 400 adjacency
  rows, then the classifier with the same 400 rows of the first branch's output; the blocks tile the 10000 × 8 result.
-/
import proofs.«137000_g78030965833912_cont_9to1_m_1096_2_alg».proof.Proof.Spec
import proofs.«137000_g78030965833912_cont_9to1_m_1096_2_alg».proof.Proof.PayK
import proofs.«137000_g78030965833912_cont_9to1_m_1096_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.Spec Idealize.ShloMosaic.ValueIdx

-- the TensorCore's buffer contents when the region is entered, whatever they are
variable (V : (c : Dev nD) → (b : Ref sig .tc) → Buf (Elt Ideal) ((c : Thread nD τ).loc b))

namespace Last5

/-- The zero offsets as a constant function. -/
private theorem hz : (![0, 0] : Fin 2 → Nat) = fun _ => 0 := funext fun a => by fin_cases a <;> rfl

/-- The block indices over the grid: the adjacency's, the first branch's output's and the result's blocks are block
    row `t`; every other operand is one block, the whole array. -/
private theorem idx : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = t.val ∧ win5_8.index t (1 : Fin 2) = 0 :=
  (by decide +kernel : ∀ t : Fin grid5.N, _)

/-- A point's 400 rows lie inside the 10000. -/
private theorem row_lt (t : Fin cfg5.N) (p : Fin 400) : 400 * t.val + p.val < 10000 := by
  have ht : t.val < 25 := lt_of_lt_of_eq t.isLt (show cfg5.N = 25 from N_5)
  have hp : p.val < 400 := p.isLt
  omega

/-! ## The blocks the body loads -/

/-- The support matrix is loaded whole. -/
private theorem blk_1 (c : Dev nD) (t : Fin cfg5.N) : iblk5 V c 1 t = V c main_v16 := by
  obtain ⟨-, -, e0, e1, -⟩ := idx t
  funext y
  unfold iblk5
  rw [View.read_apply]
  show V c main_v16 (((cfg5.win 1).blk t).view.emb y) = V c main_v16 y
  congr 1
  funext a
  apply Fin.ext
  match a with
  | ⟨0, _⟩ => show win5_1.index t (0 : Fin 2) * 10000 + 1 * (y 0).val = (y 0).val; rw [e0]; omega
  | ⟨1, _⟩ => show win5_1.index t (1 : Fin 2) * 128 + 1 * (y 1).val = (y 1).val; rw [e1]; omega

/-- So is the attention's first matrix. -/
private theorem blk_2 (c : Dev nD) (t : Fin cfg5.N) : iblk5 V c 2 t = V c main_v4 := by
  obtain ⟨-, -, -, -, e0, e1, -⟩ := idx t
  funext y
  unfold iblk5
  rw [View.read_apply]
  show V c main_v4 (((cfg5.win 2).blk t).view.emb y) = V c main_v4 y
  congr 1
  funext a
  apply Fin.ext
  match a with
  | ⟨0, _⟩ => show win5_2.index t (0 : Fin 2) * 128 + 1 * (y 0).val = (y 0).val; rw [e0]; omega
  | ⟨1, _⟩ => show win5_2.index t (1 : Fin 2) * 128 + 1 * (y 1).val = (y 1).val; rw [e1]; omega

/-- So is the attention's second matrix. -/
private theorem blk_3 (c : Dev nD) (t : Fin cfg5.N) : iblk5 V c 3 t = V c main_v5 := by
  obtain ⟨-, -, -, -, -, -, e0, e1, -⟩ := idx t
  funext y
  unfold iblk5
  rw [View.read_apply]
  show V c main_v5 (((cfg5.win 3).blk t).view.emb y) = V c main_v5 y
  congr 1
  funext a
  apply Fin.ext
  match a with
  | ⟨0, _⟩ => show win5_3.index t (0 : Fin 2) * 128 + 1 * (y 0).val = (y 0).val; rw [e0]; omega
  | ⟨1, _⟩ => show win5_3.index t (1 : Fin 2) * 128 + 1 * (y 1).val = (y 1).val; rw [e1]; omega

/-- So is the classifier's first half. -/
private theorem blk_5 (c : Dev nD) (t : Fin cfg5.N) : iblk5 V c 5 t = V c main_v10 := by
  obtain ⟨-, -, -, -, -, -, -, -, -, -, e0, e1, -⟩ := idx t
  funext y
  unfold iblk5
  rw [View.read_apply]
  show V c main_v10 (((cfg5.win 5).blk t).view.emb y) = V c main_v10 y
  congr 1
  funext a
  apply Fin.ext
  match a with
  | ⟨0, _⟩ => show win5_5.index t (0 : Fin 2) * 128 + 1 * (y 0).val = (y 0).val; rw [e0]; omega
  | ⟨1, _⟩ => show win5_5.index t (1 : Fin 2) * 8 + 1 * (y 1).val = (y 1).val; rw [e1]; omega

/-- So is the classifier's second half. -/
private theorem blk_6 (c : Dev nD) (t : Fin cfg5.N) : iblk5 V c 6 t = V c main_v11 := by
  obtain ⟨-, -, -, -, -, -, -, -, -, -, -, -, e0, e1, -⟩ := idx t
  funext y
  unfold iblk5
  rw [View.read_apply]
  show V c main_v11 (((cfg5.win 6).blk t).view.emb y) = V c main_v11 y
  congr 1
  funext a
  apply Fin.ext
  match a with
  | ⟨0, _⟩ => show win5_6.index t (0 : Fin 2) * 128 + 1 * (y 0).val = (y 0).val; rw [e0]; omega
  | ⟨1, _⟩ => show win5_6.index t (1 : Fin 2) * 8 + 1 * (y 1).val = (y 1).val; rw [e1]; omega

/-- So is the classifier's bias row. -/
private theorem blk_7 (c : Dev nD) (t : Fin cfg5.N) : iblk5 V c 7 t = V c main_v8 := by
  obtain ⟨-, -, -, -, -, -, -, -, -, -, -, -, -, -, e0, e1, -⟩ := idx t
  funext y
  unfold iblk5
  rw [View.read_apply]
  show V c main_v8 (((cfg5.win 7).blk t).view.emb y) = V c main_v8 y
  congr 1
  funext a
  apply Fin.ext
  match a with
  | ⟨0, _⟩ => show win5_7.index t (0 : Fin 2) * 1 + 1 * (y 0).val = (y 0).val; rw [e0]; omega
  | ⟨1, _⟩ => show win5_7.index t (1 : Fin 2) * 8 + 1 * (y 1).val = (y 1).val; rw [e1]; omega

/-- Row `p` of the adjacency block at point `t` is row `400 t + p` of the adjacency. -/
private theorem blk_0_row (c : Dev nD) (t : Fin cfg5.N) (p : Fin 400) :
    row (R := 400) (C := 10000) (iblk5 V c 0 t) p
      = row (R := 10000) (C := 10000) (V c main_arg3) ⟨400 * t.val + p.val, row_lt t p⟩ := by
  obtain ⟨e0, e1, -⟩ := idx t
  funext k
  unfold row iblk5
  rw [View.read_apply]
  show V c main_arg3 (((cfg5.win 0).blk t).view.emb (ix2 p k)) = V c main_arg3 (ix2 ⟨400 * t.val + p.val, row_lt t p⟩ k)
  congr 1
  funext a
  apply Fin.ext
  match a with
  | ⟨0, _⟩ => show win5_0.index t (0 : Fin 2) * 400 + 1 * p.val = 400 * t.val + p.val; rw [e0]; omega
  | ⟨1, _⟩ => show win5_0.index t (1 : Fin 2) * 10000 + 1 * k.val = k.val; rw [e1]; omega

/-- Row `p` of the first branch's block at point `t` is row `400 t + p` of the first branch's output. -/
private theorem blk_4_row (c : Dev nD) (t : Fin cfg5.N) (p : Fin 400) :
    row (R := 400) (C := 128) (iblk5 V c 4 t) p
      = row (R := 10000) (C := 128) (V c main_v14) ⟨400 * t.val + p.val, row_lt t p⟩ := by
  obtain ⟨-, -, -, -, -, -, -, -, e0, e1, -⟩ := idx t
  funext k
  unfold row iblk5
  rw [View.read_apply]
  show V c main_v14 (((cfg5.win 4).blk t).view.emb (ix2 p k)) = V c main_v14 (ix2 ⟨400 * t.val + p.val, row_lt t p⟩ k)
  congr 1
  funext a
  apply Fin.ext
  match a with
  | ⟨0, _⟩ => show win5_4.index t (0 : Fin 2) * 400 + 1 * p.val = 400 * t.val + p.val; rw [e0]; omega
  | ⟨1, _⟩ => show win5_4.index t (1 : Fin 2) * 128 + 1 * k.val = k.val; rw [e1]; omega

/-- Entry `(p, q)` of the result block at point `t` is entry `(400 t + p, q)` of the result. -/
private theorem emb_out (t : Fin cfg5.N) (p : Fin 400) (q : Fin 8) :
    ((cfg5.win 8).blk t).view.emb (ix2 p q) = ix2 (⟨400 * t.val + p.val, row_lt t p⟩ : Fin 10000) q := by
  obtain ⟨-, -, -, -, -, -, -, -, -, -, -, -, -, -, -, -, e0, e1⟩ := idx t
  funext a
  apply Fin.ext
  match a with
  | ⟨0, _⟩ => show win5_8.index t (0 : Fin 2) * 400 + 1 * p.val = 400 * t.val + p.val; rw [e0]; omega
  | ⟨1, _⟩ => show win5_8.index t (1 : Fin 2) * 8 + 1 * q.val = q.val; rw [e1]; omega

/-! ## What a point writes back, and the cover -/

/-- Point `t` writes back block `t` of the fused last layer of the whole arrays: the body's matrix function of the
    loaded blocks is row-wise in the adjacency and in the first branch's output, and both blocks' rows are their
    arrays' rows `400 t …`. -/
private theorem flushed_eq (c : Dev nD) (t : Fin cfg5.N) :
    (dat5 V c).flushed 8 t = ((cfg5.win 8).blk t).view.read (Elt Ideal)
      (finalS (R := 10000) (N := 10000) (C := 128) (D := 8) (V c main_arg3) (V c main_v16) (V c main_v4) (V c main_v5) (V c main_v14) (V c main_v10) (V c main_v11) (V c main_v8)) := by
  show (cfg5.win 8).cut (grid5.coords t) ((dat5 V c).after 8 t) = _
  rw [after5_8]
  unfold out5_8
  rw [View.canon_unit_zero hz]
  simp only [View.ld_unit_zero (S := S400x10000) hz, View.ld_unit_zero (S := S10000x128) hz,
    View.ld_unit_zero (S := S128x128) hz, View.ld_unit_zero (S := S400x128) hz, View.ld_unit_zero (S := S128x8) hz,
    View.ld_unit_zero (S := S1x8) hz]
  rw [pay_final, blk_1, blk_2, blk_3, blk_5, blk_6, blk_7]
  funext j
  obtain ⟨p, q, rfl⟩ : ∃ (p : Fin 400) (q : Fin 8), j = ix2 p q := ⟨j 0, j 1, eq_ix2 j⟩
  rw [View.read_apply, emb_out]
  exact finalS_row _ _ _ _ _ _ _ _ _ _ p ⟨400 * t.val + p.val, row_lt t p⟩ q (blk_0_row V c t p) (blk_4_row V c t p)

/-- An index of the result is in point `t`'s block iff each coordinate is in the block's range on its axis. -/
private theorem mem_blk (t : Fin cfg5.N) (i : S10000x8.Idx) :
    i ∈ ((cfg5.win 8).blk t).view.set ↔ ∀ a : Fin 2, win5_8.index t a * S400x8.size a ≤ (i a).val ∧ (i a).val < win5_8.index t a * S400x8.size a + S400x8.size a := by
  show i ∈ ((View.whole main_v17).slice (win5_8.rect t)).set ↔ _
  rw [View.set_slice_whole, Rect.mem_set_unit]
  exact Iff.rfl

/-- Row `r` of the result lies in the block of point `r / 400`. -/
private theorem cover (i : S10000x8.Idx) :
    ∃ t : Fin cfg5.N, (cfg5.win 8).flush t = true ∧ i ∈ ((cfg5.win 8).blk t).view.set := by
  have hi0 : (i 0).val < 10000 := (i 0).isLt
  have hi1 : (i 1).val < 8 := (i 1).isLt
  have hN : cfg5.N = 25 := N_5
  refine ⟨⟨(i 0).val / 400, by rw [hN]; omega⟩, flush5_8 _, ?_⟩
  obtain ⟨-, -, -, -, -, -, -, -, -, -, -, -, -, -, -, -, e0, e1⟩ := idx ⟨(i 0).val / 400, by rw [hN]; omega⟩
  rw [mem_blk]
  intro a
  match a with
  | ⟨0, _⟩ =>
    show win5_8.index _ (0 : Fin 2) * 400 ≤ (i 0).val ∧ (i 0).val < win5_8.index _ (0 : Fin 2) * 400 + 400
    rw [e0]
    show (i 0).val / 400 * 400 ≤ (i 0).val ∧ (i 0).val < (i 0).val / 400 * 400 + 400
    omega
  | ⟨1, _⟩ =>
    show win5_8.index _ (1 : Fin 2) * 8 ≤ (i 1).val ∧ (i 1).val < win5_8.index _ (1 : Fin 2) * 8 + 8
    rw [e1]
    omega

end Last5

/-- The region's result array after the run. -/
theorem final5 (c : Dev nD) :
    (dat5 V c).arrAt 8 cfg5.N = finalS (R := 10000) (N := 10000) (C := 128) (D := 8) (V c main_arg3) (V c main_v16) (V c main_v4) (V c main_v5) (V c main_v14) (V c main_v10) (V c main_v11) (V c main_v8) :=
  (dat5 V c).arrAt_eq_of_cover 8 _ (fun t _ => Last5.flushed_eq V c t) Last5.cover

end Cert.KernelIdeal.Hand

end
-- ==== Proof.Chain.lean ====
/-
  The kernel program's result as the network of its arguments: the region-entry contents are followed through the six
  regions — each region's result array is its layer of the arrays it reads, every other buffer is left as it was — and
  the layers compose to the network.
-/
import proofs.«137000_g78030965833912_cont_9to1_m_1096_2_alg».proof.Proof.Out
import proofs.«137000_g78030965833912_cont_9to1_m_1096_2_alg».proof.Proof.KernelRun
import proofs.«137000_g78030965833912_cont_9to1_m_1096_2_alg».proof.Proof.Region0
import proofs.«137000_g78030965833912_cont_9to1_m_1096_2_alg».proof.Proof.Region1
import proofs.«137000_g78030965833912_cont_9to1_m_1096_2_alg».proof.Proof.Region2
import proofs.«137000_g78030965833912_cont_9to1_m_1096_2_alg».proof.Proof.Region3
import proofs.«137000_g78030965833912_cont_9to1_m_1096_2_alg».proof.Proof.Region4
import proofs.«137000_g78030965833912_cont_9to1_m_1096_2_alg».proof.Proof.Region5
import Idealize.ShloMosaic.Lib.StableHlo.Run

noncomputable section

open Idealize.ShloMosaic Idealize.ShloMosaic.TcCoe Idealize.SL.Sem

namespace Cert.KernelIdeal.Hand

open Cert.KernelIdeal Cert.KernelIdeal.Facts₀ Cert.KernelIdeal.Facts Cert.KernelIdeal.Gen Cert.Spec Idealize.ShloMosaic.ValueIdx

variable (m : (ℓ : Loc nD τ sig) → Buf (Elt Ideal) ℓ) (ρ : Dev nD → PrngReg)

namespace Chain

/-! ## Each region leaves every buffer but its result array as it found it -/

/-- Region 0 leaves every buffer but its result array as it found it: a buffer it does not touch is outside its
    arrays, and an array it only reads ends at its entry contents. -/
theorem keep0 (c : Dev nD) (b : Ref sig .tc) (hb : b ≠ main_v12) :
    W2 m ρ c (Proc.devRef .tc b) = W1 m ρ c (Proc.devRef .tc b) := by
  by_cases h : ∀ w, Pipeline.arrRef spec0 w ≠ b
  · exact W2_of_ne m ρ c b h
  · obtain ⟨w, hw⟩ := not_forall.mp h
    obtain rfl := not_not.mp hw
    fin_cases w
    · exact (W2_arr m ρ c 0).trans (((dat0 (V1 m ρ) c).arrAt_in 0 rfl _).trans (A_eq0 (V1 m ρ) c 0))
    · exact (W2_arr m ρ c 1).trans (((dat0 (V1 m ρ) c).arrAt_in 1 rfl _).trans (A_eq0 (V1 m ρ) c 1))
    · exact (W2_arr m ρ c 2).trans (((dat0 (V1 m ρ) c).arrAt_in 2 rfl _).trans (A_eq0 (V1 m ρ) c 2))
    · exact absurd rfl hb

/-- Region 1 leaves every buffer but its result array as it found it: a buffer it does not touch is outside its
    arrays, and an array it only reads ends at its entry contents. -/
theorem keep1 (c : Dev nD) (b : Ref sig .tc) (hb : b ≠ main_v13) :
    W3 m ρ c (Proc.devRef .tc b) = W2 m ρ c (Proc.devRef .tc b) := by
  by_cases h : ∀ w, Pipeline.arrRef spec1 w ≠ b
  · exact W3_of_ne m ρ c b h
  · obtain ⟨w, hw⟩ := not_forall.mp h
    obtain rfl := not_not.mp hw
    fin_cases w
    · exact (W3_arr m ρ c 0).trans (((dat1 (V2 m ρ) c).arrAt_in 0 rfl _).trans (A_eq1 (V2 m ρ) c 0))
    · exact (W3_arr m ρ c 1).trans (((dat1 (V2 m ρ) c).arrAt_in 1 rfl _).trans (A_eq1 (V2 m ρ) c 1))
    · exact (W3_arr m ρ c 2).trans (((dat1 (V2 m ρ) c).arrAt_in 2 rfl _).trans (A_eq1 (V2 m ρ) c 2))
    · exact (W3_arr m ρ c 3).trans (((dat1 (V2 m ρ) c).arrAt_in 3 rfl _).trans (A_eq1 (V2 m ρ) c 3))
    · exact (W3_arr m ρ c 4).trans (((dat1 (V2 m ρ) c).arrAt_in 4 rfl _).trans (A_eq1 (V2 m ρ) c 4))
    · exact (W3_arr m ρ c 5).trans (((dat1 (V2 m ρ) c).arrAt_in 5 rfl _).trans (A_eq1 (V2 m ρ) c 5))
    · exact absurd rfl hb

/-- Region 2 leaves every buffer but its result array as it found it: a buffer it does not touch is outside its
    arrays, and an array it only reads ends at its entry contents. -/
theorem keep2 (c : Dev nD) (b : Ref sig .tc) (hb : b ≠ main_v14) :
    W4 m ρ c (Proc.devRef .tc b) = W3 m ρ c (Proc.devRef .tc b) := by
  by_cases h : ∀ w, Pipeline.arrRef spec2 w ≠ b
  · exact W4_of_ne m ρ c b h
  · obtain ⟨w, hw⟩ := not_forall.mp h
    obtain rfl := not_not.mp hw
    fin_cases w
    · exact (W4_arr m ρ c 0).trans (((dat2 (V3 m ρ) c).arrAt_in 0 rfl _).trans (A_eq2 (V3 m ρ) c 0))
    · exact (W4_arr m ρ c 1).trans (((dat2 (V3 m ρ) c).arrAt_in 1 rfl _).trans (A_eq2 (V3 m ρ) c 1))
    · exact (W4_arr m ρ c 2).trans (((dat2 (V3 m ρ) c).arrAt_in 2 rfl _).trans (A_eq2 (V3 m ρ) c 2))
    · exact (W4_arr m ρ c 3).trans (((dat2 (V3 m ρ) c).arrAt_in 3 rfl _).trans (A_eq2 (V3 m ρ) c 3))
    · exact absurd rfl hb

/-- Region 3 leaves every buffer but its result array as it found it: a buffer it does not touch is outside its
    arrays, and an array it only reads ends at its entry contents. -/
theorem keep3 (c : Dev nD) (b : Ref sig .tc) (hb : b ≠ main_v15) :
    W5 m ρ c (Proc.devRef .tc b) = W4 m ρ c (Proc.devRef .tc b) := by
  by_cases h : ∀ w, Pipeline.arrRef spec3 w ≠ b
  · exact W5_of_ne m ρ c b h
  · obtain ⟨w, hw⟩ := not_forall.mp h
    obtain rfl := not_not.mp hw
    fin_cases w
    · exact (W5_arr m ρ c 0).trans (((dat3 (V4 m ρ) c).arrAt_in 0 rfl _).trans (A_eq3 (V4 m ρ) c 0))
    · exact (W5_arr m ρ c 1).trans (((dat3 (V4 m ρ) c).arrAt_in 1 rfl _).trans (A_eq3 (V4 m ρ) c 1))
    · exact (W5_arr m ρ c 2).trans (((dat3 (V4 m ρ) c).arrAt_in 2 rfl _).trans (A_eq3 (V4 m ρ) c 2))
    · exact absurd rfl hb

/-- Region 4 leaves every buffer but its result array as it found it: a buffer it does not touch is outside its
    arrays, and an array it only reads ends at its entry contents. -/
theorem keep4 (c : Dev nD) (b : Ref sig .tc) (hb : b ≠ main_v16) :
    W6 m ρ c (Proc.devRef .tc b) = W5 m ρ c (Proc.devRef .tc b) := by
  by_cases h : ∀ w, Pipeline.arrRef spec4 w ≠ b
  · exact W6_of_ne m ρ c b h
  · obtain ⟨w, hw⟩ := not_forall.mp h
    obtain rfl := not_not.mp hw
    fin_cases w
    · exact (W6_arr m ρ c 0).trans (((dat4 (V5 m ρ) c).arrAt_in 0 rfl _).trans (A_eq4 (V5 m ρ) c 0))
    · exact (W6_arr m ρ c 1).trans (((dat4 (V5 m ρ) c).arrAt_in 1 rfl _).trans (A_eq4 (V5 m ρ) c 1))
    · exact (W6_arr m ρ c 2).trans (((dat4 (V5 m ρ) c).arrAt_in 2 rfl _).trans (A_eq4 (V5 m ρ) c 2))
    · exact (W6_arr m ρ c 3).trans (((dat4 (V5 m ρ) c).arrAt_in 3 rfl _).trans (A_eq4 (V5 m ρ) c 3))
    · exact (W6_arr m ρ c 4).trans (((dat4 (V5 m ρ) c).arrAt_in 4 rfl _).trans (A_eq4 (V5 m ρ) c 4))
    · exact (W6_arr m ρ c 5).trans (((dat4 (V5 m ρ) c).arrAt_in 5 rfl _).trans (A_eq4 (V5 m ρ) c 5))
    · exact absurd rfl hb

/-- Region 5 leaves every buffer but its result array as it found it: a buffer it does not touch is outside its
    arrays, and an array it only reads ends at its entry contents. -/
theorem keep5 (c : Dev nD) (b : Ref sig .tc) (hb : b ≠ main_v17) :
    W7 m ρ c (Proc.devRef .tc b) = W6 m ρ c (Proc.devRef .tc b) := by
  by_cases h : ∀ w, Pipeline.arrRef spec5 w ≠ b
  · exact W7_of_ne m ρ c b h
  · obtain ⟨w, hw⟩ := not_forall.mp h
    obtain rfl := not_not.mp hw
    fin_cases w
    · exact (W7_arr m ρ c 0).trans (((dat5 (V6 m ρ) c).arrAt_in 0 rfl _).trans (A_eq5 (V6 m ρ) c 0))
    · exact (W7_arr m ρ c 1).trans (((dat5 (V6 m ρ) c).arrAt_in 1 rfl _).trans (A_eq5 (V6 m ρ) c 1))
    · exact (W7_arr m ρ c 2).trans (((dat5 (V6 m ρ) c).arrAt_in 2 rfl _).trans (A_eq5 (V6 m ρ) c 2))
    · exact (W7_arr m ρ c 3).trans (((dat5 (V6 m ρ) c).arrAt_in 3 rfl _).trans (A_eq5 (V6 m ρ) c 3))
    · exact (W7_arr m ρ c 4).trans (((dat5 (V6 m ρ) c).arrAt_in 4 rfl _).trans (A_eq5 (V6 m ρ) c 4))
    · exact (W7_arr m ρ c 5).trans (((dat5 (V6 m ρ) c).arrAt_in 5 rfl _).trans (A_eq5 (V6 m ρ) c 5))
    · exact (W7_arr m ρ c 6).trans (((dat5 (V6 m ρ) c).arrAt_in 6 rfl _).trans (A_eq5 (V6 m ρ) c 6))
    · exact (W7_arr m ρ c 7).trans (((dat5 (V6 m ρ) c).arrAt_in 7 rfl _).trans (A_eq5 (V6 m ρ) c 7))
    · exact absurd rfl hb

/-! ## What the host operations leave: the weights transposed, the biases as rows, the classifier's weights cut in two -/

theorem W1_v0 (c : Dev nD) : V1 m ρ c main_v0 = tr (m ((c.tc : Thread nD τ).loc main_arg4)) := by
  show StableHlo.after hostOps0 _ (Proc.devRef .tc main_v0) = _
  after_results

theorem W1_v1 (c : Dev nD) : V1 m ρ c main_v1 = tr (m ((c.tc : Thread nD τ).loc main_arg6)) := by
  show StableHlo.after hostOps0 _ (Proc.devRef .tc main_v1) = _
  after_results

theorem W1_v2 (c : Dev nD) : V1 m ρ c main_v2 = tr (m ((c.tc : Thread nD τ).loc main_arg8)) := by
  show StableHlo.after hostOps0 _ (Proc.devRef .tc main_v2) = _
  after_results

theorem W1_v3 (c : Dev nD) : V1 m ρ c main_v3 = tr (m ((c.tc : Thread nD τ).loc main_arg9)) := by
  show StableHlo.after hostOps0 _ (Proc.devRef .tc main_v3) = _
  after_results

theorem W1_v4 (c : Dev nD) : V1 m ρ c main_v4 = tr (m ((c.tc : Thread nD τ).loc main_arg10)) := by
  show StableHlo.after hostOps0 _ (Proc.devRef .tc main_v4) = _
  after_results

theorem W1_v5 (c : Dev nD) : V1 m ρ c main_v5 = tr (m ((c.tc : Thread nD τ).loc main_arg11)) := by
  show StableHlo.after hostOps0 _ (Proc.devRef .tc main_v5) = _
  after_results

theorem W1_v6 (c : Dev nD) : V1 m ρ c main_v6 = rowOf (m ((c.tc : Thread nD τ).loc main_arg5)) := by
  show StableHlo.after hostOps0 _ (Proc.devRef .tc main_v6) = _
  after_results
  rfl

theorem W1_v7 (c : Dev nD) : V1 m ρ c main_v7 = rowOf (m ((c.tc : Thread nD τ).loc main_arg7)) := by
  show StableHlo.after hostOps0 _ (Proc.devRef .tc main_v7) = _
  after_results
  rfl

theorem W1_v8 (c : Dev nD) : V1 m ρ c main_v8 = shapeCast S1x8 (m ((c.tc : Thread nD τ).loc main_arg13)) Facts₀.shapeCasts_S8_S1x8 := by
  show StableHlo.after hostOps0 _ (Proc.devRef .tc main_v8) = _
  after_results
  rfl

theorem W1_v10 (c : Dev nD) : V1 m ρ c main_v10 = extractStridedSlice S128x8 ![0, 0] (trFc (m ((c.tc : Thread nD τ).loc main_arg12))) Facts₀.slices_S256x8_S128x8_0_0 := by
  show StableHlo.after hostOps0 _ (Proc.devRef .tc main_v10) = _
  after_results

theorem W1_v11 (c : Dev nD) : V1 m ρ c main_v11 = extractStridedSlice S128x8 ![128, 0] (trFc (m ((c.tc : Thread nD τ).loc main_arg12))) Facts₀.slices_S256x8_S128x8_128_0 := by
  show StableHlo.after hostOps0 _ (Proc.devRef .tc main_v11) = _
  after_results

/-! ## A layer of equal operands is the same layer -/

theorem prepS_congr {R K C : Nat} {x x' : Mat R K} {w w' : Mat K C} {b b' : Mat 1 C} (hx : x = x') (hw : w = w')
    (hb : b = b') : prepS x w b = prepS x' w' b' := by rw [hx, hw, hb]

theorem midS_congr {R N C C' : Nat} {adj adj' : Mat R N} {s s' : Mat N C} {A A' B B' : Mat C C} {w w' : Mat C C'}
    {b b' : Mat 1 C'} (hadj : adj = adj') (hs : s = s') (hA : A = A') (hB : B = B') (hw : w = w') (hb : b = b') :
    midS adj s A B w b = midS adj' s' A' B' w' b' := by rw [hadj, hs, hA, hB, hw, hb]

theorem lastS_congr {R N C : Nat} {adj adj' : Mat R N} {s s' : Mat N C} {A A' B B' : Mat C C} (hadj : adj = adj')
    (hs : s = s') (hA : A = A') (hB : B = B') : lastS adj s A B = lastS adj' s' A' B' := by rw [hadj, hs, hA, hB]

theorem finalS_congr {R N C D : Nat} {adj adj' : Mat R N} {s s' : Mat N C} {A A' B B' : Mat C C} {h h' : Mat R C}
    {wa wa' wb wb' : Mat C D} {b b' : Mat 1 D} (hadj : adj = adj') (hs : s = s') (hA : A = A') (hB : B = B')
    (hh : h = h') (hwa : wa = wa') (hwb : wb = wb') (hb : b = b') :
    finalS adj s A B h wa wb b = finalS adj' s' A' B' h' wa' wb' b' := by rw [hadj, hs, hA, hB, hh, hwa, hwb, hb]

/-! ## A buffer no region writes holds, at every region's entry, what the host operations left in it -/

/-- Not one of the six result arrays. -/
abbrev NotOut (b : Ref sig .tc) : Prop :=
  b ≠ main_v12 ∧ b ≠ main_v13 ∧ b ≠ main_v14 ∧ b ≠ main_v15 ∧ b ≠ main_v16 ∧ b ≠ main_v17

theorem down2 (c : Dev nD) (b : Ref sig .tc) (h : NotOut b) : V2 m ρ c b = V1 m ρ c b := keep0 m ρ c b h.1
theorem down3 (c : Dev nD) (b : Ref sig .tc) (h : NotOut b) : V3 m ρ c b = V1 m ρ c b :=
  (keep1 m ρ c b h.2.1).trans (down2 m ρ c b h)
theorem down4 (c : Dev nD) (b : Ref sig .tc) (h : NotOut b) : V4 m ρ c b = V1 m ρ c b :=
  (keep2 m ρ c b h.2.2.1).trans (down3 m ρ c b h)
theorem down5 (c : Dev nD) (b : Ref sig .tc) (h : NotOut b) : V5 m ρ c b = V1 m ρ c b :=
  (keep3 m ρ c b h.2.2.2.1).trans (down4 m ρ c b h)
theorem down6 (c : Dev nD) (b : Ref sig .tc) (h : NotOut b) : V6 m ρ c b = V1 m ρ c b :=
  (keep4 m ρ c b h.2.2.2.2.1).trans (down5 m ρ c b h)
theorem down7 (c : Dev nD) (b : Ref sig .tc) (h : NotOut b) : V7 m ρ c b = V1 m ρ c b :=
  (keep5 m ρ c b h.2.2.2.2.2).trans (down6 m ρ c b h)

/-! The four arrays of inputs: no host operation writes one and they end as launched, so they enter region 0 as launched. -/

theorem W1_arg0 (c : Dev nD) : V1 m ρ c main_arg0 = (m ((c.tc : Thread nD τ).loc main_arg0)) :=
  (down7 m ρ c main_arg0 (by decide)).symm.trans (W7_main_arg0 m ρ c)
theorem W1_arg1 (c : Dev nD) : V1 m ρ c main_arg1 = (m ((c.tc : Thread nD τ).loc main_arg1)) :=
  (down7 m ρ c main_arg1 (by decide)).symm.trans (W7_main_arg1 m ρ c)
theorem W1_arg2 (c : Dev nD) : V1 m ρ c main_arg2 = (m ((c.tc : Thread nD τ).loc main_arg2)) :=
  (down7 m ρ c main_arg2 (by decide)).symm.trans (W7_main_arg2 m ρ c)
theorem W1_arg3 (c : Dev nD) : V1 m ρ c main_arg3 = (m ((c.tc : Thread nD τ).loc main_arg3)) :=
  (down7 m ρ c main_arg3 (by decide)).symm.trans (W7_main_arg3 m ρ c)

/-! ## The layers' values, from the launch contents -/

/-- The first branch's input layer. -/
def hid1 (c : Dev nD) : Mat 10000 128 := prepS (m ((c.tc : Thread nD τ).loc main_arg0)) (tr (m ((c.tc : Thread nD τ).loc main_arg4))) (rowOf (m ((c.tc : Thread nD τ).loc main_arg5)))
/-- The first branch's first graph layer, through the second linear map. -/
def mid1 (c : Dev nD) : Mat 10000 128 := midS (m ((c.tc : Thread nD τ).loc main_arg1)) (hid1 m c) (tr (m ((c.tc : Thread nD τ).loc main_arg8))) (tr (m ((c.tc : Thread nD τ).loc main_arg9))) (tr (m ((c.tc : Thread nD τ).loc main_arg6))) (rowOf (m ((c.tc : Thread nD τ).loc main_arg7)))
/-- The first branch's output. -/
def out1 (c : Dev nD) : Mat 10000 128 := lastS (m ((c.tc : Thread nD τ).loc main_arg1)) (mid1 m c) (tr (m ((c.tc : Thread nD τ).loc main_arg10))) (tr (m ((c.tc : Thread nD τ).loc main_arg11)))
/-- The second branch's input layer. -/
def hid2 (c : Dev nD) : Mat 10000 128 := prepS (m ((c.tc : Thread nD τ).loc main_arg2)) (tr (m ((c.tc : Thread nD τ).loc main_arg4))) (rowOf (m ((c.tc : Thread nD τ).loc main_arg5)))
/-- The second branch's first graph layer, through the second linear map. -/
def mid2 (c : Dev nD) : Mat 10000 128 := midS (m ((c.tc : Thread nD τ).loc main_arg3)) (hid2 m c) (tr (m ((c.tc : Thread nD τ).loc main_arg8))) (tr (m ((c.tc : Thread nD τ).loc main_arg9))) (tr (m ((c.tc : Thread nD τ).loc main_arg6))) (rowOf (m ((c.tc : Thread nD τ).loc main_arg7)))

/-- Region 0's result, where region 1 reads it. -/
theorem V2_v12 (c : Dev nD) : V2 m ρ c main_v12 = hid1 m c :=
  (W2_arr m ρ c 3).trans ((final0 (V1 m ρ) c).trans (prepS_congr (W1_arg0 m ρ c) (W1_v0 m ρ c) (W1_v6 m ρ c)))

/-- Region 1's result, where region 2 reads it. -/
theorem V3_v13 (c : Dev nD) : V3 m ρ c main_v13 = mid1 m c :=
  (W3_arr m ρ c 6).trans ((final1 (V2 m ρ) c).trans (midS_congr ((down2 m ρ c main_arg1 (by decide)).trans (W1_arg1 m ρ c)) (V2_v12 m ρ c)
    ((down2 m ρ c main_v2 (by decide)).trans (W1_v2 m ρ c)) ((down2 m ρ c main_v3 (by decide)).trans (W1_v3 m ρ c))
    ((down2 m ρ c main_v1 (by decide)).trans (W1_v1 m ρ c)) ((down2 m ρ c main_v7 (by decide)).trans (W1_v7 m ρ c))))

/-- Region 2's result, as it leaves it. -/
theorem V4_v14 (c : Dev nD) : V4 m ρ c main_v14 = out1 m c :=
  (W4_arr m ρ c 4).trans ((final2 (V3 m ρ) c).trans (lastS_congr ((down3 m ρ c main_arg1 (by decide)).trans (W1_arg1 m ρ c)) (V3_v13 m ρ c)
    ((down3 m ρ c main_v4 (by decide)).trans (W1_v4 m ρ c)) ((down3 m ρ c main_v5 (by decide)).trans (W1_v5 m ρ c))))

/-- Regions 3 and 4 do not touch it: region 5 reads it as region 2 left it. -/
theorem V6_v14 (c : Dev nD) : V6 m ρ c main_v14 = out1 m c :=
  (keep4 m ρ c main_v14 (by decide)).trans ((keep3 m ρ c main_v14 (by decide)).trans (V4_v14 m ρ c))

/-- Region 3's result, where region 4 reads it. -/
theorem V5_v15 (c : Dev nD) : V5 m ρ c main_v15 = hid2 m c :=
  (W5_arr m ρ c 3).trans ((final3 (V4 m ρ) c).trans (prepS_congr ((down4 m ρ c main_arg2 (by decide)).trans (W1_arg2 m ρ c)) ((down4 m ρ c main_v0 (by decide)).trans (W1_v0 m ρ c))
    ((down4 m ρ c main_v6 (by decide)).trans (W1_v6 m ρ c))))

/-- Region 4's result, where region 5 reads it. -/
theorem V6_v16 (c : Dev nD) : V6 m ρ c main_v16 = mid2 m c :=
  (W6_arr m ρ c 6).trans ((final4 (V5 m ρ) c).trans (midS_congr ((down5 m ρ c main_arg3 (by decide)).trans (W1_arg3 m ρ c)) (V5_v15 m ρ c)
    ((down5 m ρ c main_v2 (by decide)).trans (W1_v2 m ρ c)) ((down5 m ρ c main_v3 (by decide)).trans (W1_v3 m ρ c))
    ((down5 m ρ c main_v1 (by decide)).trans (W1_v1 m ρ c)) ((down5 m ρ c main_v7 (by decide)).trans (W1_v7 m ρ c))))

end Chain

open Chain in
/-- The result buffer at the last segment boundary is the network of the launch contents of the arguments. -/
theorem W7_out (c : Dev nD) :
    W7 m ρ c (Proc.devRef .tc main_v17) = outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (W7_arr m ρ c 8).trans ((final5 (V6 m ρ) c).trans ((finalS_congr ((down6 m ρ c main_arg3 (by decide)).trans (W1_arg3 m ρ c)) (V6_v16 m ρ c)
    ((down6 m ρ c main_v4 (by decide)).trans (W1_v4 m ρ c)) ((down6 m ρ c main_v5 (by decide)).trans (W1_v5 m ρ c)) (V6_v14 m ρ c)
    ((down6 m ρ c main_v10 (by decide)).trans (W1_v10 m ρ c)) ((down6 m ρ c main_v11 (by decide)).trans (W1_v11 m ρ c))
    ((down6 m ρ c main_v8 (by decide)).trans (W1_v8 m ρ c))).trans ((finalS_eq _ _ _ _ _ _ _ _).trans rfl)))

/-- The kernel program's run, read: the result at the network of the arguments, the arguments unchanged. -/
theorem kernel_run : θ_run defs (onTc (τ := τ) (main (F := Ideal))) ⟨m, fun _ => 0, ρ⟩ (fun r => ∀ c : Dev nD,
      r.2.mem ((c.tc : Thread nD τ).loc main_v17) = outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (W7_out m ρ c), (h c).2⟩) (Cert.KernelIdeal.GenP.run_named m ρ)

end Cert.KernelIdeal.Hand

end
-- ==== Proof.SpecHost.lean ====
/-
  The graph layer in two steps, for reading a program that computes it in two steps: first the rectified aggregation
  `relu (adj · s)`, then the attention on its rows.
-/
import proofs.«137000_g78030965833912_cont_9to1_m_1096_2_alg».proof.Proof.Spec

noncomputable section

namespace Cert.Spec

open Idealize.ShloMosaic Idealize.ShloMosaic.ValueIdx

/-- The rectified aggregation, row by row. -/
def aggS {R N C : Nat} (adj : Mat R N) (s : Mat N C) : Mat R C := fun j => relu (vecMat (row adj (j 0)) s) (j 1)

/-- Split attention on every row of a matrix. -/
def attS {R C : Nat} (h : Mat R C) (A B : Mat C C) : Mat R C := fun j => attnRow (row h (j 0)) A B (j 1)

/-- A graph layer is the attention of the rectified aggregation. -/
theorem lastS_eq {R N C : Nat} (adj : Mat R N) (s : Mat N C) (A B : Mat C C) :
    lastS adj s A B = attS (aggS adj s) A B := rfl

end Cert.Spec

end
-- ==== Proof.LibRowRead.lean ====
/-
  Reading row-wise operations of an R × C matrix at one index, over the extended reals.

  A reduction over the column axis, read at row r, ranges over the entries (r, c), c < C: with a maximum body it is
  the fold of max from the initial value over them, with an add body the initial value plus their sum. A vector with
  one entry per row, made a column and spread along the rows, reads at (r, c) the vector's entry r; a vector with one
  entry per column, made a row and spread down the columns, reads at (r, c) the vector's entry c.
-/
import Idealize.ShloMosaic.PureOps.Reduce
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.LibRowRead

open Idealize.ShloMosaic Idealize.ShloMosaic.ValueIdx

/-- The row index r with the column coordinate k put back is (r, k). -/
theorem lift_row {R C : Nat} (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  match c with
  | ⟨0, _⟩ => rfl
  | ⟨1, _⟩ => rfl

/-- The host's reduce with a maximum body over the columns, at row r: the fold of max over the row from the initial value. -/
theorem hostReduceMax_row {R C : Nat} (x : FVec Ideal ⟨2, ![R, C]⟩ .f32) (b : BitVec 32)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduce FloatOps.maximumf x (constant (F := Ideal) (⟨0, ![]⟩ : Shape) .f32 b) h' hu (ix1 r)
      = (Finset.univ : Finset (Fin C)).fold max (Ideal.ofBits .f32 b) (fun c => x (ix2 r c)) := by
  rw [Host.reduce_eq_fold_single FloatOps.maximumf x _ h' h hu]
  have hf : (x ∘ h.lift (ix1 r)) = fun k : Fin C => x (ix2 r k) := funext fun k => congrArg x (lift_row h r k)
  exact congrArg (fun f => Finset.fold max (Ideal.ofBits .f32 b) f (Finset.univ : Finset (Fin C))) hf

/-- The host's reduce with an add body over the columns, at row r: the initial value plus the row's sum. -/
theorem hostReduceAdd_row {R C : Nat} {φ : FTy} (x : FVec Ideal ⟨2, ![R, C]⟩ φ) (init : (⟨0, ![]⟩ : Shape).Idx → Ideal φ)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduceAdd x init h' hu (ix1 r) = init (Shape.Idx.first hu) + ∑ c : Fin C, x (ix2 r c) := by
  rw [hostReduceAdd_apply, Ideal.hostReduceAdd_single h' h]
  refine congrArg (fun s => init (Shape.Idx.first hu) + s) ?_
  exact Finset.sum_congr rfl fun k _ => congrArg x (lift_row h r k)

/-- A vector of n entries made an n × 1 column reads, at (e, 0), its entry e. -/
theorem bcast_column_apply {α : Type} {n : Nat} (h : (⟨1, ![n]⟩ : Shape).BroadcastsInDim (⟨2, ![n, 1]⟩ : Shape) ![0])
    (v : (⟨1, ![n]⟩ : Shape).Idx → α) (e : Fin n) (z : Fin 1) :
    broadcastInDim (⟨2, ![n, 1]⟩ : Shape) ![0] h v (ix2 e z) = v (ix1 e) := by
  refine broadcastInDim_apply _ h v _ (ix1 e) fun a => ?_
  match a with
  | ⟨0, _⟩ =>
    show e.val = if n = 1 then 0 else e.val
    split
    · have := e.isLt; omega
    · rfl

/-- An R × 1 column spread along the rows reads, at (r, c), the column's entry r. -/
theorem bcast_alongRows_apply {α : Type} {R C : Nat} (h2 : (⟨2, ![R, 1]⟩ : Shape).BroadcastsInDim (⟨2, ![R, C]⟩ : Shape) ![0, 1])
    (w : (⟨2, ![R, 1]⟩ : Shape).Idx → α) (r : Fin R) (c : Fin C) :
    broadcastInDim (⟨2, ![R, C]⟩ : Shape) ![0, 1] h2 w (ix2 r c) = w (ix2 r (0 : Fin 1)) := by
  refine broadcastInDim_apply _ h2 w _ (ix2 r (0 : Fin 1)) fun a => ?_
  match a with
  | ⟨0, _⟩ =>
    show r.val = if R = 1 then 0 else r.val
    split
    · have := r.isLt; omega
    · rfl
  | ⟨1, _⟩ => rfl

/-- A vector with one entry per row, made a column and spread along the rows, reads at (r, c) its entry r. -/
theorem bcast_perRow_apply {α : Type} {R C : Nat} (h1 : (⟨1, ![R]⟩ : Shape).BroadcastsInDim (⟨2, ![R, 1]⟩ : Shape) ![0])
    (h2 : (⟨2, ![R, 1]⟩ : Shape).BroadcastsInDim (⟨2, ![R, C]⟩ : Shape) ![0, 1])
    (v : (⟨1, ![R]⟩ : Shape).Idx → α) (r : Fin R) (c : Fin C) :
    broadcastInDim (⟨2, ![R, C]⟩ : Shape) ![0, 1] h2 (broadcastInDim (⟨2, ![R, 1]⟩ : Shape) ![0] h1 v) (ix2 r c) = v (ix1 r) := by
  exact (bcast_alongRows_apply h2 _ r c).trans (bcast_column_apply h1 v r 0)

/-- A vector with one entry per column, made a row and spread down the columns, reads at (r, c) its entry c. -/
theorem bcast_perCol_apply {α : Type} {R C : Nat} (h1 : (⟨1, ![C]⟩ : Shape).BroadcastsInDim (⟨2, ![1, C]⟩ : Shape) ![1])
    (h2 : (⟨2, ![1, C]⟩ : Shape).BroadcastsInDim (⟨2, ![R, C]⟩ : Shape) ![0, 1])
    (v : (⟨1, ![C]⟩ : Shape).Idx → α) (r : Fin R) (c : Fin C) :
    broadcastInDim (⟨2, ![R, C]⟩ : Shape) ![0, 1] h2 (broadcastInDim (⟨2, ![1, C]⟩ : Shape) ![1] h1 v) (ix2 r c) = v (ix1 c) := by
  have hc : ∀ m : Nat, ∀ c : Fin C, c.val = if C = 1 then 0 else c.val := fun _ c => by
    split
    · have := c.isLt; omega
    · rfl
  refine (broadcastInDim_apply _ h2 _ _ (ix2 (0 : Fin 1) c) fun a => ?_).trans
    (broadcastInDim_apply _ h1 v _ (ix1 c) fun a => ?_)
  · match a with
    | ⟨0, _⟩ => rfl
    | ⟨1, _⟩ => exact hc 0 c
  · match a with
    | ⟨0, _⟩ => exact hc 0 c

end Cert.LibRowRead

end
-- ==== Proof.LibCastBcast.lean ====
/-
  A rank-1 array recast as a one-column or a one-row matrix is the same array as the one
  `broadcast_in_dim` makes of it along that axis: both read, at every index, the vector's entry at the
  index's one non-unit coordinate.
-/
import Idealize.ShloMosaic.Lib.Pipeline.Value
import Idealize.ShloMosaic.Lib.ValueIdx

namespace Cert.LibCastBcast

open Idealize.ShloMosaic Idealize.ShloMosaic.ValueIdx

variable {α : Type}

/-- An `[a]` vector recast to the column `[a, 1]` is its `broadcast_in_dim` along axis 0. -/
theorem column_cast_eq_bcast {a : ℕ} (x : (⟨1, ![a]⟩ : Shape).Idx → α)
    (h : (⟨1, ![a]⟩ : Shape).ShapeCasts ⟨2, ![a, 1]⟩)
    (h' : (⟨1, ![a]⟩ : Shape).BroadcastsInDim (⟨2, ![a, 1]⟩ : Shape) ![0]) :
    shapeCast ⟨2, ![a, 1]⟩ x h = broadcastInDim (⟨2, ![a, 1]⟩ : Shape) ![0] h' x := by
  funext j
  obtain ⟨p, u, rfl⟩ : ∃ (p : Fin a) (u : Fin 1), j = ix2 p u := ⟨j 0, j 1, eq_ix2 j⟩
  have hu : u.val = 0 := by omega
  refine (shapeCast_apply x h _ (ix1 p) ?_).trans (broadcastInDim_apply _ h' x _ (ix1 p) fun ax => ?_).symm
  · rw [Shape.rowMajor_val_two, Shape.rowMajor_val_one]
    show p.val = p.val * 1 + u.val
    rw [hu, Nat.mul_one, Nat.add_zero]
  · match ax with
    | ⟨0, _⟩ =>
      show p.val = if a = 1 then 0 else p.val
      split
      · have := p.isLt; omega
      · rfl

/-- A `[b]` vector recast to the row `[1, b]` is its `broadcast_in_dim` along axis 1. -/
theorem row_cast_eq_bcast {b : ℕ} (x : (⟨1, ![b]⟩ : Shape).Idx → α)
    (h : (⟨1, ![b]⟩ : Shape).ShapeCasts ⟨2, ![1, b]⟩)
    (h' : (⟨1, ![b]⟩ : Shape).BroadcastsInDim (⟨2, ![1, b]⟩ : Shape) ![1]) :
    shapeCast ⟨2, ![1, b]⟩ x h = broadcastInDim (⟨2, ![1, b]⟩ : Shape) ![1] h' x := by
  funext j
  obtain ⟨u, q, rfl⟩ : ∃ (u : Fin 1) (q : Fin b), j = ix2 u q := ⟨j 0, j 1, eq_ix2 j⟩
  have hu : u.val = 0 := by omega
  refine (shapeCast_apply x h _ (ix1 q) ?_).trans (broadcastInDim_apply _ h' x _ (ix1 q) fun ax => ?_).symm
  · rw [Shape.rowMajor_val_two, Shape.rowMajor_val_one]
    show q.val = u.val * b + q.val
    rw [hu, Nat.zero_mul, Nat.zero_add]
  · match ax with
    | ⟨0, _⟩ =>
      show q.val = if b = 1 then 0 else q.val
      split
      · have := q.isLt; omega
      · rfl

end Cert.LibCastBcast
-- ==== Proof.HostLin.lean ====
/-
  The reference's linear layer and rectified aggregation, as written with whole-matrix operations, are the row-wise
  functions of the specification: the host's product read at an entry is the row-by-matrix product, a bias vector laid
  out as a row and spread down the rows adds the bias entry of the column, and the rectifier is the maximum with zero.
-/
import proofs.«137000_g78030965833912_cont_9to1_m_1096_2_alg».proof.Proof.SpecHost
import proofs.«137000_g78030965833912_cont_9to1_m_1096_2_alg».proof.Proof.Out
import proofs.«137000_g78030965833912_cont_9to1_m_1096_2_alg».proof.Proof.Gen.ReferenceIdeal
import proofs.«137000_g78030965833912_cont_9to1_m_1096_2_alg».proof.Proof.LibDot
import proofs.«137000_g78030965833912_cont_9to1_m_1096_2_alg».proof.Proof.LibRowRead
import proofs.«137000_g78030965833912_cont_9to1_m_1096_2_alg».proof.Proof.LibCastBcast
import Idealize.ShloMosaic.Lib.Pipeline.Value
import Idealize.ShloMosaic.Lib.ValueLayout
import Idealize.ShloMosaic.PureOps.Ideal.Laws

noncomputable section

open scoped BigOperators
open Idealize.ShloMosaic Idealize.ShloMosaic.TcCoe

namespace Cert.ReferenceIdeal.Hand

open Cert.ReferenceIdeal Cert.ReferenceIdeal.Facts₀ Cert.ReferenceIdeal.Facts Cert.Spec Idealize.ShloMosaic.ValueIdx

/-- A bias vector laid out as a one-row matrix by a recast is the one-row matrix its broadcast makes. -/
private theorem rowOf_eq_bcast (b : FVec Ideal S128 .f32) :
    Cert.KernelIdeal.Hand.rowOf b = broadcastInDim S1x128 ![1] bcast_S128_S1x128_1 b :=
  Cert.LibCastBcast.row_cast_eq_bcast b _ _

/-- A one-row matrix spread down the rows reads, at (r, q), its entry (0, q). -/
private theorem spread_rows_apply (v : Mat 1 128) (r : Fin 10000) (q : Fin 128) :
    broadcastInDim S10000x128 ![0, 1] bcast_S1x128_S10000x128_0_1 v (ix2 r q) = v (ix2 (0 : Fin 1) q) := by
  refine broadcastInDim_apply _ bcast_S1x128_S10000x128_0_1 v _ (ix2 (0 : Fin 1) q) fun a => ?_
  match a with
  | ⟨0, _⟩ => rfl
  | ⟨1, _⟩ =>
    show q.val = if (128 : ℕ) = 1 then 0 else q.val
    rw [if_neg (by decide)]

/-- `x · w + b`: the product plus the bias vector laid out as a row and spread down the rows. -/
theorem host_lin (x : Mat 10000 128) (w : Mat 128 128) (b : FVec Ideal S128 .f32) :
    addf (Host.dotGeneral dot_S10000x128_S128x128_S10000x128_1_0_0_1_n_n none x w)
        (broadcastInDim S10000x128 ![0, 1] bcast_S1x128_S10000x128_0_1 (broadcastInDim S1x128 ![1] bcast_S128_S1x128_1 b))
      = prepS (R := 10000) (K := 128) (C := 128) x w (Cert.KernelIdeal.Hand.rowOf b) := by
  funext j
  obtain ⟨r, q, rfl⟩ : ∃ (r : Fin 10000) (q : Fin 128), j = ix2 r q := ⟨j 0, j 1, eq_ix2 j⟩
  rw [← rowOf_eq_bcast]
  show Host.dotGeneral dot_S10000x128_S128x128_S10000x128_1_0_0_1_n_n none x w (ix2 r q)
        + broadcastInDim S10000x128 ![0, 1] bcast_S1x128_S10000x128_0_1 (Cert.KernelIdeal.Hand.rowOf b) (ix2 r q)
      = (∑ k : Fin 128, x (ix2 r k) * w (ix2 k q)) + Cert.KernelIdeal.Hand.rowOf b (ix2 (0 : Fin 1) q)
  rw [spread_rows_apply]
  exact congrArg (· + Cert.KernelIdeal.Hand.rowOf b (ix2 (0 : Fin 1) q))
    (Cert.LibDot.dotGeneral_at dot_S10000x128_S128x128_S10000x128_1_0_0_1_n_n rfl rfl rfl rfl rfl rfl none .single x w r q)

/-- The zero word is the number zero. -/
private theorem ofBits_zero : Ideal.ofBits .f32 0x00000000#32 = 0 := by
  simp [Ideal.ofBits, Ideal.ieee]

/-- `relu (adj · s)`: the product's maximum with the zero matrix. -/
theorem host_agg (adj : Mat 10000 10000) (s : Mat 10000 128) :
    maximumf (Host.dotGeneral dot_S10000x10000_S10000x128_S10000x128_1_0_0_1_n_n none adj s)
        (broadcastInDim S10000x128 ![] bcast_S_S10000x128 (constant (F := Ideal) S_ .f32 0x00000000#32))
      = aggS (R := 10000) (N := 10000) (C := 128) adj s := by
  funext j
  obtain ⟨r, q, rfl⟩ : ∃ (r : Fin 10000) (q : Fin 128), j = ix2 r q := ⟨j 0, j 1, eq_ix2 j⟩
  have hz : broadcastInDim S10000x128 ![] bcast_S_S10000x128 (constant (F := Ideal) S_ .f32 0x00000000#32) (ix2 r q) = 0 := by
    refine (broadcastInDim_apply _ bcast_S_S10000x128 _ _ (fun a => a.elim0) fun a => a.elim0).trans ?_
    show Ideal.ofBits .f32 0x00000000#32 = 0
    exact ofBits_zero
  show max (Host.dotGeneral dot_S10000x10000_S10000x128_S10000x128_1_0_0_1_n_n none adj s (ix2 r q))
        (broadcastInDim S10000x128 ![] bcast_S_S10000x128 (constant (F := Ideal) S_ .f32 0x00000000#32) (ix2 r q))
      = max (∑ k : Fin 10000, adj (ix2 r k) * s (ix2 k q)) 0
  rw [hz]
  exact congrArg (max · 0)
    (Cert.LibDot.dotGeneral_at dot_S10000x10000_S10000x128_S10000x128_1_0_0_1_n_n rfl rfl rfl rfl rfl rfl none .single adj s r q)

end Cert.ReferenceIdeal.Hand

end
-- ==== Proof.HostAtt.lean ====
/-
  The reference's split attention, as written with whole-matrix operations — two products for the logits, the row maximum
  (guarded once more by a maximum with −∞), the exponentials of the shifted logits, their row sum from zero, the quotient
  and the reweighting — is the attention of the specification on every row.
-/
import proofs.«137000_g78030965833912_cont_9to1_m_1096_2_alg».proof.Proof.SpecHost
import proofs.«137000_g78030965833912_cont_9to1_m_1096_2_alg».proof.Proof.Out
import proofs.«137000_g78030965833912_cont_9to1_m_1096_2_alg».proof.Proof.Gen.ReferenceIdeal
import proofs.«137000_g78030965833912_cont_9to1_m_1096_2_alg».proof.Proof.LibDot
import proofs.«137000_g78030965833912_cont_9to1_m_1096_2_alg».proof.Proof.LibRowRead
import proofs.«137000_g78030965833912_cont_9to1_m_1096_2_alg».proof.Proof.LibCastBcast
import Idealize.ShloMosaic.Lib.Pipeline.Value
import Idealize.ShloMosaic.Lib.ValueLayout
import Idealize.ShloMosaic.PureOps.Ideal.Laws

noncomputable section

open scoped BigOperators
open Idealize.ShloMosaic Idealize.ShloMosaic.TcCoe

namespace Cert.ReferenceIdeal.Hand

open Cert.ReferenceIdeal Cert.ReferenceIdeal.Facts₀ Cert.ReferenceIdeal.Facts Cert.Spec Idealize.ShloMosaic.ValueIdx

/-- The attention term exactly as the program composes it. -/
def hostAttn (h : Mat 10000 128) (A B : Mat 128 128) : Mat 10000 128 :=
  mulf h (Host.divf (Host.exp (subf (Host.dotGeneral dot_S10000x128_S128x128_S10000x128_1_0_0_1_n_n none (Host.dotGeneral dot_S10000x128_S128x128_S10000x128_1_0_0_1_n_n none h A) B) (broadcastInDim S10000x128 ![0, 1] bcast_S10000x1_S10000x128_0_1 (broadcastInDim S10000x1 ![0] bcast_S10000_S10000x1_0 (maximumf (broadcastInDim S10000 ![] bcast_S_S10000 (constant (F := Ideal) S_ .f32 0xFF800000#32)) (Host.reduce FloatOps.maximumf (Host.dotGeneral dot_S10000x128_S128x128_S10000x128_1_0_0_1_n_n none (Host.dotGeneral dot_S10000x128_S128x128_S10000x128_1_0_0_1_n_n none h A) B) (constant (F := Ideal) S_ .f32 0xFF800000#32) reducesTo_S10000x128_S10000_d1 h_S_)))))) (broadcastInDim S10000x128 ![0, 1] bcast_S10000x1_S10000x128_0_1 (broadcastInDim S10000x1 ![0] bcast_S10000_S10000x1_0 (Host.reduceAdd (Host.exp (subf (Host.dotGeneral dot_S10000x128_S128x128_S10000x128_1_0_0_1_n_n none (Host.dotGeneral dot_S10000x128_S128x128_S10000x128_1_0_0_1_n_n none h A) B) (broadcastInDim S10000x128 ![0, 1] bcast_S10000x1_S10000x128_0_1 (broadcastInDim S10000x1 ![0] bcast_S10000_S10000x1_0 (maximumf (broadcastInDim S10000 ![] bcast_S_S10000 (constant (F := Ideal) S_ .f32 0xFF800000#32)) (Host.reduce FloatOps.maximumf (Host.dotGeneral dot_S10000x128_S128x128_S10000x128_1_0_0_1_n_n none (Host.dotGeneral dot_S10000x128_S128x128_S10000x128_1_0_0_1_n_n none h A) B) (constant (F := Ideal) S_ .f32 0xFF800000#32) reducesTo_S10000x128_S10000_d1 h_S_)))))) (constant (F := Ideal) S_ .f32 0x00000000#32) reducesTo_S10000x128_S10000_d1 h_S_))))

/-! ## The pieces of the attention term -/

/-- The host's product at an entry. -/
private theorem hmm_at (x : Mat 10000 128) (w : Mat 128 128) (r : Fin 10000) (c : Fin 128) :
    Host.dotGeneral dot_S10000x128_S128x128_S10000x128_1_0_0_1_n_n none x w (ix2 r c) = vecMat (row x r) w c :=
  Cert.LibDot.dotGeneral_at (R := 10000) (K := 128) (C := 128) dot_S10000x128_S128x128_S10000x128_1_0_0_1_n_n
    rfl rfl rfl rfl rfl rfl none HostSchedule.single x w r c

/-- The logits: two products. -/
private def logits (h : Mat 10000 128) (A B : Mat 128 128) : Mat 10000 128 :=
  Host.dotGeneral dot_S10000x128_S128x128_S10000x128_1_0_0_1_n_n none (Host.dotGeneral dot_S10000x128_S128x128_S10000x128_1_0_0_1_n_n none h A) B

/-- Row r of the logits is `(h r · A) · B`. -/
private theorem logits_row (h : Mat 10000 128) (A B : Mat 128 128) (r : Fin 10000) :
    row (logits h A B) r = vecMat (vecMat (row h r) A) B := by
  funext c
  refine (hmm_at _ B r c).trans ?_
  refine congrArg (fun a => vecMat a B c) (funext fun k => ?_)
  exact hmm_at h A r k

/-- A row's largest entry (guarded by a maximum with −∞), laid along the row. -/
private def hMaxB (L : Mat 10000 128) : Mat 10000 128 :=
  broadcastInDim S10000x128 ![0, 1] bcast_S10000x1_S10000x128_0_1 (broadcastInDim S10000x1 ![0] bcast_S10000_S10000x1_0 (maximumf (broadcastInDim S10000 ![] bcast_S_S10000 (constant (F := Ideal) S_ .f32 0xFF800000#32)) (Host.reduce FloatOps.maximumf L (constant (F := Ideal) S_ .f32 0xFF800000#32) reducesTo_S10000x128_S10000_d1 h_S_)))

/-- Dropping the column axis of a 10000 × 128 matrix leaves its 10000 rows. -/
private theorem red_rows : (⟨2, ![10000, 128]⟩ : Shape).Reduces [1] (⟨1, ![10000]⟩ : Shape) := by decide

/-- The bit pattern of −∞. -/
private theorem ofBits_neg_inf : Ideal.ofBits .f32 0xFF800000#32 = ⊥ := by simp [Ideal.ofBits, Ideal.ieee]

private theorem hMaxB_at (L : Mat 10000 128) (r : Fin 10000) (c : Fin 128) : hMaxB L (ix2 r c) = rowMax (row L r) := by
  refine (Cert.LibRowRead.bcast_perRow_apply (R := 10000) (C := 128) bcast_S10000_S10000x1_0 bcast_S10000x1_S10000x128_0_1
    (maximumf (broadcastInDim S10000 ![] bcast_S_S10000 (constant (F := Ideal) S_ .f32 0xFF800000#32)) (Host.reduce FloatOps.maximumf L (constant (F := Ideal) S_ .f32 0xFF800000#32) reducesTo_S10000x128_S10000_d1 h_S_)) r c).trans ?_
  refine (maximumf_apply _ _ (ix1 r)).trans ?_
  have e1 : broadcastInDim S10000 ![] bcast_S_S10000 (constant (F := Ideal) S_ .f32 0xFF800000#32) (ix1 r) = ⊥ :=
    (broadcastInDim_apply ![] bcast_S_S10000 (constant (F := Ideal) S_ .f32 0xFF800000#32) (ix1 r) ix0 (fun a => a.elim0)).trans
      ofBits_neg_inf
  have e2 := Cert.LibRowRead.hostReduceMax_row (R := 10000) (C := 128) L 0xFF800000#32 reducesTo_S10000x128_S10000_d1 red_rows h_S_ r
  rw [e1, e2, ofBits_neg_inf]
  exact max_eq_right bot_le

/-- A row's sum from zero, laid along the row. -/
private def hSumB (E : Mat 10000 128) : Mat 10000 128 :=
  broadcastInDim S10000x128 ![0, 1] bcast_S10000x1_S10000x128_0_1 (broadcastInDim S10000x1 ![0] bcast_S10000_S10000x1_0 (Host.reduceAdd E (constant (F := Ideal) S_ .f32 0x00000000#32) reducesTo_S10000x128_S10000_d1 h_S_))

private theorem hSumB_at (E : Mat 10000 128) (r : Fin 10000) (c : Fin 128) : hSumB E (ix2 r c) = ∑ k : Fin 128, E (ix2 r k) := by
  refine (Cert.LibRowRead.bcast_perRow_apply (R := 10000) (C := 128) bcast_S10000_S10000x1_0 bcast_S10000x1_S10000x128_0_1
    (Host.reduceAdd E (constant (F := Ideal) S_ .f32 0x00000000#32) reducesTo_S10000x128_S10000_d1 h_S_) r c).trans ?_
  refine (Cert.LibRowRead.hostReduceAdd_row (R := 10000) (C := 128) E (constant (F := Ideal) S_ .f32 0x00000000#32)
    reducesTo_S10000x128_S10000_d1 red_rows h_S_ r).trans ?_
  have e : constant (F := Ideal) S_ .f32 0x00000000#32 (Shape.Idx.first h_S_) = 0 := Ideal.ofBits_zero_f32
  rw [e, zero_add]

/-- The attention term, in its pieces. -/
private theorem hostAttn_eq (h : Mat 10000 128) (A B : Mat 128 128) :
    hostAttn h A B = mulf h (Host.divf (Host.exp (subf (logits h A B) (hMaxB (logits h A B))))
      (hSumB (Host.exp (subf (logits h A B) (hMaxB (logits h A B)))))) := rfl

/-- The host's exponential and quotient, read at an index. -/
private theorem hexp_apply (x : Mat 10000 128) (i : S10000x128.Idx) : Host.exp x i = Ideal.exp (x i) := rfl

private theorem hdivf_apply (x y : Mat 10000 128) (i : S10000x128.Idx) : Host.divf x y i = Ideal.div (x i) (y i) := rfl

/-- It is the specification's attention on every row. -/
theorem host_attn (h : Mat 10000 128) (A B : Mat 128 128) : hostAttn h A B = attS (R := 10000) (C := 128) h A B := by
  funext j
  obtain ⟨r, q, rfl⟩ : ∃ (r : Fin 10000) (q : Fin 128), j = ix2 r q := ⟨j 0, j 1, eq_ix2 j⟩
  rw [hostAttn_eq]
  have hl : ∀ k : Fin 128, logits h A B (ix2 r k) = vecMat (vecMat (row h r) A) B k :=
    fun k => congrFun (logits_row h A B r) k
  have hE : ∀ k : Fin 128, Host.exp (subf (logits h A B) (hMaxB (logits h A B))) (ix2 r k)
      = Ideal.exp (vecMat (vecMat (row h r) A) B k - rowMax (vecMat (vecMat (row h r) A) B)) := fun k => by
    rw [hexp_apply, subf_apply, hMaxB_at, logits_row, hl]
  refine (mulf_apply h _ (ix2 r q)).trans ?_
  rw [hdivf_apply, hE, hSumB_at,
    show (∑ k : Fin 128, Host.exp (subf (logits h A B) (hMaxB (logits h A B))) (ix2 r k))
        = ∑ k : Fin 128, Ideal.exp (vecMat (vecMat (row h r) A) B k - rowMax (vecMat (vecMat (row h r) A) B))
      from Finset.sum_congr rfl fun k _ => hE k]
  rfl

end Cert.ReferenceIdeal.Hand

end
-- ==== Proof.HostFc.lean ====
/-
  The reference's classifier: the two branches set side by side, one product with the transposed weights over the 256 joined
  channels, plus the bias. The sum over the 256 channels is the sum over the first branch's 128 plus the sum over the second's
  128, each against its own half of the weights' rows: the classifier of the specification with the two slices.
-/
import proofs.«137000_g78030965833912_cont_9to1_m_1096_2_alg».proof.Proof.SpecHost
import proofs.«137000_g78030965833912_cont_9to1_m_1096_2_alg».proof.Proof.Out
import proofs.«137000_g78030965833912_cont_9to1_m_1096_2_alg».proof.Proof.Gen.ReferenceIdeal
import proofs.«137000_g78030965833912_cont_9to1_m_1096_2_alg».proof.Proof.LibDot
import proofs.«137000_g78030965833912_cont_9to1_m_1096_2_alg».proof.Proof.LibRowRead
import proofs.«137000_g78030965833912_cont_9to1_m_1096_2_alg».proof.Proof.LibCastBcast
import Idealize.ShloMosaic.Lib.Pipeline.Value
import Idealize.ShloMosaic.Lib.ValueLayout
import Idealize.ShloMosaic.PureOps.Ideal.Laws

noncomputable section

open scoped BigOperators
open Idealize.ShloMosaic Idealize.ShloMosaic.TcCoe

namespace Cert.ReferenceIdeal.Hand

open Cert.ReferenceIdeal Cert.ReferenceIdeal.Facts₀ Cert.ReferenceIdeal.Facts Cert.Spec Idealize.ShloMosaic.ValueIdx

namespace Fc

/-- A sum over the 256 joined channels is the sum over the first 128 plus the sum over the last 128. -/
private theorem sum_split (f : Fin 256 → EReal) :
    ∑ k : Fin 256, f k
      = (∑ k : Fin 128, f ⟨k.val, Nat.lt_of_lt_of_le k.isLt (by decide)⟩)
        + ∑ k : Fin 128, f ⟨128 + k.val, Nat.add_lt_add_left k.isLt 128⟩ :=
  Fin.sum_univ_add (a := 128) (b := 128) f

/-- In its first 128 columns the joined matrix is the first branch. -/
private theorem cat_left (h1 h2 : Mat 10000 128) (r : Fin 10000) (k : Fin 128) :
    concatenate S10000x256 1 [⟨S10000x128, h1⟩, ⟨S10000x128, h2⟩] concatenates_S10000x128_S10000x128_S10000x256_d1
        (ix2 r (⟨k.val, Nat.lt_of_lt_of_le k.isLt (by decide)⟩ : Fin 256)) = h1 (ix2 r k) :=
  concatenate_pair_apply_left (t := S10000x256) (s₁ := S10000x128) (s₂ := S10000x128) 1 h1 h2
    concatenates_S10000x128_S10000x128_S10000x256_d1 _ rfl (ix2 r k) fun b => by
    match b with
    | ⟨0, _⟩ => rfl
    | ⟨1, _⟩ => rfl

/-- In its last 128 columns it is the second branch. -/
private theorem cat_right (h1 h2 : Mat 10000 128) (r : Fin 10000) (k : Fin 128) :
    concatenate S10000x256 1 [⟨S10000x128, h1⟩, ⟨S10000x128, h2⟩] concatenates_S10000x128_S10000x128_S10000x256_d1
        (ix2 r (⟨128 + k.val, Nat.add_lt_add_left k.isLt 128⟩ : Fin 256)) = h2 (ix2 r k) :=
  concatenate_pair_apply_right (t := S10000x256) (s₁ := S10000x128) (s₂ := S10000x128) 1 h1 h2
    concatenates_S10000x128_S10000x128_S10000x256_d1 _ rfl rfl (ix2 r k)
    (fun b hb => by
      match b with
      | ⟨0, _⟩ => rfl
      | ⟨1, _⟩ => exact absurd rfl hb)
    (by show k.val + 128 = 128 + k.val; omega)

/-- The first half of the weights' rows, read at an entry. -/
private theorem wa_apply (wt : Mat 256 8) (k : Fin 128) (d : Fin 8) :
    extractStridedSlice Cert.KernelIdeal.S128x8 ![0, 0] wt Cert.KernelIdeal.Facts₀.slices_S256x8_S128x8_0_0 (ix2 k d)
      = wt (ix2 (⟨k.val, Nat.lt_of_lt_of_le k.isLt (by decide)⟩ : Fin 256) d) := by
  refine extractStridedSlice_apply _ wt _ (ix2 k d) _ fun a => ?_
  match a with
  | ⟨0, _⟩ => show k.val = 0 + k.val; omega
  | ⟨1, _⟩ => show d.val = 0 + d.val; omega

/-- The second half of the weights' rows, read at an entry. -/
private theorem wb_apply (wt : Mat 256 8) (k : Fin 128) (d : Fin 8) :
    extractStridedSlice Cert.KernelIdeal.S128x8 ![128, 0] wt Cert.KernelIdeal.Facts₀.slices_S256x8_S128x8_128_0 (ix2 k d)
      = wt (ix2 (⟨128 + k.val, Nat.add_lt_add_left k.isLt 128⟩ : Fin 256) d) := by
  refine extractStridedSlice_apply _ wt _ (ix2 k d) _ fun a => ?_
  match a with
  | ⟨0, _⟩ => show 128 + k.val = 128 + k.val; rfl
  | ⟨1, _⟩ => show d.val = 0 + d.val; omega

/-- The bias vector recast as a row reads, at column `d`, its entry `d`. -/
private theorem bias_row (b : FVec Ideal S8 .f32) (d : Fin 8) :
    shapeCast Cert.KernelIdeal.S1x8 b Cert.KernelIdeal.Facts₀.shapeCasts_S8_S1x8 (ix2 (0 : Fin 1) d) = b (ix1 d) := by
  refine shapeCast_apply b _ _ (ix1 d) ?_
  rw [Shape.rowMajor_val_two, Shape.rowMajor_val_one]
  show d.val = 0 * 8 + d.val
  omega

end Fc

/-- The joined product plus bias is the two-halves classifier. -/
theorem host_fc (h1 h2 : Mat 10000 128) (wt : Mat 256 8) (b : FVec Ideal S8 .f32) :
    addf (Host.dotGeneral dot_S10000x256_S256x8_S10000x8_1_0_0_1_n_n none
          (concatenate S10000x256 1 [⟨S10000x128, h1⟩, ⟨S10000x128, h2⟩] concatenates_S10000x128_S10000x128_S10000x256_d1) wt)
        (broadcastInDim S10000x8 ![0, 1] bcast_S1x8_S10000x8_0_1 (broadcastInDim S1x8 ![1] bcast_S8_S1x8_1 b))
      = fcS (R := 10000) (C := 128) (D := 8) h1 h2
          (extractStridedSlice Cert.KernelIdeal.S128x8 ![0, 0] wt Cert.KernelIdeal.Facts₀.slices_S256x8_S128x8_0_0)
          (extractStridedSlice Cert.KernelIdeal.S128x8 ![128, 0] wt Cert.KernelIdeal.Facts₀.slices_S256x8_S128x8_128_0)
          (shapeCast Cert.KernelIdeal.S1x8 b Cert.KernelIdeal.Facts₀.shapeCasts_S8_S1x8) := by
  funext j
  obtain ⟨r, d, rfl⟩ : ∃ (r : Fin 10000) (d : Fin 8), j = ix2 r d := ⟨j 0, j 1, eq_ix2 j⟩
  rw [addf_apply]
  simp only [Host.dotGeneral]
  rw [Cert.LibDot.dotGeneral_at dot_S10000x256_S256x8_S10000x8_1_0_0_1_n_n rfl rfl rfl rfl rfl rfl none .single _ wt r d,
    Cert.LibRowRead.bcast_perCol_apply bcast_S8_S1x8_1 bcast_S1x8_S10000x8_0_1 b r d]
  show _ = (∑ k : Fin 128, h1 (ix2 r k) * extractStridedSlice Cert.KernelIdeal.S128x8 ![0, 0] wt Cert.KernelIdeal.Facts₀.slices_S256x8_S128x8_0_0 (ix2 k d))
      + (∑ k : Fin 128, h2 (ix2 r k) * extractStridedSlice Cert.KernelIdeal.S128x8 ![128, 0] wt Cert.KernelIdeal.Facts₀.slices_S256x8_S128x8_128_0 (ix2 k d))
      + shapeCast Cert.KernelIdeal.S1x8 b Cert.KernelIdeal.Facts₀.shapeCasts_S8_S1x8 (ix2 (0 : Fin 1) d)
  rw [Fc.bias_row, Fc.sum_split]
  congr 1
  congr 1
  · refine Finset.sum_congr rfl fun k _ => ?_
    rw [Fc.cat_left, Fc.wa_apply]
  · refine Finset.sum_congr rfl fun k _ => ?_
    rw [Fc.cat_right, Fc.wb_apply]

end Cert.ReferenceIdeal.Hand

end
-- ==== Proof.RefValue.lean ====
/-
  The reference program's result as the network of its arguments: its operations, composed, are the same layers on
  whole matrices — a product with a transposed weight matrix plus a bias row spread down the rows, a rectified
  product with the adjacency, the softmax written with an explicit row maximum and row sum, and at the end one product
  of the two branches set side by side with the classifier's transposed weights, which splits into the two halves.
-/
import proofs.«137000_g78030965833912_cont_9to1_m_1096_2_alg».proof.Proof.Out
import proofs.«137000_g78030965833912_cont_9to1_m_1096_2_alg».proof.Proof.RefRun
import proofs.«137000_g78030965833912_cont_9to1_m_1096_2_alg».proof.Proof.HostLin
import proofs.«137000_g78030965833912_cont_9to1_m_1096_2_alg».proof.Proof.HostAtt
import proofs.«137000_g78030965833912_cont_9to1_m_1096_2_alg».proof.Proof.HostFc

noncomputable section

open Idealize.ShloMosaic Idealize.ShloMosaic.TcCoe Idealize.SL.Sem

namespace Cert.ReferenceIdeal.Hand

open Cert.ReferenceIdeal Cert.ReferenceIdeal.Gen Cert.Spec Idealize.ShloMosaic.ValueIdx Idealize.ShloMosaic.StableHlo

variable (m : (ℓ : Loc nD τ sig) → Buf (Elt Ideal) ℓ) (ρ : Dev nD → PrngReg)

open Cert.KernelIdeal.Hand (tr rowOf trFc outOf)

/-! ## The first window: what it leaves in the buffers the second window reads -/

set_option maxRecDepth 8192 in
set_option maxHeartbeats 4000000 in
/-- The first branch's output: two graph layers over the first adjacency. -/
theorem w_v45 (c : Dev nD) :
    after (Cert.ReferenceIdeal.RunP.ops0 (F := Ideal)) (launchContents m c) (Proc.devRef .tc main_v45)
      = branch (m ((c.tc : Thread nD τ).loc main_arg0)) (m ((c.tc : Thread nD τ).loc main_arg1))
          (tr (m ((c.tc : Thread nD τ).loc main_arg4))) (rowOf (m ((c.tc : Thread nD τ).loc main_arg5)))
          (tr (m ((c.tc : Thread nD τ).loc main_arg6))) (rowOf (m ((c.tc : Thread nD τ).loc main_arg7)))
          (tr (m ((c.tc : Thread nD τ).loc main_arg8))) (tr (m ((c.tc : Thread nD τ).loc main_arg9)))
          (tr (m ((c.tc : Thread nD τ).loc main_arg10))) (tr (m ((c.tc : Thread nD τ).loc main_arg11))) := by
  have e := host_attn
  unfold hostAttn at e
  after_results_simp
  simp only [StableHlo.TRef.ofBuf, StableHlo.TRef.toBuf, cast_eq]
  rw [host_lin, host_lin, host_agg, host_agg, e, e]
  simp only [branch, midS_eq, lastS_eq]

set_option maxRecDepth 8192 in
set_option maxHeartbeats 4000000 in
/-- The second branch's first rectified aggregation. -/
theorem w_v52 (c : Dev nD) :
    after (Cert.ReferenceIdeal.RunP.ops0 (F := Ideal)) (launchContents m c) (Proc.devRef .tc main_v52)
      = aggS (m ((c.tc : Thread nD τ).loc main_arg3)) (prepS (m ((c.tc : Thread nD τ).loc main_arg2))
          (tr (m ((c.tc : Thread nD τ).loc main_arg4))) (rowOf (m ((c.tc : Thread nD τ).loc main_arg5)))) := by
  after_results_simp
  simp only [StableHlo.TRef.ofBuf, StableHlo.TRef.toBuf, cast_eq]
  rw [host_lin, host_agg]

set_option maxRecDepth 8192 in
set_option maxHeartbeats 4000000 in
/-- The first attention matrix, transposed. -/
theorem w_v53 (c : Dev nD) :
    after (Cert.ReferenceIdeal.RunP.ops0 (F := Ideal)) (launchContents m c) (Proc.devRef .tc main_v53)
      = tr (m ((c.tc : Thread nD τ).loc main_arg8)) := by
  after_results_simp

set_option maxRecDepth 8192 in
set_option maxHeartbeats 4000000 in
/-- The first window leaves the arguments the second window reads as they were. -/
theorem w_args (c : Dev nD) :
    after (Cert.ReferenceIdeal.RunP.ops0 (F := Ideal)) (launchContents m c) (Proc.devRef .tc main_arg3) = m ((c.tc : Thread nD τ).loc main_arg3)
    ∧ after (Cert.ReferenceIdeal.RunP.ops0 (F := Ideal)) (launchContents m c) (Proc.devRef .tc main_arg6) = m ((c.tc : Thread nD τ).loc main_arg6)
    ∧ after (Cert.ReferenceIdeal.RunP.ops0 (F := Ideal)) (launchContents m c) (Proc.devRef .tc main_arg7) = m ((c.tc : Thread nD τ).loc main_arg7)
    ∧ after (Cert.ReferenceIdeal.RunP.ops0 (F := Ideal)) (launchContents m c) (Proc.devRef .tc main_arg9) = m ((c.tc : Thread nD τ).loc main_arg9)
    ∧ after (Cert.ReferenceIdeal.RunP.ops0 (F := Ideal)) (launchContents m c) (Proc.devRef .tc main_arg10) = m ((c.tc : Thread nD τ).loc main_arg10)
    ∧ after (Cert.ReferenceIdeal.RunP.ops0 (F := Ideal)) (launchContents m c) (Proc.devRef .tc main_arg11) = m ((c.tc : Thread nD τ).loc main_arg11)
    ∧ after (Cert.ReferenceIdeal.RunP.ops0 (F := Ideal)) (launchContents m c) (Proc.devRef .tc main_arg12) = m ((c.tc : Thread nD τ).loc main_arg12)
    ∧ after (Cert.ReferenceIdeal.RunP.ops0 (F := Ideal)) (launchContents m c) (Proc.devRef .tc main_arg13) = m ((c.tc : Thread nD τ).loc main_arg13) := by
  refine ⟨?_, ?_, ?_, ?_, ?_, ?_, ?_, ?_⟩ <;> (after_results_simp <;> rfl)

/-! ## The second window, from any contents with those buffers as the first window leaves them

  The window ends with the classifier: the two branches' outputs set side by side, one product, the bias. Those last six
  operations are read on their own, from the contents the window's first forty-six operations leave; what those leave in a
  buffer the last six do not write is what the whole window leaves there. -/

/-- The classifier's six operations, the end of the second window. -/
abbrev opsFc {F : FTy → Type} [FloatOps F] : List (HloOp τ sig (Elt F)) :=
  [ binary main_v45 main_v91 main_v92 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)),
    unary main_arg12 main_v93 ((transpose S256x8 [1, 0] · transposes_S8x256_S256x8_1_0) : (⟨S8x256, .f32⟩ : BufTy).Contents (Elt F) → (⟨S256x8, .f32⟩ : BufTy).Contents (Elt F)),
    binary main_v92 main_v93 main_v94 ((fun l r => Host.dotGeneral dot_S10000x256_S256x8_S10000x8_1_0_0_1_n_n none l r) : (⟨S10000x256, .f32⟩ : BufTy).Contents (Elt F) → (⟨S256x8, .f32⟩ : BufTy).Contents (Elt F) → (⟨S10000x8, .f32⟩ : BufTy).Contents (Elt F)),
    unary main_arg13 main_v95 (broadcastInDim S1x8 ![1] bcast_S8_S1x8_1 : (⟨S8, .f32⟩ : BufTy).Contents (Elt F) → (⟨S1x8, .f32⟩ : BufTy).Contents (Elt F)),
    unary main_v95 main_v96 (broadcastInDim S10000x8 ![0, 1] bcast_S1x8_S10000x8_0_1 : (⟨S1x8, .f32⟩ : BufTy).Contents (Elt F) → (⟨S10000x8, .f32⟩ : BufTy).Contents (Elt F)),
    binary main_v94 main_v96 main_v97 (addf : (⟨S10000x8, .f32⟩ : BufTy).Contents (Elt F) → (⟨S10000x8, .f32⟩ : BufTy).Contents (Elt F) → (⟨S10000x8, .f32⟩ : BufTy).Contents (Elt F)) ]

set_option maxRecDepth 8192 in
/-- The second window is its first forty-six operations followed by the classifier's six. -/
theorem ops1_cut : Cert.ReferenceIdeal.RunP.ops1 (F := Ideal) = List.take 46 (Cert.ReferenceIdeal.RunP.ops1 (F := Ideal)) ++ opsFc (F := Ideal) :=
  (List.take_append_drop 46 (Cert.ReferenceIdeal.RunP.ops1 (F := Ideal))).symm

/-- The classifier's operations, composed, over any contents. -/
theorem tail_v97 (W' : Valuation τ sig (Elt Ideal)) :
    after (opsFc (F := Ideal)) W' (Proc.devRef .tc main_v97)
      = (addf (F := Ideal) (Host.dotGeneral (φ₁ := .f32) (φ₂ := .f32) dot_S10000x256_S256x8_S10000x8_1_0_0_1_n_n none
            (concatenate S10000x256 1 [⟨S10000x128, (W' (Proc.devRef .tc main_v45) : Mat 10000 128)⟩, ⟨S10000x128, (W' (Proc.devRef .tc main_v91) : Mat 10000 128)⟩]
              concatenates_S10000x128_S10000x128_S10000x256_d1)
            (transpose S256x8 [1, 0] (W' (Proc.devRef .tc main_arg12) : Mat 8 256) transposes_S8x256_S256x8_1_0))
          (broadcastInDim S10000x8 ![0, 1] bcast_S1x8_S10000x8_0_1
            (broadcastInDim S1x8 ![1] bcast_S8_S1x8_1 (W' (Proc.devRef .tc main_arg13) : FVec Ideal S8 .f32))) : Mat 10000 8) := by
  after_results_simp

/-- The classifier's operations write none of the four buffers they read from the rest of the program. -/
theorem tail_kept (W' : Valuation τ sig (Elt Ideal)) :
    after (opsFc (F := Ideal)) W' (Proc.devRef .tc main_v45) = W' (Proc.devRef .tc main_v45)
    ∧ after (opsFc (F := Ideal)) W' (Proc.devRef .tc main_v91) = W' (Proc.devRef .tc main_v91)
    ∧ after (opsFc (F := Ideal)) W' (Proc.devRef .tc main_arg12) = W' (Proc.devRef .tc main_arg12)
    ∧ after (opsFc (F := Ideal)) W' (Proc.devRef .tc main_arg13) = W' (Proc.devRef .tc main_arg13) := by
  refine ⟨?_, ?_, ?_, ?_⟩ <;> after_results_simp

set_option maxRecDepth 8192 in
set_option maxHeartbeats 4000000 in
/-- The second window leaves the first branch's output and the classifier's two arguments as they were. -/
theorem win1_kept (W : Valuation τ sig (Elt Ideal)) :
    after (Cert.ReferenceIdeal.RunP.ops1 (F := Ideal)) W (Proc.devRef .tc main_v45) = W (Proc.devRef .tc main_v45)
    ∧ after (Cert.ReferenceIdeal.RunP.ops1 (F := Ideal)) W (Proc.devRef .tc main_arg12) = W (Proc.devRef .tc main_arg12)
    ∧ after (Cert.ReferenceIdeal.RunP.ops1 (F := Ideal)) W (Proc.devRef .tc main_arg13) = W (Proc.devRef .tc main_arg13) := by
  refine ⟨?_, ?_, ?_⟩ <;> after_results_simp

set_option maxRecDepth 8192 in
set_option maxHeartbeats 4000000 in
/-- The second branch's output, over contents `W` that hold the second branch's first rectified aggregation, the transposed
    first attention matrix and the arguments. -/
theorem win1_v91 (W : Valuation τ sig (Elt Ideal))
    (x2 : Mat 10000 128) (adj2 : Mat 10000 10000)
    (W1 : Mat 128 128) (b1 : FVec Ideal S128 .f32) (W2 : Mat 128 128) (b2 : FVec Ideal S128 .f32)
    (A11 A12 A21 A22 : Mat 128 128)
    (h52 : W (Proc.devRef .tc main_v52) = aggS adj2 (prepS x2 (tr W1) (rowOf b1)))
    (h53 : W (Proc.devRef .tc main_v53) = tr A11)
    (a3 : W (Proc.devRef .tc main_arg3) = adj2) (a6 : W (Proc.devRef .tc main_arg6) = W2)
    (a7 : W (Proc.devRef .tc main_arg7) = b2) (a9 : W (Proc.devRef .tc main_arg9) = A12)
    (a10 : W (Proc.devRef .tc main_arg10) = A21) (a11 : W (Proc.devRef .tc main_arg11) = A22) :
    after (Cert.ReferenceIdeal.RunP.ops1 (F := Ideal)) W (Proc.devRef .tc main_v91)
      = branch x2 adj2 (tr W1) (rowOf b1) (tr W2) (rowOf b2) (tr A11) (tr A12) (tr A21) (tr A22) := by
  have e := host_attn
  unfold hostAttn at e
  after_results_simp
  simp only [StableHlo.TRef.ofBuf, StableHlo.TRef.toBuf, cast_eq]
  rw [h52, h53, a3, a6, a7, a9, a10, a11]
  rw [e, host_lin, host_agg, e]
  simp only [branch, midS_eq, lastS_eq]

/-- The whole second window at the result buffer. -/
theorem win1 (W : Valuation τ sig (Elt Ideal))
    (x1 : Mat 10000 128) (adj1 : Mat 10000 10000) (x2 : Mat 10000 128) (adj2 : Mat 10000 10000)
    (W1 : Mat 128 128) (b1 : FVec Ideal S128 .f32) (W2 : Mat 128 128) (b2 : FVec Ideal S128 .f32)
    (A11 A12 A21 A22 : Mat 128 128) (Wfc : Mat 8 256) (bfc : FVec Ideal S8 .f32)
    (h45 : W (Proc.devRef .tc main_v45) = branch x1 adj1 (tr W1) (rowOf b1) (tr W2) (rowOf b2) (tr A11) (tr A12) (tr A21) (tr A22))
    (h52 : W (Proc.devRef .tc main_v52) = aggS adj2 (prepS x2 (tr W1) (rowOf b1)))
    (h53 : W (Proc.devRef .tc main_v53) = tr A11)
    (a3 : W (Proc.devRef .tc main_arg3) = adj2) (a6 : W (Proc.devRef .tc main_arg6) = W2)
    (a7 : W (Proc.devRef .tc main_arg7) = b2) (a9 : W (Proc.devRef .tc main_arg9) = A12)
    (a10 : W (Proc.devRef .tc main_arg10) = A21) (a11 : W (Proc.devRef .tc main_arg11) = A22)
    (a12 : W (Proc.devRef .tc main_arg12) = Wfc) (a13 : W (Proc.devRef .tc main_arg13) = bfc) :
    after (Cert.ReferenceIdeal.RunP.ops1 (F := Ideal)) W (Proc.devRef .tc main_v97)
      = outOf x1 adj1 x2 adj2 W1 b1 W2 b2 A11 A12 A21 A22 Wfc bfc := by
  have hcut : after (Cert.ReferenceIdeal.RunP.ops1 (F := Ideal)) W
      = after (opsFc (F := Ideal)) (after (List.take 46 (Cert.ReferenceIdeal.RunP.ops1 (F := Ideal))) W) :=
    (congrArg (fun l => after l W) ops1_cut).trans (after_append _ _ _)
  obtain ⟨k45, k91, k12, k13⟩ := tail_kept (after (List.take 46 (Cert.ReferenceIdeal.RunP.ops1 (F := Ideal))) W)
  obtain ⟨q45, q12, q13⟩ := win1_kept W
  have e45 := (k45.symm.trans (congrFun hcut.symm _)).trans (q45.trans h45)
  have e91 := (k91.symm.trans (congrFun hcut.symm _)).trans (win1_v91 W x2 adj2 W1 b1 W2 b2 A11 A12 A21 A22 h52 h53 a3 a6 a7 a9 a10 a11)
  have e12 := (k12.symm.trans (congrFun hcut.symm _)).trans (q12.trans a12)
  have e13 := (k13.symm.trans (congrFun hcut.symm _)).trans (q13.trans a13)
  rw [hcut, tail_v97, host_fc, e45, e91, e12, e13]
  rfl

/-- The fold of the reference's operations at its result buffer is the network of the arguments. -/
theorem ref_value (c : Dev nD) :
    after (Cert.ReferenceIdeal.RunP.ops (F := Ideal)) (launchContents m c) (Proc.devRef .tc main_v97)
      = Cert.KernelIdeal.Hand.outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  simp only [Cert.ReferenceIdeal.RunP.ops, after_append]
  obtain ⟨a3, a6, a7, a9, a10, a11, a12, a13⟩ := w_args m c
  exact win1 _ _ _ _ _ _ _ _ _ _ _ _ _ _ _ (w_v45 m c) (w_v52 m c) (w_v53 m c) a3 a6 a7 a9 a10 a11 a12 a13

/-- The reference program's run, read: the result at the network of the arguments, the arguments unchanged. -/
theorem ref_run : θ_run defs (onTc (τ := τ) (main (F := Ideal))) ⟨m, fun _ => 0, ρ⟩ (fun r => ∀ c : Dev nD,
      r.2.mem ((c.tc : Thread nD τ).loc main_v97) = Cert.KernelIdeal.Hand.outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (ref_value m c), (h c).2⟩) (Cert.ReferenceIdeal.RunP.run_args m ρ)

end Cert.ReferenceIdeal.Hand

end
-- ==== Proof.lean ====
/-
  The certificate: a Siamese two-branch graph network with split attention, as six fused kernels, against its plain
  reference, over the extended reals.

  Both programs compute one function of their fourteen arguments, `Hand.outOf` (Proof/Out.lean over Proof/Spec.lean): per
  branch two graph layers `h ↦ attend (relu (adj · (h · Wᵀ + b)))`, where `attend` reweights a row by the softmax of its logits
  `(h · A₁ᵀ) · A₂ᵀ`, and then the classifier of the two branches' rows set side by side. The kernel program computes every
  layer in row blocks of 400 and splits the classifier's sum over the 256 joined channels into the first branch's 128 and
  the second's 128; the reference computes whole matrices, writes the softmax with an explicit (doubly guarded) row maximum,
  and keeps the one sum over 256. Every layer acts on rows independently and a finite sum over the extended reals may be
  regrouped, so the two agree entry by entry; no finiteness of the inputs is used.

  Kernel side: each body's stored block is the layer of its loaded blocks (Proof/PayK.lean), the blocks tile each result array
  (Proof/Region0 … Region5), and the arrays are followed through the six regions (Proof/Chain.lean). Reference side: its
  operations, composed, are the same layers (Proof/HostOps.lean, Proof/RefValue.lean). The frames of the two kernel programs
  are the generated ones; the reference's frame is its run with the result dropped; the idealization rewrote nothing.
-/
import proofs.«137000_g78030965833912_cont_9to1_m_1096_2_alg».proof.Defs
import proofs.«137000_g78030965833912_cont_9to1_m_1096_2_alg».proof.Proof.Gen.Kernel
import proofs.«137000_g78030965833912_cont_9to1_m_1096_2_alg».proof.Proof.Gen.Kernel.Skeleton
import proofs.«137000_g78030965833912_cont_9to1_m_1096_2_alg».proof.Proof.Gen.Kernel.Launch
import proofs.«137000_g78030965833912_cont_9to1_m_1096_2_alg».proof.Proof.Gen.Kernel.Points
import proofs.«137000_g78030965833912_cont_9to1_m_1096_2_alg».proof.Proof.Gen.Kernel.Frame
import proofs.«137000_g78030965833912_cont_9to1_m_1096_2_alg».proof.Proof.Gen.KernelIdeal
import proofs.«137000_g78030965833912_cont_9to1_m_1096_2_alg».proof.Proof.Gen.KernelIdeal.Skeleton
import proofs.«137000_g78030965833912_cont_9to1_m_1096_2_alg».proof.Proof.Gen.KernelIdeal.Launch
import proofs.«137000_g78030965833912_cont_9to1_m_1096_2_alg».proof.Proof.Gen.KernelIdeal.Points
import proofs.«137000_g78030965833912_cont_9to1_m_1096_2_alg».proof.Proof.Gen.KernelIdeal.Frame
import proofs.«137000_g78030965833912_cont_9to1_m_1096_2_alg».proof.Proof.Gen.ReferenceIdeal
import proofs.«137000_g78030965833912_cont_9to1_m_1096_2_alg».proof.Proof.Gen.Pre_finite_inputs
import proofs.«137000_g78030965833912_cont_9to1_m_1096_2_alg».proof.Proof.Chain
import proofs.«137000_g78030965833912_cont_9to1_m_1096_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RunP.run_args (F := Ideal) m ρ)

/-- Both runs end at the network of the arguments; the memories agree on the arguments, so the two results are equal. -/
theorem algebraic : Cert.algebraic_KernelIdeal_ReferenceIdeal := by
  intro m ρ m' ρ' _ hagree
  refine ⟨_, Cert.KernelIdeal.Hand.kernel_run m ρ, ?_⟩
  refine (θ_run Cert.ReferenceIdeal.defs _ _).mono (fun _ h c => ⟨(h c).1.trans ?_, (h c).2⟩)
    (Cert.ReferenceIdeal.Hand.ref_run m' ρ')
  obtain ⟨e0, e1, e2, e3, e4, e5, e6, e7, e8, e9, e10, e11, e12, e13⟩ := hagree c
  rw [e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
